-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x3x256x256 : Shape := ⟨4, ![2, 3, 256, 256]⟩
abbrev S2x3x256 : Shape := ⟨3, ![2, 3, 256]⟩
abbrev S256x349 : Shape := ⟨2, ![256, 349]⟩
abbrev S349 : Shape := ⟨1, ![349]⟩
abbrev S2x3x2x250000 : Shape := ⟨4, ![2, 3, 2, 250000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S2x3x256x256 : S_.BroadcastsInDim S2x3x256x256 (![] : Fin 0 → Fin S2x3x256x256.rank)
  reducesTo_S2x3x256x256_S_d0_1_2_3 : S2x3x256x256.ReducesTo [0, 1, 2, 3] S_
  bcast_S_S2x3x256 : S_.BroadcastsInDim S2x3x256 (![] : Fin 0 → Fin S2x3x256.rank)
  reducesTo_S2x3x256_S_d0_1_2 : S2x3x256.ReducesTo [0, 1, 2] S_
  bcast_S_S256x349 : S_.BroadcastsInDim S256x349 (![] : Fin 0 → Fin S256x349.rank)
  reducesTo_S256x349_S_d0_1 : S256x349.ReducesTo [0, 1] S_
  bcast_S_S349 : S_.BroadcastsInDim S349 (![] : Fin 0 → Fin S349.rank)
  reducesTo_S349_S_d0 : S349.ReducesTo [0] S_

variable [Facts]

def fn_part1 {F : FTy → Type} [FloatOps F] (main_arg4 : FVec F S349 .f32) (main_v13 : IVec S_ 1) (main_v16 : IVec S256x349 1) : IVec S_ 1 :=
  let main_c_5 : IVec S_ 1 := constantI S_ 1 1#1
  let main_v17 : IVec S_ 1 := (fun x v => Host.reduce IntOp.andi x v reducesTo_S256x349_S_d0_1 h_S_) main_v16 main_c_5
  let main_v18 : IVec S_ 1 := andi main_v13 main_v17
  let main_v19 : FVec F S349 .f32 := Host.absf main_arg4
  let main_cst_6 : FVec F S_ .f32 := constant S_ .f32 0x7F800000#32
  let main_v20 : FVec F S349 .f32 := broadcastInDim S349 ![] bcast_S_S349 main_cst_6
  let main_v21 : IVec S349 1 := cmpf .olt main_v19 main_v20
  let main_c_7 : IVec S_ 1 := constantI S_ 1 1#1
  let main_v22 : IVec S_ 1 := (fun x v => Host.reduce IntOp.andi x v reducesTo_S349_S_d0 h_S_) main_v21 main_c_7
  let main_v23 : IVec S_ 1 := andi main_v18 main_v22
  main_v23

def fn {F : FTy → Type} [FloatOps F] (main_arg0 : FVec F S50000x256 .f32) (main_arg1 : FVec F S2x3x256x256 .f32) (main_arg2 : FVec F S2x3x256 .f32) (main_arg3 : FVec F S256x349 .f32) (main_arg4 : FVec F S349 .f32) (main_arg5 : IVec S2x3x2x250000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S2x3x256x256 .f32 := Host.absf main_arg1
  let main_cst_0 : FVec F S_ .f32 := constant S_ .f32 0x7F800000#32
  let main_v5 : FVec F S2x3x256x256 .f32 := broadcastInDim S2x3x256x256 ![] bcast_S_S2x3x256x256 main_cst_0
  let main_v6 : IVec S2x3x256x256 1 := cmpf .olt main_v4 main_v5
  let main_c_1 : IVec S_ 1 := constantI S_ 1 1#1
  let main_v7 : IVec S_ 1 := (fun x v => Host.reduce IntOp.andi x v reducesTo_S2x3x256x256_S_d0_1_2_3 h_S_) main_v6 main_c_1
  let main_v8 : IVec S_ 1 := andi main_v3 main_v7
  let main_v9 : FVec F S2x3x256 .f32 := Host.absf main_arg2
  let main_cst_2 : FVec F S_ .f32 := constant S_ .f32 0x7F800000#32
  let main_v10 : FVec F S2x3x256 .f32 := broadcastInDim S2x3x256 ![] bcast_S_S2x3x256 main_cst_2
  let main_v11 : IVec S2x3x256 1 := cmpf .olt main_v9 main_v10
  let main_c_3 : IVec S_ 1 := constantI S_ 1 1#1
  let main_v12 : IVec S_ 1 := (fun x v => Host.reduce IntOp.andi x v reducesTo_S2x3x256_S_d0_1_2 h_S_) main_v11 main_c_3
  let main_v13 : IVec S_ 1 := andi main_v8 main_v12
  let main_v14 : FVec F S256x349 .f32 := Host.absf main_arg3
  let main_cst_4 : FVec F S_ .f32 := constant S_ .f32 0x7F800000#32
  let main_v15 : FVec F S256x349 .f32 := broadcastInDim S256x349 ![] bcast_S_S256x349 main_cst_4
  let main_v16 : IVec S256x349 1 := cmpf .olt main_v14 main_v15
  fn_part1 (F := F) main_arg4 main_v13 main_v16
-- ==== Kernel.lean ====
abbrev S50000x256 : Shape := ⟨2, ![50000, 256]⟩
abbrev S2x3x256x256 : Shape := ⟨4, ![2, 3, 256, 256]⟩
abbrev S2x3x256 : Shape := ⟨3, ![2, 3, 256]⟩
abbrev S256x349 : Shape := ⟨2, ![256, 349]⟩
abbrev S349 : Shape := ⟨1, ![349]⟩
abbrev S2x3x2x250000 : Shape := ⟨4, ![2, 3, 2, 250000]⟩
abbrev S1x1x1x250000 : Shape := ⟨4, ![1, 1, 1, 250000]⟩
abbrev S250000 : Shape := ⟨1, ![250000]⟩
abbrev S_ : Shape := ⟨0, ![]⟩
abbrev S50000 : Shape := ⟨1, ![50000]⟩
abbrev S250000x1 : Shape := ⟨2, ![250000, 1]⟩
abbrev S50000x1 : Shape := ⟨2, ![50000, 1]⟩
abbrev S250000x256 : Shape := ⟨2, ![250000, 256]⟩
abbrev S1x50000x256 : Shape := ⟨3, ![1, 50000, 256]⟩
abbrev S3x50000x256 : Shape := ⟨3, ![3, 50000, 256]⟩
abbrev S1x3x256x256 : Shape := ⟨4, ![1, 3, 256, 256]⟩
abbrev S3x256x256 : Shape := ⟨3, ![3, 256, 256]⟩
abbrev S1x3x256 : Shape := ⟨3, ![1, 3, 256]⟩
abbrev S3x256 : Shape := ⟨2, ![3, 256]⟩
abbrev S3x2000x256 : Shape := ⟨3, ![3, 2000, 256]⟩
abbrev S2000x256 : Shape := ⟨2, ![2000, 256]⟩
abbrev S1x2000x256 : Shape := ⟨3, ![1, 2000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x349 : Shape := ⟨2, ![1, 349]⟩
abbrev S50000x349 : Shape := ⟨2, ![50000, 349]⟩
abbrev S2000x349 : Shape := ⟨2, ![2000, 349]⟩

abbrev nBuf : Space → Nat
  | .hbm => 284
  | .vmem => 18
  | .smem => 0
  | _ => 0

abbrev hbmTy0_0 (i : Nat) : BufTy := match i % 128 with
  | 0 => ⟨S50000x256, .f32⟩
  | 1 => ⟨S2x3x256x256, .f32⟩
  | 2 => ⟨S2x3x256, .f32⟩
  | 3 => ⟨S256x349, .f32⟩
  | 4 => ⟨S349, .f32⟩
  | 5 => ⟨S2x3x2x250000, .i32⟩
  | 6 => ⟨S1x1x1x250000, .i32⟩
  | 7 => ⟨S250000, .i32⟩
  | 8 => ⟨S1x1x1x250000, .i32⟩
  | 9 => ⟨S250000, .i32⟩
  | 10 => ⟨S_, .f32⟩
  | 11 => ⟨S250000, .f32⟩
  | 12 => ⟨S_, .f32⟩
  | 13 => ⟨S50000, .f32⟩
  | 14 => ⟨S250000x1, .i32⟩
  | 15 => ⟨S50000, .f32⟩
  | 16 => ⟨S_, .f32⟩
  | 17 => ⟨S_, .f32⟩
  | 18 => ⟨S50000, .f32⟩
  | 19 => ⟨S50000, .f32⟩
  | 20 => ⟨S_, .f32⟩
  | 21 => ⟨S50000, .f32⟩
  | 22 => ⟨S250000x1, .i32⟩
  | 23 => ⟨S50000, .f32⟩
  | 24 => ⟨S_, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S50000x256, .f32⟩
  | 31 => ⟨S50000x256, .f32⟩
  | 32 => ⟨S_, .i32⟩
  | 33 => ⟨S250000, .i32⟩
  | 34 => ⟨S250000, .i1⟩
  | 35 => ⟨S_, .i32⟩
  | 36 => ⟨S250000, .i32⟩
  | 37 => ⟨S250000, .i32⟩
  | 38 => ⟨S250000, .i32⟩
  | 39 => ⟨S250000x1, .i32⟩
  | 40 => ⟨S250000x256, .f32⟩
  | 41 => ⟨S_, .f32⟩
  | 42 => ⟨S50000x256, .f32⟩
  | 43 => ⟨S250000x1, .i32⟩
  | 44 => ⟨S50000x256, .f32⟩
  | 45 => ⟨S50000, .f32⟩
  | 46 => ⟨S50000x1, .f32⟩
  | 47 => ⟨S50000x256, .f32⟩
  | 48 => ⟨S50000x256, .f32⟩
  | 49 => ⟨S1x1x1x250000, .i32⟩
  | 50 => ⟨S250000, .i32⟩
  | 51 => ⟨S1x1x1x250000, .i32⟩
  | 52 => ⟨S250000, .i32⟩
  | 53 => ⟨S_, .f32⟩
  | 54 => ⟨S250000, .f32⟩
  | 55 => ⟨S_, .f32⟩
  | 56 => ⟨S50000, .f32⟩
  | 57 => ⟨S250000x1, .i32⟩
  | 58 => ⟨S50000, .f32⟩
  | 59 => ⟨S_, .f32⟩
  | 60 => ⟨S_, .f32⟩
  | 61 => ⟨S50000, .f32⟩
  | 62 => ⟨S50000, .f32⟩
  | 63 => ⟨S_, .f32⟩
  | 64 => ⟨S50000, .f32⟩
  | 65 => ⟨S250000x1, .i32⟩
  | 66 => ⟨S50000, .f32⟩
  | 67 => ⟨S_, .f32⟩
  | 68 => ⟨S_, .f32⟩
  | 69 => ⟨S50000, .f32⟩
  | 70 => ⟨S50000, .f32⟩
  | 71 => ⟨S50000, .f32⟩
  | 72 => ⟨S50000x1, .f32⟩
  | 73 => ⟨S50000x256, .f32⟩
  | 74 => ⟨S50000x256, .f32⟩
  | 75 => ⟨S_, .i32⟩
  | 76 => ⟨S250000, .i32⟩
  | 77 => ⟨S250000, .i1⟩
  | 78 => ⟨S_, .i32⟩
  | 79 => ⟨S250000, .i32⟩
  | 80 => ⟨S250000, .i32⟩
  | 81 => ⟨S250000, .i32⟩
  | 82 => ⟨S250000x1, .i32⟩
  | 83 => ⟨S250000x256, .f32⟩
  | 84 => ⟨S_, .f32⟩
  | 85 => ⟨S50000x256, .f32⟩
  | 86 => ⟨S250000x1, .i32⟩
  | 87 => ⟨S50000x256, .f32⟩
  | 88 => ⟨S50000, .f32⟩
  | 89 => ⟨S50000x1, .f32⟩
  | 90 => ⟨S50000x256, .f32⟩
  | 91 => ⟨S50000x256, .f32⟩
  | 92 => ⟨S1x1x1x250000, .i32⟩
  | 93 => ⟨S250000, .i32⟩
  | 94 => ⟨S1x1x1x250000, .i32⟩
  | 95 => ⟨S250000, .i32⟩
  | 96 => ⟨S_, .f32⟩
  | 97 => ⟨S250000, .f32⟩
  | 98 => ⟨S_, .f32⟩
  | 99 => ⟨S50000, .f32⟩
  | 100 => ⟨S250000x1, .i32⟩
  | 101 => ⟨S50000, .f32⟩
  | 102 => ⟨S_, .f32⟩
  | 103 => ⟨S_, .f32⟩
  | 104 => ⟨S50000, .f32⟩
  | 105 => ⟨S50000, .f32⟩
  | 106 => ⟨S_, .f32⟩
  | 107 => ⟨S50000, .f32⟩
  | 108 => ⟨S250000x1, .i32⟩
  | 109 => ⟨S50000, .f32⟩
  | 110 => ⟨S_, .f32⟩
  | 111 => ⟨S_, .f32⟩
  | 112 => ⟨S50000, .f32⟩
  | 113 => ⟨S50000, .f32⟩
  | 114 => ⟨S50000, .f32⟩
  | 115 => ⟨S50000x1, .f32⟩
  | 116 => ⟨S50000x256, .f32⟩
  | 117 => ⟨S50000x256, .f32⟩
  | 118 => ⟨S_, .i32⟩
  | 119 => ⟨S250000, .i32⟩
  | 120 => ⟨S250000, .i1⟩
  | 121 => ⟨S_, .i32⟩
  | 122 => ⟨S250000, .i32⟩
  | 123 => ⟨S250000, .i32⟩
  | 124 => ⟨S250000, .i32⟩
  | 125 => ⟨S250000x1, .i32⟩
  | 126 => ⟨S250000x256, .f32⟩
  | 127 => ⟨S_, .f32⟩
  | _ => ⟨S50000x256, .f32⟩

abbrev hbmTy0_1 (i : Nat) : BufTy := match i % 128 with
  | 0 => ⟨S50000x256, .f32⟩
  | 1 => ⟨S250000x1, .i32⟩
  | 2 => ⟨S50000x256, .f32⟩
  | 3 => ⟨S50000, .f32⟩
  | 4 => ⟨S50000x1, .f32⟩
  | 5 => ⟨S50000x256, .f32⟩
  | 6 => ⟨S50000x256, .f32⟩
  | 7 => ⟨S1x50000x256, .f32⟩
  | 8 => ⟨S1x50000x256, .f32⟩
  | 9 => ⟨S1x50000x256, .f32⟩
  | 10 => ⟨S3x50000x256, .f32⟩
  | 11 => ⟨S1x3x256x256, .f32⟩
  | 12 => ⟨S3x256x256, .f32⟩
  | 13 => ⟨S1x3x256, .f32⟩
  | 14 => ⟨S3x256, .f32⟩
  | 15 => ⟨S50000x256, .f32⟩
  | 16 => ⟨S1x1x1x250000, .i32⟩
  | 17 => ⟨S250000, .i32⟩
  | 18 => ⟨S1x1x1x250000, .i32⟩
  | 19 => ⟨S250000, .i32⟩
  | 20 => ⟨S_, .f32⟩
  | 21 => ⟨S250000, .f32⟩
  | 22 => ⟨S_, .f32⟩
  | 23 => ⟨S50000, .f32⟩
  | 24 => ⟨S250000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S250000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000, .f32⟩
  | 39 => ⟨S50000x1, .f32⟩
  | 40 => ⟨S50000x256, .f32⟩
  | 41 => ⟨S50000x256, .f32⟩
  | 42 => ⟨S_, .i32⟩
  | 43 => ⟨S250000, .i32⟩
  | 44 => ⟨S250000, .i1⟩
  | 45 => ⟨S_, .i32⟩
  | 46 => ⟨S250000, .i32⟩
  | 47 => ⟨S250000, .i32⟩
  | 48 => ⟨S250000, .i32⟩
  | 49 => ⟨S250000x1, .i32⟩
  | 50 => ⟨S250000x256, .f32⟩
  | 51 => ⟨S_, .f32⟩
  | 52 => ⟨S50000x256, .f32⟩
  | 53 => ⟨S250000x1, .i32⟩
  | 54 => ⟨S50000x256, .f32⟩
  | 55 => ⟨S50000, .f32⟩
  | 56 => ⟨S50000x1, .f32⟩
  | 57 => ⟨S50000x256, .f32⟩
  | 58 => ⟨S50000x256, .f32⟩
  | 59 => ⟨S1x1x1x250000, .i32⟩
  | 60 => ⟨S250000, .i32⟩
  | 61 => ⟨S1x1x1x250000, .i32⟩
  | 62 => ⟨S250000, .i32⟩
  | 63 => ⟨S_, .f32⟩
  | 64 => ⟨S250000, .f32⟩
  | 65 => ⟨S_, .f32⟩
  | 66 => ⟨S50000, .f32⟩
  | 67 => ⟨S250000x1, .i32⟩
  | 68 => ⟨S50000, .f32⟩
  | 69 => ⟨S_, .f32⟩
  | 70 => ⟨S_, .f32⟩
  | 71 => ⟨S50000, .f32⟩
  | 72 => ⟨S50000, .f32⟩
  | 73 => ⟨S_, .f32⟩
  | 74 => ⟨S50000, .f32⟩
  | 75 => ⟨S250000x1, .i32⟩
  | 76 => ⟨S50000, .f32⟩
  | 77 => ⟨S_, .f32⟩
  | 78 => ⟨S_, .f32⟩
  | 79 => ⟨S50000, .f32⟩
  | 80 => ⟨S50000, .f32⟩
  | 81 => ⟨S50000, .f32⟩
  | 82 => ⟨S50000x1, .f32⟩
  | 83 => ⟨S50000x256, .f32⟩
  | 84 => ⟨S50000x256, .f32⟩
  | 85 => ⟨S_, .i32⟩
  | 86 => ⟨S250000, .i32⟩
  | 87 => ⟨S250000, .i1⟩
  | 88 => ⟨S_, .i32⟩
  | 89 => ⟨S250000, .i32⟩
  | 90 => ⟨S250000, .i32⟩
  | 91 => ⟨S250000, .i32⟩
  | 92 => ⟨S250000x1, .i32⟩
  | 93 => ⟨S250000x256, .f32⟩
  | 94 => ⟨S_, .f32⟩
  | 95 => ⟨S50000x256, .f32⟩
  | 96 => ⟨S250000x1, .i32⟩
  | 97 => ⟨S50000x256, .f32⟩
  | 98 => ⟨S50000, .f32⟩
  | 99 => ⟨S50000x1, .f32⟩
  | 100 => ⟨S50000x256, .f32⟩
  | 101 => ⟨S50000x256, .f32⟩
  | 102 => ⟨S1x1x1x250000, .i32⟩
  | 103 => ⟨S250000, .i32⟩
  | 104 => ⟨S1x1x1x250000, .i32⟩
  | 105 => ⟨S250000, .i32⟩
  | 106 => ⟨S_, .f32⟩
  | 107 => ⟨S250000, .f32⟩
  | 108 => ⟨S_, .f32⟩
  | 109 => ⟨S50000, .f32⟩
  | 110 => ⟨S250000x1, .i32⟩
  | 111 => ⟨S50000, .f32⟩
  | 112 => ⟨S_, .f32⟩
  | 113 => ⟨S_, .f32⟩
  | 114 => ⟨S50000, .f32⟩
  | 115 => ⟨S50000, .f32⟩
  | 116 => ⟨S_, .f32⟩
  | 117 => ⟨S50000, .f32⟩
  | 118 => ⟨S250000x1, .i32⟩
  | 119 => ⟨S50000, .f32⟩
  | 120 => ⟨S_, .f32⟩
  | 121 => ⟨S_, .f32⟩
  | 122 => ⟨S50000, .f32⟩
  | 123 => ⟨S50000, .f32⟩
  | 124 => ⟨S50000, .f32⟩
  | 125 => ⟨S50000x1, .f32⟩
  | 126 => ⟨S50000x256, .f32⟩
  | 127 => ⟨S50000x256, .f32⟩
  | _ => ⟨S50000x256, .f32⟩

abbrev hbmTy0_2 (i : Nat) : BufTy := match i % 128 with
  | 0 => ⟨S_, .i32⟩
  | 1 => ⟨S250000, .i32⟩
  | 2 => ⟨S250000, .i1⟩
  | 3 => ⟨S_, .i32⟩
  | 4 => ⟨S250000, .i32⟩
  | 5 => ⟨S250000, .i32⟩
  | 6 => ⟨S250000, .i32⟩
  | 7 => ⟨S250000x1, .i32⟩
  | 8 => ⟨S250000x256, .f32⟩
  | 9 => ⟨S_, .f32⟩
  | 10 => ⟨S50000x256, .f32⟩
  | 11 => ⟨S250000x1, .i32⟩
  | 12 => ⟨S50000x256, .f32⟩
  | 13 => ⟨S50000, .f32⟩
  | 14 => ⟨S50000x1, .f32⟩
  | 15 => ⟨S50000x256, .f32⟩
  | 16 => ⟨S50000x256, .f32⟩
  | 17 => ⟨S1x50000x256, .f32⟩
  | 18 => ⟨S1x50000x256, .f32⟩
  | 19 => ⟨S1x50000x256, .f32⟩
  | 20 => ⟨S3x50000x256, .f32⟩
  | 21 => ⟨S1x3x256x256, .f32⟩
  | 22 => ⟨S3x256x256, .f32⟩
  | 23 => ⟨S1x3x256, .f32⟩
  | 24 => ⟨S3x256, .f32⟩
  | 25 => ⟨S50000x256, .f32⟩
  | 26 => ⟨S1x349, .f32⟩
  | 27 => ⟨S50000x349, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S3x2000x256, .f32⟩
  | .local _ .vmem, ⟨1, _⟩ => ⟨S3x2000x256, .f32⟩
  | .local _ .vmem, ⟨2, _⟩ => ⟨S3x256x256, .f32⟩
  | .local _ .vmem, ⟨3, _⟩ => ⟨S3x256, .f32⟩
  | .local _ .vmem, ⟨4, _⟩ => ⟨S2000x256, .f32⟩
  | .local _ .vmem, ⟨5, _⟩ => ⟨S2000x256, .f32⟩
  | .local _ .vmem, ⟨6, _⟩ => ⟨S3x2000x256, .f32⟩
  | .local _ .vmem, ⟨7, _⟩ => ⟨S3x2000x256, .f32⟩
  | .local _ .vmem, ⟨8, _⟩ => ⟨S3x256x256, .f32⟩
  | .local _ .vmem, ⟨9, _⟩ => ⟨S3x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x349, .f32⟩
  | .local _ .vmem, ⟨15, _⟩ => ⟨S1x349, .f32⟩
  | .local _ .vmem, ⟨16, _⟩ => ⟨S2000x349, .f32⟩
  | .local _ .vmem, ⟨17, _⟩ => ⟨S2000x349, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_call2_v0 : Ref sig .tc := ⟨.hbm, 60, rfl⟩
abbrev main_call2_v1 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_call3_v0 : Ref sig .tc := ⟨.hbm, 68, rfl⟩
abbrev main_call3_v1 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_c_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_cst_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_16 : Ref sig .tc := ⟨.hbm, 102, rfl⟩
abbrev main_call4_v0 : Ref sig .tc := ⟨.hbm, 103, rfl⟩
abbrev main_call4_v1 : Ref sig .tc := ⟨.hbm, 104, rfl⟩
abbrev main_v70 : Ref sig .tc := ⟨.hbm, 105, rfl⟩
abbrev main_cst_17 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_18 : Ref sig .tc := ⟨.hbm, 110, rfl⟩
abbrev main_call5_v0 : Ref sig .tc := ⟨.hbm, 111, rfl⟩
abbrev main_call5_v1 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_19 : Ref sig .tc := ⟨.hbm, 118, rfl⟩
abbrev main_v79 : Ref sig .tc := ⟨.hbm, 119, rfl⟩
abbrev main_v80 : Ref sig .tc := ⟨.hbm, 120, rfl⟩
abbrev main_c_20 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_21 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_22 : Ref sig .tc := ⟨.hbm, 148, rfl⟩
abbrev main_v106 : Ref sig .tc := ⟨.hbm, 149, rfl⟩
abbrev main_cst_23 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_24 : Ref sig .tc := ⟨.hbm, 154, rfl⟩
abbrev main_call6_v0 : Ref sig .tc := ⟨.hbm, 155, rfl⟩
abbrev main_call6_v1 : Ref sig .tc := ⟨.hbm, 156, rfl⟩
abbrev main_v110 : Ref sig .tc := ⟨.hbm, 157, rfl⟩
abbrev main_cst_25 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_26 : Ref sig .tc := ⟨.hbm, 162, rfl⟩
abbrev main_call7_v0 : Ref sig .tc := ⟨.hbm, 163, rfl⟩
abbrev main_call7_v1 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_27 : Ref sig .tc := ⟨.hbm, 170, rfl⟩
abbrev main_v119 : Ref sig .tc := ⟨.hbm, 171, rfl⟩
abbrev main_v120 : Ref sig .tc := ⟨.hbm, 172, rfl⟩
abbrev main_c_28 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_29 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_30 : Ref sig .tc := ⟨.hbm, 191, rfl⟩
abbrev main_v137 : Ref sig .tc := ⟨.hbm, 192, rfl⟩
abbrev main_cst_31 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_32 : Ref sig .tc := ⟨.hbm, 197, rfl⟩
abbrev main_call8_v0 : Ref sig .tc := ⟨.hbm, 198, rfl⟩
abbrev main_call8_v1 : Ref sig .tc := ⟨.hbm, 199, rfl⟩
abbrev main_v141 : Ref sig .tc := ⟨.hbm, 200, rfl⟩
abbrev main_cst_33 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_34 : Ref sig .tc := ⟨.hbm, 205, rfl⟩
abbrev main_call9_v0 : Ref sig .tc := ⟨.hbm, 206, rfl⟩
abbrev main_call9_v1 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_c_35 : Ref sig .tc := ⟨.hbm, 213, rfl⟩
abbrev main_v150 : Ref sig .tc := ⟨.hbm, 214, rfl⟩
abbrev main_v151 : Ref sig .tc := ⟨.hbm, 215, rfl⟩
abbrev main_c_36 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_cst_37 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_cst_38 : Ref sig .tc := ⟨.hbm, 234, rfl⟩
abbrev main_v168 : Ref sig .tc := ⟨.hbm, 235, rfl⟩
abbrev main_cst_39 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_cst_40 : Ref sig .tc := ⟨.hbm, 240, rfl⟩
abbrev main_call10_v0 : Ref sig .tc := ⟨.hbm, 241, rfl⟩
abbrev main_call10_v1 : Ref sig .tc := ⟨.hbm, 242, rfl⟩
abbrev main_v172 : Ref sig .tc := ⟨.hbm, 243, rfl⟩
abbrev main_cst_41 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_cst_42 : Ref sig .tc := ⟨.hbm, 248, rfl⟩
abbrev main_call11_v0 : Ref sig .tc := ⟨.hbm, 249, rfl⟩
abbrev main_call11_v1 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_c_43 : Ref sig .tc := ⟨.hbm, 256, rfl⟩
abbrev main_v181 : Ref sig .tc := ⟨.hbm, 257, rfl⟩
abbrev main_v182 : Ref sig .tc := ⟨.hbm, 258, rfl⟩
abbrev main_c_44 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_cst_45 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x349 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x349 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x349 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3x2x250000_S1x1x1x250000_0_0_0_0 : S2x3x2x250000.Slices ![0, 0, 0, 0] S1x1x1x250000
  shapeCasts_S1x1x1x250000_S250000 : S1x1x1x250000.ShapeCasts S250000
  slices_S2x3x2x250000_S1x1x1x250000_0_0_1_0 : S2x3x2x250000.Slices ![0, 0, 1, 0] S1x1x1x250000
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  slices_S2x3x2x250000_S1x1x1x250000_0_1_0_0 : S2x3x2x250000.Slices ![0, 1, 0, 0] S1x1x1x250000
  slices_S2x3x2x250000_S1x1x1x250000_0_1_1_0 : S2x3x2x250000.Slices ![0, 1, 1, 0] S1x1x1x250000
  slices_S2x3x2x250000_S1x1x1x250000_0_2_0_0 : S2x3x2x250000.Slices ![0, 2, 0, 0] S1x1x1x250000
  slices_S2x3x2x250000_S1x1x1x250000_0_2_1_0 : S2x3x2x250000.Slices ![0, 2, 1, 0] S1x1x1x250000
  bcast_S50000x256_S1x50000x256_1_2 : S50000x256.BroadcastsInDim S1x50000x256 (![1, 2] : Fin 2 → Fin S1x50000x256.rank)
  concatenates_S1x50000x256_S1x50000x256_S1x50000x256_S3x50000x256_d0 : Shape.Concatenates [S1x50000x256, S1x50000x256, S1x50000x256] S3x50000x256 0
  slices_S2x3x256x256_S1x3x256x256_0_0_0_0 : S2x3x256x256.Slices ![0, 0, 0, 0] S1x3x256x256
  shapeCasts_S1x3x256x256_S3x256x256 : S1x3x256x256.ShapeCasts S3x256x256
  slices_S2x3x256_S1x3x256_0_0_0 : S2x3x256.Slices ![0, 0, 0] S1x3x256
  shapeCasts_S1x3x256_S3x256 : S1x3x256.ShapeCasts S3x256
  inb_S3x2000x256_S1x2000x256_0_0_0 : ∀ a, (![0, 0, 0] : Fin 3 → Nat) a + S1x2000x256.size a ≤ S3x2000x256.size a
  h_S1x2000x256 : 0 < S1x2000x256.numel
  shapeCasts_S1x2000x256_S2000x256 : S1x2000x256.ShapeCasts S2000x256
  bitsLt_bf16_f32 : FTy.bits .bf16 < FTy.bits .f32
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  shapeCasts_S256_S1x256 : S256.ShapeCasts S1x256
  broadcasts_S1x256_S2000x256 : S1x256.Broadcasts S2000x256
  inb_S3x2000x256_S1x2000x256_1_0_0 : ∀ a, (![1, 0, 0] : Fin 3 → Nat) a + S1x2000x256.size a ≤ S3x2000x256.size a
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S3x2000x256_S1x2000x256_2_0_0 : ∀ a, (![2, 0, 0] : Fin 3 → Nat) a + S1x2000x256.size a ≤ S3x2000x256.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  inb_S2000x256_S2000x256_0_0 : ∀ a, (![0, 0] : Fin 2 → Nat) a + S2000x256.size a ≤ S2000x256.size a
  h_S2000x256 : 0 < S2000x256.numel
  slices_S2x3x2x250000_S1x1x1x250000_1_0_0_0 : S2x3x2x250000.Slices ![1, 0, 0, 0] S1x1x1x250000
  slices_S2x3x2x250000_S1x1x1x250000_1_0_1_0 : S2x3x2x250000.Slices ![1, 0, 1, 0] S1x1x1x250000
  slices_S2x3x2x250000_S1x1x1x250000_1_1_0_0 : S2x3x2x250000.Slices ![1, 1, 0, 0] S1x1x1x250000
  slices_S2x3x2x250000_S1x1x1x250000_1_1_1_0 : S2x3x2x250000.Slices ![1, 1, 1, 0] S1x1x1x250000
  slices_S2x3x2x250000_S1x1x1x250000_1_2_0_0 : S2x3x2x250000.Slices ![1, 2, 0, 0] S1x1x1x250000
  slices_S2x3x2x250000_S1x1x1x250000_1_2_1_0 : S2x3x2x250000.Slices ![1, 2, 1, 0] S1x1x1x250000
  slices_S2x3x256x256_S1x3x256x256_1_0_0_0 : S2x3x256x256.Slices ![1, 0, 0, 0] S1x3x256x256
  slices_S2x3x256_S1x3x256_1_0_0 : S2x3x256.Slices ![1, 0, 0] S1x3x256
  shapeCasts_S349_S1x349 : S349.ShapeCasts S1x349
  shapeCasts_S2000x256_S2000x256 : S2000x256.ShapeCasts S2000x256
  inb_S256x349_S256x349_0_0 : ∀ a, (![0, 0] : Fin 2 → Nat) a + S256x349.size a ≤ S256x349.size a
  h_S256x349 : 0 < S256x349.numel
  inb_S1x349_S1x349_0_0 : ∀ a, (![0, 0] : Fin 2 → Nat) a + S1x349.size a ≤ S1x349.size a
  h_S1x349 : 0 < S1x349.numel
  shapeCasts_S1x349_S1x349 : S1x349.ShapeCasts S1x349
  broadcasts_S1x349_S2000x349 : S1x349.Broadcasts S2000x349
  inb_S2000x349_S2000x349_0_0 : ∀ a, (![0, 0] : Fin 2 → Nat) a + S2000x349.size a ≤ S2000x349.size a
  h_S2000x349 : 0 < S2000x349.numel
  scatter_S50000_S250000x1_S250000_n_0_0_1_wf : ScatterDims.WF S50000 S250000x1 S250000 [] [0] [0] 1
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S2000x256_S256x256_S2000x256_1_0_0_1_n_n_wf : DotDims.WF S2000x256 S256x256 S2000x256 [1] [0] [0] [1] [] []
  dot_S2000x256_S256x349_S2000x349_1_0_0_1_n_n_wf : DotDims.WF S2000x256 S256x349 S2000x349 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2000x256.size a ≤ S3x50000x256.size a
  hwx0_0 : ∀ i : grid0.Coords, EltTy.bits .f32 = 32 ∨ (Rect.block (s := S3x50000x256) S3x2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x256.size a ≤ S3x256x256.size a
  hwx0_1 : ∀ i : grid0.Coords, EltTy.bits .f32 = 32 ∨ (Rect.block (s := S3x256x256) S3x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256.size a ≤ S3x256.size a
  hwx0_2 : ∀ i : grid0.Coords, EltTy.bits .f32 = 32 ∨ (Rect.block (s := S3x256) S3x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x2000x256.size a ≤ S3x50000x256.size a
  hwx1_0 : ∀ i : grid1.Coords, EltTy.bits .f32 = 32 ∨ (Rect.block (s := S3x50000x256) S3x2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x256x256.size a ≤ S3x256x256.size a
  hwx1_1 : ∀ i : grid1.Coords, EltTy.bits .f32 = 32 ∨ (Rect.block (s := S3x256x256) S3x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x256.size a ≤ S3x256.size a
  hwx1_2 : ∀ i : grid1.Coords, EltTy.bits .f32 = 32 ∨ (Rect.block (s := S3x256) S3x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x349.size a ≤ S256x349.size a
  hwx2_1 : ∀ i : grid2.Coords, EltTy.bits .f32 = 32 ∨ (Rect.block (s := S256x349) S256x349.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x349.size a ≤ S1x349.size a
  hwx2_2 : ∀ i : grid2.Coords, EltTy.bits .f32 = 32 ∨ (Rect.block (s := S1x349) S1x349.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x349.size a ≤ S50000x349.size a
  hwx2_3 : ∀ i : grid2.Coords, EltTy.bits .f32 = 32 ∨ (Rect.block (s := S50000x349) S2000x349.size (cc2_transform_3 i) (hinb2_3 i)).WholeWords (EltTy.packing .f32)

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x349_S2000x349_1_0_0_1_n_n : DotDims S2000x256 S256x349 S2000x349 where
  lhsContracting := [1]
  rhsContracting := [0]
  lhsNonContracting := [0]
  rhsNonContracting := [1]
  lhsBatch := []
  rhsBatch := []
  wf := dot_S2000x256_S256x349_S2000x349_1_0_0_1_n_n_wf

abbrev win0_0 : Pipeline.Window sig grid0 :=
  Pipeline.Window.ofSpec (Memref.whole main_v96) S3x2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v98) S3x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v100) S3x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v101) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v198) S3x2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v200) S3x256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v202) S3x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v203) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v203) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x349.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v204) S1x349.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v205) S2000x349.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x3x256x256 : Shape := ⟨4, ![2, 3, 256, 256]⟩
abbrev S2x3x256 : Shape := ⟨3, ![2, 3, 256]⟩
abbrev S256x349 : Shape := ⟨2, ![256, 349]⟩
abbrev S349 : Shape := ⟨1, ![349]⟩
abbrev S2x3x2x250000 : Shape := ⟨4, ![2, 3, 2, 250000]⟩
abbrev S1x1x1x250000 : Shape := ⟨4, ![1, 1, 1, 250000]⟩
abbrev S250000 : Shape := ⟨1, ![250000]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S_ : Shape := ⟨0, ![]⟩
abbrev S50000 : Shape := ⟨1, ![50000]⟩
abbrev S250000x1 : Shape := ⟨2, ![250000, 1]⟩
abbrev S50000x1 : Shape := ⟨2, ![50000, 1]⟩
abbrev S250000x256 : Shape := ⟨2, ![250000, 256]⟩
abbrev S1x256 : Shape := ⟨2, ![1, 256]⟩
abbrev S50000x349 : Shape := ⟨2, ![50000, 349]⟩
abbrev S1x349 : Shape := ⟨2, ![1, 349]⟩

abbrev nBuf : Space → Nat
  | .hbm => 335
  | .vmem => 0
  | .smem => 0
  | _ => 0

abbrev hbmTy0_0 (i : Nat) : BufTy := match i % 128 with
  | 0 => ⟨S50000x256, .f32⟩
  | 1 => ⟨S2x3x256x256, .f32⟩
  | 2 => ⟨S2x3x256, .f32⟩
  | 3 => ⟨S256x349, .f32⟩
  | 4 => ⟨S349, .f32⟩
  | 5 => ⟨S2x3x2x250000, .i32⟩
  | 6 => ⟨S1x1x1x250000, .i32⟩
  | 7 => ⟨S250000, .i32⟩
  | 8 => ⟨S1x1x1x250000, .i32⟩
  | 9 => ⟨S250000, .i32⟩
  | 10 => ⟨S1x1x256x256, .f32⟩
  | 11 => ⟨S256x256, .f32⟩
  | 12 => ⟨S1x1x256, .f32⟩
  | 13 => ⟨S256, .f32⟩
  | 14 => ⟨S_, .f32⟩
  | 15 => ⟨S250000, .f32⟩
  | 16 => ⟨S_, .f32⟩
  | 17 => ⟨S50000, .f32⟩
  | 18 => ⟨S250000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S250000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S50000, .f32⟩
  | 33 => ⟨S50000x1, .f32⟩
  | 34 => ⟨S50000x256, .f32⟩
  | 35 => ⟨S50000x256, .f32⟩
  | 36 => ⟨S_, .i32⟩
  | 37 => ⟨S250000, .i32⟩
  | 38 => ⟨S250000, .i1⟩
  | 39 => ⟨S_, .i32⟩
  | 40 => ⟨S250000, .i32⟩
  | 41 => ⟨S250000, .i32⟩
  | 42 => ⟨S250000, .i32⟩
  | 43 => ⟨S250000x1, .i32⟩
  | 44 => ⟨S250000x256, .f32⟩
  | 45 => ⟨S_, .f32⟩
  | 46 => ⟨S50000x256, .f32⟩
  | 47 => ⟨S250000x1, .i32⟩
  | 48 => ⟨S50000x256, .f32⟩
  | 49 => ⟨S50000, .f32⟩
  | 50 => ⟨S50000x1, .f32⟩
  | 51 => ⟨S50000x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S1x1x1x250000, .i32⟩
  | 58 => ⟨S250000, .i32⟩
  | 59 => ⟨S1x1x1x250000, .i32⟩
  | 60 => ⟨S250000, .i32⟩
  | 61 => ⟨S1x1x256x256, .f32⟩
  | 62 => ⟨S256x256, .f32⟩
  | 63 => ⟨S1x1x256, .f32⟩
  | 64 => ⟨S256, .f32⟩
  | 65 => ⟨S_, .f32⟩
  | 66 => ⟨S250000, .f32⟩
  | 67 => ⟨S_, .f32⟩
  | 68 => ⟨S50000, .f32⟩
  | 69 => ⟨S250000x1, .i32⟩
  | 70 => ⟨S50000, .f32⟩
  | 71 => ⟨S_, .f32⟩
  | 72 => ⟨S_, .f32⟩
  | 73 => ⟨S50000, .f32⟩
  | 74 => ⟨S50000, .f32⟩
  | 75 => ⟨S_, .f32⟩
  | 76 => ⟨S50000, .f32⟩
  | 77 => ⟨S250000x1, .i32⟩
  | 78 => ⟨S50000, .f32⟩
  | 79 => ⟨S_, .f32⟩
  | 80 => ⟨S_, .f32⟩
  | 81 => ⟨S50000, .f32⟩
  | 82 => ⟨S50000, .f32⟩
  | 83 => ⟨S50000, .f32⟩
  | 84 => ⟨S50000x1, .f32⟩
  | 85 => ⟨S50000x256, .f32⟩
  | 86 => ⟨S50000x256, .f32⟩
  | 87 => ⟨S_, .i32⟩
  | 88 => ⟨S250000, .i32⟩
  | 89 => ⟨S250000, .i1⟩
  | 90 => ⟨S_, .i32⟩
  | 91 => ⟨S250000, .i32⟩
  | 92 => ⟨S250000, .i32⟩
  | 93 => ⟨S250000, .i32⟩
  | 94 => ⟨S250000x1, .i32⟩
  | 95 => ⟨S250000x256, .f32⟩
  | 96 => ⟨S_, .f32⟩
  | 97 => ⟨S50000x256, .f32⟩
  | 98 => ⟨S250000x1, .i32⟩
  | 99 => ⟨S50000x256, .f32⟩
  | 100 => ⟨S50000, .f32⟩
  | 101 => ⟨S50000x1, .f32⟩
  | 102 => ⟨S50000x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S1x1x1x250000, .i32⟩
  | 109 => ⟨S250000, .i32⟩
  | 110 => ⟨S1x1x1x250000, .i32⟩
  | 111 => ⟨S250000, .i32⟩
  | 112 => ⟨S1x1x256x256, .f32⟩
  | 113 => ⟨S256x256, .f32⟩
  | 114 => ⟨S1x1x256, .f32⟩
  | 115 => ⟨S256, .f32⟩
  | 116 => ⟨S_, .f32⟩
  | 117 => ⟨S250000, .f32⟩
  | 118 => ⟨S_, .f32⟩
  | 119 => ⟨S50000, .f32⟩
  | 120 => ⟨S250000x1, .i32⟩
  | 121 => ⟨S50000, .f32⟩
  | 122 => ⟨S_, .f32⟩
  | 123 => ⟨S_, .f32⟩
  | 124 => ⟨S50000, .f32⟩
  | 125 => ⟨S50000, .f32⟩
  | 126 => ⟨S_, .f32⟩
  | 127 => ⟨S50000, .f32⟩
  | _ => ⟨S50000x256, .f32⟩

abbrev hbmTy0_1 (i : Nat) : BufTy := match i % 128 with
  | 0 => ⟨S250000x1, .i32⟩
  | 1 => ⟨S50000, .f32⟩
  | 2 => ⟨S_, .f32⟩
  | 3 => ⟨S_, .f32⟩
  | 4 => ⟨S50000, .f32⟩
  | 5 => ⟨S50000, .f32⟩
  | 6 => ⟨S50000, .f32⟩
  | 7 => ⟨S50000x1, .f32⟩
  | 8 => ⟨S50000x256, .f32⟩
  | 9 => ⟨S50000x256, .f32⟩
  | 10 => ⟨S_, .i32⟩
  | 11 => ⟨S250000, .i32⟩
  | 12 => ⟨S250000, .i1⟩
  | 13 => ⟨S_, .i32⟩
  | 14 => ⟨S250000, .i32⟩
  | 15 => ⟨S250000, .i32⟩
  | 16 => ⟨S250000, .i32⟩
  | 17 => ⟨S250000x1, .i32⟩
  | 18 => ⟨S250000x256, .f32⟩
  | 19 => ⟨S_, .f32⟩
  | 20 => ⟨S50000x256, .f32⟩
  | 21 => ⟨S250000x1, .i32⟩
  | 22 => ⟨S50000x256, .f32⟩
  | 23 => ⟨S50000, .f32⟩
  | 24 => ⟨S50000x1, .f32⟩
  | 25 => ⟨S50000x256, .f32⟩
  | 26 => ⟨S50000x256, .f32⟩
  | 27 => ⟨S50000x256, .f32⟩
  | 28 => ⟨S1x256, .f32⟩
  | 29 => ⟨S50000x256, .f32⟩
  | 30 => ⟨S50000x256, .f32⟩
  | 31 => ⟨S_, .f32⟩
  | 32 => ⟨S50000x256, .f32⟩
  | 33 => ⟨S50000x256, .f32⟩
  | 34 => ⟨S50000x256, .f32⟩
  | 35 => ⟨S50000x256, .f32⟩
  | 36 => ⟨S_, .f32⟩
  | 37 => ⟨S50000x256, .f32⟩
  | 38 => ⟨S50000x256, .f32⟩
  | 39 => ⟨S_, .f32⟩
  | 40 => ⟨S50000x256, .f32⟩
  | 41 => ⟨S50000x256, .f32⟩
  | 42 => ⟨S1x1x1x250000, .i32⟩
  | 43 => ⟨S250000, .i32⟩
  | 44 => ⟨S1x1x1x250000, .i32⟩
  | 45 => ⟨S250000, .i32⟩
  | 46 => ⟨S1x1x256x256, .f32⟩
  | 47 => ⟨S256x256, .f32⟩
  | 48 => ⟨S1x1x256, .f32⟩
  | 49 => ⟨S256, .f32⟩
  | 50 => ⟨S_, .f32⟩
  | 51 => ⟨S250000, .f32⟩
  | 52 => ⟨S_, .f32⟩
  | 53 => ⟨S50000, .f32⟩
  | 54 => ⟨S250000x1, .i32⟩
  | 55 => ⟨S50000, .f32⟩
  | 56 => ⟨S_, .f32⟩
  | 57 => ⟨S_, .f32⟩
  | 58 => ⟨S50000, .f32⟩
  | 59 => ⟨S50000, .f32⟩
  | 60 => ⟨S_, .f32⟩
  | 61 => ⟨S50000, .f32⟩
  | 62 => ⟨S250000x1, .i32⟩
  | 63 => ⟨S50000, .f32⟩
  | 64 => ⟨S_, .f32⟩
  | 65 => ⟨S_, .f32⟩
  | 66 => ⟨S50000, .f32⟩
  | 67 => ⟨S50000, .f32⟩
  | 68 => ⟨S50000, .f32⟩
  | 69 => ⟨S50000x1, .f32⟩
  | 70 => ⟨S50000x256, .f32⟩
  | 71 => ⟨S50000x256, .f32⟩
  | 72 => ⟨S_, .i32⟩
  | 73 => ⟨S250000, .i32⟩
  | 74 => ⟨S250000, .i1⟩
  | 75 => ⟨S_, .i32⟩
  | 76 => ⟨S250000, .i32⟩
  | 77 => ⟨S250000, .i32⟩
  | 78 => ⟨S250000, .i32⟩
  | 79 => ⟨S250000x1, .i32⟩
  | 80 => ⟨S250000x256, .f32⟩
  | 81 => ⟨S_, .f32⟩
  | 82 => ⟨S50000x256, .f32⟩
  | 83 => ⟨S250000x1, .i32⟩
  | 84 => ⟨S50000x256, .f32⟩
  | 85 => ⟨S50000, .f32⟩
  | 86 => ⟨S50000x1, .f32⟩
  | 87 => ⟨S50000x256, .f32⟩
  | 88 => ⟨S50000x256, .f32⟩
  | 89 => ⟨S50000x256, .f32⟩
  | 90 => ⟨S1x256, .f32⟩
  | 91 => ⟨S50000x256, .f32⟩
  | 92 => ⟨S50000x256, .f32⟩
  | 93 => ⟨S1x1x1x250000, .i32⟩
  | 94 => ⟨S250000, .i32⟩
  | 95 => ⟨S1x1x1x250000, .i32⟩
  | 96 => ⟨S250000, .i32⟩
  | 97 => ⟨S1x1x256x256, .f32⟩
  | 98 => ⟨S256x256, .f32⟩
  | 99 => ⟨S1x1x256, .f32⟩
  | 100 => ⟨S256, .f32⟩
  | 101 => ⟨S_, .f32⟩
  | 102 => ⟨S250000, .f32⟩
  | 103 => ⟨S_, .f32⟩
  | 104 => ⟨S50000, .f32⟩
  | 105 => ⟨S250000x1, .i32⟩
  | 106 => ⟨S50000, .f32⟩
  | 107 => ⟨S_, .f32⟩
  | 108 => ⟨S_, .f32⟩
  | 109 => ⟨S50000, .f32⟩
  | 110 => ⟨S50000, .f32⟩
  | 111 => ⟨S_, .f32⟩
  | 112 => ⟨S50000, .f32⟩
  | 113 => ⟨S250000x1, .i32⟩
  | 114 => ⟨S50000, .f32⟩
  | 115 => ⟨S_, .f32⟩
  | 116 => ⟨S_, .f32⟩
  | 117 => ⟨S50000, .f32⟩
  | 118 => ⟨S50000, .f32⟩
  | 119 => ⟨S50000, .f32⟩
  | 120 => ⟨S50000x1, .f32⟩
  | 121 => ⟨S50000x256, .f32⟩
  | 122 => ⟨S50000x256, .f32⟩
  | 123 => ⟨S_, .i32⟩
  | 124 => ⟨S250000, .i32⟩
  | 125 => ⟨S250000, .i1⟩
  | 126 => ⟨S_, .i32⟩
  | 127 => ⟨S250000, .i32⟩
  | _ => ⟨S50000x256, .f32⟩

abbrev hbmTy0_2 (i : Nat) : BufTy := match i % 128 with
  | 0 => ⟨S250000, .i32⟩
  | 1 => ⟨S250000, .i32⟩
  | 2 => ⟨S250000x1, .i32⟩
  | 3 => ⟨S250000x256, .f32⟩
  | 4 => ⟨S_, .f32⟩
  | 5 => ⟨S50000x256, .f32⟩
  | 6 => ⟨S250000x1, .i32⟩
  | 7 => ⟨S50000x256, .f32⟩
  | 8 => ⟨S50000, .f32⟩
  | 9 => ⟨S50000x1, .f32⟩
  | 10 => ⟨S50000x256, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S1x1x1x250000, .i32⟩
  | 17 => ⟨S250000, .i32⟩
  | 18 => ⟨S1x1x1x250000, .i32⟩
  | 19 => ⟨S250000, .i32⟩
  | 20 => ⟨S1x1x256x256, .f32⟩
  | 21 => ⟨S256x256, .f32⟩
  | 22 => ⟨S1x1x256, .f32⟩
  | 23 => ⟨S256, .f32⟩
  | 24 => ⟨S_, .f32⟩
  | 25 => ⟨S250000, .f32⟩
  | 26 => ⟨S_, .f32⟩
  | 27 => ⟨S50000, .f32⟩
  | 28 => ⟨S250000x1, .i32⟩
  | 29 => ⟨S50000, .f32⟩
  | 30 => ⟨S_, .f32⟩
  | 31 => ⟨S_, .f32⟩
  | 32 => ⟨S50000, .f32⟩
  | 33 => ⟨S50000, .f32⟩
  | 34 => ⟨S_, .f32⟩
  | 35 => ⟨S50000, .f32⟩
  | 36 => ⟨S250000x1, .i32⟩
  | 37 => ⟨S50000, .f32⟩
  | 38 => ⟨S_, .f32⟩
  | 39 => ⟨S_, .f32⟩
  | 40 => ⟨S50000, .f32⟩
  | 41 => ⟨S50000, .f32⟩
  | 42 => ⟨S50000, .f32⟩
  | 43 => ⟨S50000x1, .f32⟩
  | 44 => ⟨S50000x256, .f32⟩
  | 45 => ⟨S50000x256, .f32⟩
  | 46 => ⟨S_, .i32⟩
  | 47 => ⟨S250000, .i32⟩
  | 48 => ⟨S250000, .i1⟩
  | 49 => ⟨S_, .i32⟩
  | 50 => ⟨S250000, .i32⟩
  | 51 => ⟨S250000, .i32⟩
  | 52 => ⟨S250000, .i32⟩
  | 53 => ⟨S250000x1, .i32⟩
  | 54 => ⟨S250000x256, .f32⟩
  | 55 => ⟨S_, .f32⟩
  | 56 => ⟨S50000x256, .f32⟩
  | 57 => ⟨S250000x1, .i32⟩
  | 58 => ⟨S50000x256, .f32⟩
  | 59 => ⟨S50000, .f32⟩
  | 60 => ⟨S50000x1, .f32⟩
  | 61 => ⟨S50000x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x349, .f32⟩
  | 76 => ⟨S1x349, .f32⟩
  | 77 => ⟨S50000x349, .f32⟩
  | 78 => ⟨S50000x349, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_call3_v0 : Ref sig .tc := ⟨.hbm, 80, rfl⟩
abbrev main_call3_v1 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_14 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_call4_v0 : Ref sig .tc := ⟨.hbm, 123, rfl⟩
abbrev main_call4_v1 : Ref sig .tc := ⟨.hbm, 124, rfl⟩
abbrev main_v90 : Ref sig .tc := ⟨.hbm, 125, rfl⟩
abbrev main_cst_17 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_18 : Ref sig .tc := ⟨.hbm, 130, rfl⟩
abbrev main_call5_v0 : Ref sig .tc := ⟨.hbm, 131, rfl⟩
abbrev main_call5_v1 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_19 : Ref sig .tc := ⟨.hbm, 138, rfl⟩
abbrev main_v99 : Ref sig .tc := ⟨.hbm, 139, rfl⟩
abbrev main_v100 : Ref sig .tc := ⟨.hbm, 140, rfl⟩
abbrev main_c_20 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_21 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_22 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_23 : Ref sig .tc := ⟨.hbm, 164, rfl⟩
abbrev main_v121 : Ref sig .tc := ⟨.hbm, 165, rfl⟩
abbrev main_v122 : Ref sig .tc := ⟨.hbm, 166, rfl⟩
abbrev main_call6_cst : Ref sig .tc := ⟨.hbm, 167, rfl⟩
abbrev main_call6_v0 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_24 : Ref sig .tc := ⟨.hbm, 178, rfl⟩
abbrev main_v132 : Ref sig .tc := ⟨.hbm, 179, rfl⟩
abbrev main_cst_25 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_26 : Ref sig .tc := ⟨.hbm, 184, rfl⟩
abbrev main_call7_v0 : Ref sig .tc := ⟨.hbm, 185, rfl⟩
abbrev main_call7_v1 : Ref sig .tc := ⟨.hbm, 186, rfl⟩
abbrev main_v136 : Ref sig .tc := ⟨.hbm, 187, rfl⟩
abbrev main_cst_27 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_28 : Ref sig .tc := ⟨.hbm, 192, rfl⟩
abbrev main_call8_v0 : Ref sig .tc := ⟨.hbm, 193, rfl⟩
abbrev main_call8_v1 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_c_29 : Ref sig .tc := ⟨.hbm, 200, rfl⟩
abbrev main_v145 : Ref sig .tc := ⟨.hbm, 201, rfl⟩
abbrev main_v146 : Ref sig .tc := ⟨.hbm, 202, rfl⟩
abbrev main_c_30 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_cst_31 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_cst_32 : Ref sig .tc := ⟨.hbm, 229, rfl⟩
abbrev main_v171 : Ref sig .tc := ⟨.hbm, 230, rfl⟩
abbrev main_cst_33 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_34 : Ref sig .tc := ⟨.hbm, 235, rfl⟩
abbrev main_call9_v0 : Ref sig .tc := ⟨.hbm, 236, rfl⟩
abbrev main_call9_v1 : Ref sig .tc := ⟨.hbm, 237, rfl⟩
abbrev main_v175 : Ref sig .tc := ⟨.hbm, 238, rfl⟩
abbrev main_cst_35 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_cst_36 : Ref sig .tc := ⟨.hbm, 243, rfl⟩
abbrev main_call10_v0 : Ref sig .tc := ⟨.hbm, 244, rfl⟩
abbrev main_call10_v1 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_c_37 : Ref sig .tc := ⟨.hbm, 251, rfl⟩
abbrev main_v184 : Ref sig .tc := ⟨.hbm, 252, rfl⟩
abbrev main_v185 : Ref sig .tc := ⟨.hbm, 253, rfl⟩
abbrev main_c_38 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_cst_39 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_cst_40 : Ref sig .tc := ⟨.hbm, 280, rfl⟩
abbrev main_v210 : Ref sig .tc := ⟨.hbm, 281, rfl⟩
abbrev main_cst_41 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_cst_42 : Ref sig .tc := ⟨.hbm, 286, rfl⟩
abbrev main_call11_v0 : Ref sig .tc := ⟨.hbm, 287, rfl⟩
abbrev main_call11_v1 : Ref sig .tc := ⟨.hbm, 288, rfl⟩
abbrev main_v214 : Ref sig .tc := ⟨.hbm, 289, rfl⟩
abbrev main_cst_43 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_cst_44 : Ref sig .tc := ⟨.hbm, 294, rfl⟩
abbrev main_call12_v0 : Ref sig .tc := ⟨.hbm, 295, rfl⟩
abbrev main_call12_v1 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_c_45 : Ref sig .tc := ⟨.hbm, 302, rfl⟩
abbrev main_v223 : Ref sig .tc := ⟨.hbm, 303, rfl⟩
abbrev main_v224 : Ref sig .tc := ⟨.hbm, 304, rfl⟩
abbrev main_c_46 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_cst_47 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_cst_48 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_cst_49 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩

abbrev nD : Nat := 1
abbrev τ : Topo := Topo.v7x

variable {F : FTy → Type} [FloatOps F]

class Facts₀ : Prop where
  slices_S2x3x2x250000_S1x1x1x250000_0_0_0_0 : S2x3x2x250000.Slices ![0, 0, 0, 0] S1x1x1x250000
  shapeCasts_S1x1x1x250000_S250000 : S1x1x1x250000.ShapeCasts S250000
  slices_S2x3x2x250000_S1x1x1x250000_0_0_1_0 : S2x3x2x250000.Slices ![0, 0, 1, 0] S1x1x1x250000
  slices_S2x3x256x256_S1x1x256x256_0_0_0_0 : S2x3x256x256.Slices ![0, 0, 0, 0] S1x1x256x256
  shapeCasts_S1x1x256x256_S256x256 : S1x1x256x256.ShapeCasts S256x256
  slices_S2x3x256_S1x1x256_0_0_0 : S2x3x256.Slices ![0, 0, 0] S1x1x256
  shapeCasts_S1x1x256_S256 : S1x1x256.ShapeCasts S256
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x3x2x250000_S1x1x1x250000_0_1_0_0 : S2x3x2x250000.Slices ![0, 1, 0, 0] S1x1x1x250000
  slices_S2x3x2x250000_S1x1x1x250000_0_1_1_0 : S2x3x2x250000.Slices ![0, 1, 1, 0] S1x1x1x250000
  slices_S2x3x256x256_S1x1x256x256_0_1_0_0 : S2x3x256x256.Slices ![0, 1, 0, 0] S1x1x256x256
  slices_S2x3x256_S1x1x256_0_1_0 : S2x3x256.Slices ![0, 1, 0] S1x1x256
  slices_S2x3x2x250000_S1x1x1x250000_0_2_0_0 : S2x3x2x250000.Slices ![0, 2, 0, 0] S1x1x1x250000
  slices_S2x3x2x250000_S1x1x1x250000_0_2_1_0 : S2x3x2x250000.Slices ![0, 2, 1, 0] S1x1x1x250000
  slices_S2x3x256x256_S1x1x256x256_0_2_0_0 : S2x3x256x256.Slices ![0, 2, 0, 0] S1x1x256x256
  slices_S2x3x256_S1x1x256_0_2_0 : S2x3x256.Slices ![0, 2, 0] S1x1x256
  slices_S2x3x2x250000_S1x1x1x250000_1_0_0_0 : S2x3x2x250000.Slices ![1, 0, 0, 0] S1x1x1x250000
  slices_S2x3x2x250000_S1x1x1x250000_1_0_1_0 : S2x3x2x250000.Slices ![1, 0, 1, 0] S1x1x1x250000
  slices_S2x3x256x256_S1x1x256x256_1_0_0_0 : S2x3x256x256.Slices ![1, 0, 0, 0] S1x1x256x256
  slices_S2x3x256_S1x1x256_1_0_0 : S2x3x256.Slices ![1, 0, 0] S1x1x256
  slices_S2x3x2x250000_S1x1x1x250000_1_1_0_0 : S2x3x2x250000.Slices ![1, 1, 0, 0] S1x1x1x250000
  slices_S2x3x2x250000_S1x1x1x250000_1_1_1_0 : S2x3x2x250000.Slices ![1, 1, 1, 0] S1x1x1x250000
  slices_S2x3x256x256_S1x1x256x256_1_1_0_0 : S2x3x256x256.Slices ![1, 1, 0, 0] S1x1x256x256
  slices_S2x3x256_S1x1x256_1_1_0 : S2x3x256.Slices ![1, 1, 0] S1x1x256
  slices_S2x3x2x250000_S1x1x1x250000_1_2_0_0 : S2x3x2x250000.Slices ![1, 2, 0, 0] S1x1x1x250000
  slices_S2x3x2x250000_S1x1x1x250000_1_2_1_0 : S2x3x2x250000.Slices ![1, 2, 1, 0] S1x1x1x250000
  slices_S2x3x256x256_S1x1x256x256_1_2_0_0 : S2x3x256x256.Slices ![1, 2, 0, 0] S1x1x256x256
  slices_S2x3x256_S1x1x256_1_2_0 : S2x3x256.Slices ![1, 2, 0] S1x1x256
  bcast_S349_S1x349_1 : S349.BroadcastsInDim S1x349 (![1] : Fin 1 → Fin S1x349.rank)
  bcast_S1x349_S50000x349_0_1 : S1x349.BroadcastsInDim S50000x349 (![0, 1] : Fin 2 → Fin S50000x349.rank)
  scatter_S50000_S250000x1_S250000_n_0_0_1_wf : ScatterDims.WF S50000 S250000x1 S250000 [] [0] [0] 1
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S50000x256_S256x256_S50000x256_1_0_0_1_n_n_wf : DotDims.WF S50000x256 S256x256 S50000x256 [1] [0] [0] [1] [] []
  dot_S50000x256_S256x349_S50000x349_1_0_0_1_n_n_wf : DotDims.WF S50000x256 S256x349 S50000x349 [1] [0] [0] [1] [] []

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x349_S50000x349_1_0_0_1_n_n : DotDims S50000x256 S256x349 S50000x349 where
  lhsContracting := [1]
  rhsContracting := [0]
  lhsNonContracting := [0]
  rhsNonContracting := [1]
  lhsBatch := []
  rhsBatch := []
  wf := dot_S50000x256_S256x349_S50000x349_1_0_0_1_n_n_wf

class Facts : Prop extends Facts₀ where

variable [Facts]
-- ==== Proof.KBody0.lean ====
/-
  Region 0 of the program: the layer kernel on one block of 2000 rows.

  The pipeline hands the body four staging buffers: a [3, 2000, 256] block of the stacked aggregates (one slab per
  relation), the whole [3, 256, 256] stack of weights, the whole [3, 256] stack of biases, and the [2000, 256] block of
  the result. The body reads the three slabs, the three weight matrices and the three bias rows through fixed
  rectangles and writes the result block once, whole. What the result block holds afterwards is therefore one function
  of the three input blocks (`out0_3`), and the pipeline's proof data say: every input buffer still holds its block,
  the output buffer holds that function of them.
-/
import proofs.«159030_j5789615915676_1_alg».proof.Proof.Gen.Kernel.Launch
import proofs.«159030_j5789615915676_1_alg».proof.Proof.Gen.Kernel.Skeleton
import proofs.«159030_j5789615915676_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the pipeline fetched
    it there or not: a block that is not fetched again has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- Slab r of the aggregates' block. -/
abbrev ra0_0 : Rect S3x2000x256 := Rect.unit (s := S3x2000x256) ![0, 0, 0] S1x2000x256.size inb_S3x2000x256_S1x2000x256_0_0_0
abbrev ra0_1 : Rect S3x2000x256 := Rect.unit (s := S3x2000x256) ![1, 0, 0] S1x2000x256.size inb_S3x2000x256_S1x2000x256_1_0_0
abbrev ra0_2 : Rect S3x2000x256 := Rect.unit (s := S3x2000x256) ![2, 0, 0] S1x2000x256.size inb_S3x2000x256_S1x2000x256_2_0_0
/-- Weight matrix r of the stack. -/
abbrev rw0_0 : Rect S3x256x256 := Rect.unit (s := S3x256x256) ![0, 0, 0] S1x256x256.size inb_S3x256x256_S1x256x256_0_0_0
abbrev rw0_1 : Rect S3x256x256 := Rect.unit (s := S3x256x256) ![1, 0, 0] S1x256x256.size inb_S3x256x256_S1x256x256_1_0_0
abbrev rw0_2 : Rect S3x256x256 := Rect.unit (s := S3x256x256) ![2, 0, 0] S1x256x256.size inb_S3x256x256_S1x256x256_2_0_0
/-- Bias row r of the stack. -/
abbrev rb0_0 : Rect S3x256 := Rect.unit (s := S3x256) ![0, 0] S1x256.size inb_S3x256_S1x256_0_0
abbrev rb0_1 : Rect S3x256 := Rect.unit (s := S3x256) ![1, 0] S1x256.size inb_S3x256_S1x256_1_0
abbrev rb0_2 : Rect S3x256 := Rect.unit (s := S3x256) ![2, 0] S1x256.size inb_S3x256_S1x256_2_0
/-- The whole result block. -/
abbrev ro0 : Rect S2000x256 := Rect.unit (s := S2000x256) ![0, 0] S2000x256.size inb_S2000x256_S2000x256_0_0

/-! ## What the body leaves in the result block -/

/-- The result block after the body, as a function of the three input blocks: the body's one store, whose value is
    the layer's arithmetic on the slabs, weight matrices and bias rows read through the rectangles above. -/
def out0_3 (x0 : Vec F S3x2000x256 .f32) (x1 : Vec F S3x256x256 .f32) (x2 : Vec F S3x256 .f32) : Vec F S2000x256 .f32 :=
  View.canon [⟨ro0, k0_pay1
    (k0_pay2 (View.ld x0 ra0_0) (View.ld x1 rw0_0) (View.ld x2 rb0_0) (View.ld x0 ra0_1) (View.ld x1 rw0_1) (View.ld x2 rb0_1))
    (k0_pay3 (View.ld x0 ra0_2)) (k0_pay4 (View.ld x1 rw0_2)) (constant S2000x256 .f32 0x00000000#32) (View.ld x2 rb0_2)⟩]

/-- The one store covers the whole block. -/
theorem cover0_3 (p0 : Vec F S2000x256 .f32) (y : S2000x256.Idx) :
    ∃ pc ∈ ([⟨ro0, p0⟩] : List (View.Piece (Elt F) S2000x256 .f32)), y ∈ pc.1.set :=
  View.cover_of_tiled [⟨ro0, p0⟩] S2000x256.size (by rfl) y

/-! ## The body's triple -/

set_option maxHeartbeats 4000000 in
/-- The body on whole staging buffers, the inputs' at contents `x0 x1 x2` and the output's at anything, runs to the
    end, leaves the inputs as they were and the output at `out0_3 x0 x1 x2`. -/
theorem sound_kernel0 (c : Dev nD) (E : Set ℕ) (i : grid0.Coords)
    (arg1 : Memref sig .tc .vmem S3x2000x256 .f32) (harg1 : arg1.IsWhole) (arg2 : Memref sig .tc .vmem S3x256x256 .f32) (harg2 : arg2.IsWhole)
    (arg3 : Memref sig .tc .vmem S3x256 .f32) (harg3 : arg3.IsWhole) (arg4 : Memref sig .tc .vmem S2000x256 .f32) (harg4 : arg4.IsWhole)
    (x0 : Vec F S3x2000x256 .f32) (x1 : Vec F S3x256x256 .f32) (x2 : Vec F S3x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__rgcn_layer_kernel i arg1 harg1 arg2 harg2 arg3 harg3 arg4 harg4) K := by
  simp only [cc0__rgcn_layer_kernel_eq_skeleton]; unfold cc0__rgcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region's pipeline on core `c`: the arrays as the region finds them; after the body at
    point `t` each input buffer holds its block and the output buffer `out0_3` of the three blocks; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KBody1.lean ====
/-
  Region 1 of the program: the layer kernel on one block of 2000 rows.

  The pipeline hands the body four staging buffers: a [3, 2000, 256] block of the stacked aggregates (one slab per
  relation), the whole [3, 256, 256] stack of weights, the whole [3, 256] stack of biases, and the [2000, 256] block of
  the result. The body reads the three slabs, the three weight matrices and the three bias rows through fixed
  rectangles and writes the result block once, whole. What the result block holds afterwards is therefore one function
  of the three input blocks (`out1_3`), and the pipeline's proof data say: every input buffer still holds its block,
  the output buffer holds that function of them.
-/
import proofs.«159030_j5789615915676_1_alg».proof.Proof.Gen.Kernel.Launch
import proofs.«159030_j5789615915676_1_alg».proof.Proof.Gen.Kernel.Skeleton
import proofs.«159030_j5789615915676_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the pipeline fetched
    it there or not: a block that is not fetched again has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- Slab r of the aggregates' block. -/
abbrev ra1_0 : Rect S3x2000x256 := Rect.unit (s := S3x2000x256) ![0, 0, 0] S1x2000x256.size inb_S3x2000x256_S1x2000x256_0_0_0
abbrev ra1_1 : Rect S3x2000x256 := Rect.unit (s := S3x2000x256) ![1, 0, 0] S1x2000x256.size inb_S3x2000x256_S1x2000x256_1_0_0
abbrev ra1_2 : Rect S3x2000x256 := Rect.unit (s := S3x2000x256) ![2, 0, 0] S1x2000x256.size inb_S3x2000x256_S1x2000x256_2_0_0
/-- Weight matrix r of the stack. -/
abbrev rw1_0 : Rect S3x256x256 := Rect.unit (s := S3x256x256) ![0, 0, 0] S1x256x256.size inb_S3x256x256_S1x256x256_0_0_0
abbrev rw1_1 : Rect S3x256x256 := Rect.unit (s := S3x256x256) ![1, 0, 0] S1x256x256.size inb_S3x256x256_S1x256x256_1_0_0
abbrev rw1_2 : Rect S3x256x256 := Rect.unit (s := S3x256x256) ![2, 0, 0] S1x256x256.size inb_S3x256x256_S1x256x256_2_0_0
/-- Bias row r of the stack. -/
abbrev rb1_0 : Rect S3x256 := Rect.unit (s := S3x256) ![0, 0] S1x256.size inb_S3x256_S1x256_0_0
abbrev rb1_1 : Rect S3x256 := Rect.unit (s := S3x256) ![1, 0] S1x256.size inb_S3x256_S1x256_1_0
abbrev rb1_2 : Rect S3x256 := Rect.unit (s := S3x256) ![2, 0] S1x256.size inb_S3x256_S1x256_2_0
/-- The whole result block. -/
abbrev ro1 : Rect S2000x256 := Rect.unit (s := S2000x256) ![0, 0] S2000x256.size inb_S2000x256_S2000x256_0_0

/-! ## What the body leaves in the result block -/

/-- The result block after the body, as a function of the three input blocks: the body's one store, whose value is
    the layer's arithmetic on the slabs, weight matrices and bias rows read through the rectangles above. -/
def out1_3 (x0 : Vec F S3x2000x256 .f32) (x1 : Vec F S3x256x256 .f32) (x2 : Vec F S3x256 .f32) : Vec F S2000x256 .f32 :=
  View.canon [⟨ro1, k1_pay1
    (k1_pay2 (View.ld x0 ra1_0) (View.ld x1 rw1_0) (View.ld x2 rb1_0) (View.ld x0 ra1_1) (View.ld x1 rw1_1) (View.ld x2 rb1_1))
    (k1_pay3 (View.ld x0 ra1_2)) (k1_pay4 (View.ld x1 rw1_2)) (constant S2000x256 .f32 0x00000000#32) (View.ld x2 rb1_2)⟩]

/-- The one store covers the whole block. -/
theorem cover1_3 (p0 : Vec F S2000x256 .f32) (y : S2000x256.Idx) :
    ∃ pc ∈ ([⟨ro1, p0⟩] : List (View.Piece (Elt F) S2000x256 .f32)), y ∈ pc.1.set :=
  View.cover_of_tiled [⟨ro1, p0⟩] S2000x256.size (by rfl) y

/-! ## The body's triple -/

set_option maxHeartbeats 4000000 in
/-- The body on whole staging buffers, the inputs' at contents `x0 x1 x2` and the output's at anything, runs to the
    end, leaves the inputs as they were and the output at `out1_3 x0 x1 x2`. -/
theorem sound_kernel1 (c : Dev nD) (E : Set ℕ) (i : grid1.Coords)
    (arg1 : Memref sig .tc .vmem S3x2000x256 .f32) (harg1 : arg1.IsWhole) (arg2 : Memref sig .tc .vmem S3x256x256 .f32) (harg2 : arg2.IsWhole)
    (arg3 : Memref sig .tc .vmem S3x256 .f32) (harg3 : arg3.IsWhole) (arg4 : Memref sig .tc .vmem S2000x256 .f32) (harg4 : arg4.IsWhole)
    (x0 : Vec F S3x2000x256 .f32) (x1 : Vec F S3x256x256 .f32) (x2 : Vec F S3x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__rgcn_layer_kernel i arg1 harg1 arg2 harg2 arg3 harg3 arg4 harg4) K := by
  simp only [cc1__rgcn_layer_kernel_eq_skeleton]; unfold cc1__rgcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region's pipeline on core `c`: the arrays as the region finds them; after the body at
    point `t` each input buffer holds its block and the output buffer `out1_3` of the three blocks; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KBody2.lean ====
/-
  Region 2 of the program: the final projection on one block of 2000 rows.

  The pipeline hands the body four staging buffers: a [2000, 256] block of the hidden features, the whole [256, 349]
  weight matrix, the [1, 349] bias row, and the [2000, 349] block of the result. The body reads the three inputs whole
  and writes the result block once, whole: what it holds afterwards is one function of the three input blocks
  (`out2_3`). The proof data say: every input buffer still holds its block, the output buffer holds that function.
-/
import proofs.«159030_j5789615915676_1_alg».proof.Proof.Gen.Kernel.Launch
import proofs.«159030_j5789615915676_1_alg».proof.Proof.Gen.Kernel.Skeleton
import proofs.«159030_j5789615915676_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether the pipeline fetched
    it there or not: a block that is not fetched again has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through: each buffer whole -/

abbrev rh2 : Rect S2000x256 := Rect.unit (s := S2000x256) ![0, 0] S2000x256.size inb_S2000x256_S2000x256_0_0
abbrev rw2 : Rect S256x349 := Rect.unit (s := S256x349) ![0, 0] S256x349.size inb_S256x349_S256x349_0_0
abbrev rb2 : Rect S1x349 := Rect.unit (s := S1x349) ![0, 0] S1x349.size inb_S1x349_S1x349_0_0
abbrev ro2 : Rect S2000x349 := Rect.unit (s := S2000x349) ![0, 0] S2000x349.size inb_S2000x349_S2000x349_0_0

/-! ## What the body leaves in the result block -/

/-- The result block after the body, as a function of the three input blocks: the body's one store, whose value is
    the projection's arithmetic on the features, the weight matrix and the bias row. -/
def out2_3 (x0 : Vec F S2000x256 .f32) (x1 : Vec F S256x349 .f32) (x2 : Vec F S1x349 .f32) : Vec F S2000x349 .f32 :=
  View.canon [⟨ro2, k2_pay1 (View.ld x0 rh2) (View.ld x1 rw2) (View.ld x2 rb2)⟩]

/-- The one store covers the whole block. -/
theorem cover2_3 (p0 : Vec F S2000x349 .f32) (y : S2000x349.Idx) :
    ∃ pc ∈ ([⟨ro2, p0⟩] : List (View.Piece (Elt F) S2000x349 .f32)), y ∈ pc.1.set :=
  View.cover_of_tiled [⟨ro2, p0⟩] S2000x349.size (by rfl) y

/-! ## The body's triple -/

set_option maxHeartbeats 4000000 in
/-- The body on whole staging buffers, the inputs' at contents `x0 x1 x2` and the output's at anything, runs to the
    end, leaves the inputs as they were and the output at `out2_3 x0 x1 x2`. -/
theorem sound_kernel2 (c : Dev nD) (E : Set ℕ) (i : grid2.Coords)
    (arg1 : Memref sig .tc .vmem S2000x256 .f32) (harg1 : arg1.IsWhole) (arg2 : Memref sig .tc .vmem S256x349 .f32) (harg2 : arg2.IsWhole)
    (arg3 : Memref sig .tc .vmem S1x349 .f32) (harg3 : arg3.IsWhole) (arg4 : Memref sig .tc .vmem S2000x349 .f32) (harg4 : arg4.IsWhole)
    (x0 : Vec F S2000x256 .f32) (x1 : Vec F S256x349 .f32) (x2 : Vec F S1x349 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__final_proj_kernel i arg1 harg1 arg2 harg2 arg3 harg3 arg4 harg4) K := by
  simp only [cc2__final_proj_kernel_eq_skeleton]; unfold cc2__final_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this region's pipeline on core `c`: the arrays as the region finds them; after the body at
    point `t` each input buffer holds its block and the output buffer `out2_3` of the three blocks; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KFrame.lean ====
/-
  The run of the whole program: host operations, the first layer's region, host operations, the second layer's
  region, one host operation, the projection's region.

  Between two items every unscoped buffer of the core is held at known contents: the launch contents, then what each
  stretch of host operations computes from them, and after a region the region's output array at what its pipeline
  leaves there. Each region is entered by splitting its four arrays out of the unscoped buffers and left by putting
  them back. The contents a region leaves are fixed stage by stage: the second region's entry contents are computed
  from what the first leaves, the third's from what the second leaves. From the run follow the frame (every argument
  array ends as launched) and, for the value claim, what the result array holds at the end: what the last region's
  pipeline leaves in it.
-/
import proofs.«159030_j5789615915676_1_alg».proof.Proof.KBody0
import proofs.«159030_j5789615915676_1_alg».proof.Proof.KBody1
import proofs.«159030_j5789615915676_1_alg».proof.Proof.KBody2
import proofs.«159030_j5789615915676_1_alg».proof.Proof.Gen.Kernel.Regions
import Idealize.ShloMosaic.Lib.Pipeline.RegionsLoop
import Idealize.ShloMosaic.Lib.Pipeline.FrameSuffix

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev rd (W : Dev nD → Valuation τ sig (Elt F)) : (c : Dev nD) → (b : Ref sig .tc) → Buf (Elt F) ((c : Thread nD τ).loc b) :=
  fun c b => W c b

/-! ## What the regions leave, stage by stage -/

/-- After the first region: its arrays at what its pipeline leaves, every other buffer as the region found it. -/
def X14 (c : Dev nD) : Valuation τ sig (Elt F) :=
  Pipeline.withArrays spec0 c (V13 m c) fun w => (dat0 (rd (V13 m)) c).arrAt w cfg0.N
/-- The regions' leavings, the first region's known. -/
def outsA : Outs (F := F) := fun _ r c => X14 m c r
/-- After the second region, entered at the contents computed from the first's leavings. -/
def X28 (c : Dev nD) : Valuation τ sig (Elt F) :=
  Pipeline.withArrays spec1 c (V27 m (outsA m) c) fun w => (dat1 (rd (V27 m (outsA m))) c).arrAt w cfg1.N
/-- The regions' leavings, the first two regions' known. -/
def outsB : Outs (F := F) := fun J r c => if J = 14 then X14 m c r else X28 m c r
/-- After the third region, entered at the contents computed from the first two's leavings. -/
def X30 (c : Dev nD) : Valuation τ sig (Elt F) :=
  Pipeline.withArrays spec2 c (V29 m (outsB m) c) fun w => (dat2 (rd (V29 m (outsB m))) c).arrAt w cfg2.N
/-- What each region leaves in the buffers it may change. -/
def outs : Outs (F := F) := fun J r c => if J = 14 then X14 m c r else if J = 28 then X28 m c r else X30 m c r

theorem outs_14 (c : Dev nD) (r : Ref sig .tc) : outs m 14 r c = X14 m c r := if_pos rfl
theorem outs_28 (c : Dev nD) (r : Ref sig .tc) : outs m 28 r c = X28 m c r := (if_neg (by decide)).trans (if_pos rfl)
theorem outs_30 (c : Dev nD) (r : Ref sig .tc) : outs m 30 r c = X30 m c r := (if_neg (by decide)).trans (if_neg (by decide))
theorem outsB_14 (c : Dev nD) (r : Ref sig .tc) : outsB m 14 r c = X14 m c r := if_pos rfl
theorem outsB_28 (c : Dev nD) (r : Ref sig .tc) : outsB m 28 r c = X28 m c r := if_neg (by decide)

/-! ## The contents between items depend only on the leavings read so far -/

theorem V14_congr (o o' : Outs (F := F)) (c : Dev nD) (h : o 14 main_v101 c = o' 14 main_v101 c) : V14 m o c = V14 m o' c := by
  show Function.update (V13 m c) _ (o 14 main_v101 c) = Function.update (V13 m c) _ (o' 14 main_v101 c)
  rw [h]
theorem V27_congr (o o' : Outs (F := F)) (c : Dev nD) (h : o 14 main_v101 c = o' 14 main_v101 c) : V27 m o c = V27 m o' c :=
  congrArg (StableHlo.after (hostOps1_12 (F := F))) (congrArg (StableHlo.after (hostOps1_11 (F := F))) (congrArg (StableHlo.after (hostOps1_10 (F := F))) (congrArg (StableHlo.after (hostOps1_9 (F := F))) (congrArg (StableHlo.after (hostOps1_8 (F := F))) (congrArg (StableHlo.after (hostOps1_7 (F := F))) (congrArg (StableHlo.after (hostOps1_6 (F := F))) (congrArg (StableHlo.after (hostOps1_5 (F := F))) (congrArg (StableHlo.after (hostOps1_4 (F := F))) (congrArg (StableHlo.after (hostOps1_3 (F := F))) (congrArg (StableHlo.after (hostOps1_2 (F := F))) (congrArg (StableHlo.after (hostOps1_1 (F := F))) (congrArg (StableHlo.after (hostOps1 (F := F))) (V14_congr m o o' c h)))))))))))))
theorem V28_congr (o o' : Outs (F := F)) (c : Dev nD) (h : o 14 main_v101 c = o' 14 main_v101 c) (h' : o 28 main_v203 c = o' 28 main_v203 c) :
    V28 m o c = V28 m o' c := by
  show Function.update (V27 m o c) _ (o 28 main_v203 c) = Function.update (V27 m o' c) _ (o' 28 main_v203 c)
  rw [h', V27_congr m o o' c h]
theorem V29_congr (o o' : Outs (F := F)) (c : Dev nD) (h : o 14 main_v101 c = o' 14 main_v101 c) (h' : o 28 main_v203 c = o' 28 main_v203 c) :
    V29 m o c = V29 m o' c :=
  congrArg (StableHlo.after (hostOps2 (F := F))) (V28_congr m o o' c h h')

theorem V14_out (o : Outs (F := F)) (c : Dev nD) : V14 m o c main_v101 = o 14 main_v101 c := by
  show Function.update (V13 m c) _ (o 14 main_v101 c) _ = _
  exact Function.update_self _ _ _
theorem V28_out (o : Outs (F := F)) (c : Dev nD) : V28 m o c main_v203 = o 28 main_v203 c := by
  show Function.update (V27 m o c) _ (o 28 main_v203 c) _ = _
  exact Function.update_self _ _ _
theorem V30_out (o : Outs (F := F)) (c : Dev nD) : V30 m o c main_v205 = o 30 main_v205 c := by
  show Function.update (V29 m o c) _ (o 30 main_v205 c) _ = _
  exact Function.update_self _ _ _

theorem V27_outs (c : Dev nD) : V27 m (outs m) c = V27 m (outsA m) c := V27_congr m _ _ c (outs_14 m c _)
theorem V29_outs (c : Dev nD) : V29 m (outs m) c = V29 m (outsB m) c :=
  V29_congr m _ _ c ((outs_14 m c _).trans (outsB_14 m c _).symm) ((outs_28 m c _).trans (outsB_28 m c _).symm)

/-! ## The proof data family -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (cfgs p) c
  | ⟨0, _⟩ => fun c => dat0 (rd (V13 m)) c
  | ⟨1, _⟩ => fun c => dat1 (rd (V27 m (outsA m))) c
  | ⟨2, _⟩ => fun c => dat2 (rd (V29 m (outsB m))) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Each region's exit contents: its arrays at what the pipeline leaves, the rest as entered -/

theorem hF0 (c : Dev nD) : ∀ w : Fin cfg0.W, (pdats m 0 c).arrAt w cfg0.N = rd (V14 m (outs m)) c (Pipeline.arrRef spec0 w)
  | ⟨0, _⟩ => ((dat0 (rd (V13 m)) c).arrAt_in 0 rfl _).trans ((A_eq0 (rd (V13 m)) c 0).trans (V14_of m (outs m) c _ (by decide)).symm)
  | ⟨1, _⟩ => ((dat0 (rd (V13 m)) c).arrAt_in 1 rfl _).trans ((A_eq0 (rd (V13 m)) c 1).trans (V14_of m (outs m) c _ (by decide)).symm)
  | ⟨2, _⟩ => ((dat0 (rd (V13 m)) c).arrAt_in 2 rfl _).trans ((A_eq0 (rd (V13 m)) c 2).trans (V14_of m (outs m) c _ (by decide)).symm)
  | ⟨3, _⟩ => ((Pipeline.withArrays_arr spec0 launch0.win.arr_inj c _ _ 3).symm.trans (outs_14 m c main_v101).symm).trans
      (V14_out m (outs m) c).symm
theorem hrest0 (c : Dev nD) : ∀ b, b ∉ Finset.univ.image (Pipeline.arrRef spec0) → rd (V14 m (outs m)) c b = rd (V13 m) c b :=
  fun b hb => V14_of m (outs m) c b fun h => hb (by
    rw [List.mem_singleton] at h; subst h; exact Finset.mem_image.mpr ⟨3, Finset.mem_univ _, rfl⟩)

theorem hF1 (c : Dev nD) : ∀ w : Fin cfg1.W, (pdats m 1 c).arrAt w cfg1.N = rd (V28 m (outs m)) c (Pipeline.arrRef spec1 w)
  | ⟨0, _⟩ => ((dat1 (rd (V27 m (outsA m))) c).arrAt_in 0 rfl _).trans ((A_eq1 (rd (V27 m (outsA m))) c 0).trans
      ((V28_of m (outs m) c _ (by decide)).trans (congrFun (V27_outs m c) _)).symm)
  | ⟨1, _⟩ => ((dat1 (rd (V27 m (outsA m))) c).arrAt_in 1 rfl _).trans ((A_eq1 (rd (V27 m (outsA m))) c 1).trans
      ((V28_of m (outs m) c _ (by decide)).trans (congrFun (V27_outs m c) _)).symm)
  | ⟨2, _⟩ => ((dat1 (rd (V27 m (outsA m))) c).arrAt_in 2 rfl _).trans ((A_eq1 (rd (V27 m (outsA m))) c 2).trans
      ((V28_of m (outs m) c _ (by decide)).trans (congrFun (V27_outs m c) _)).symm)
  | ⟨3, _⟩ => ((Pipeline.withArrays_arr spec1 launch1.win.arr_inj c _ _ 3).symm.trans (outs_28 m c main_v203).symm).trans
      (V28_out m (outs m) c).symm
theorem hrest1 (c : Dev nD) : ∀ b, b ∉ Finset.univ.image (Pipeline.arrRef spec1) → rd (V28 m (outs m)) c b = rd (V27 m (outsA m)) c b :=
  fun b hb => (V28_of m (outs m) c b fun h => hb (by
    rw [List.mem_singleton] at h; subst h; exact Finset.mem_image.mpr ⟨3, Finset.mem_univ _, rfl⟩)).trans (congrFun (V27_outs m c) _)

theorem hF2 (c : Dev nD) : ∀ w : Fin cfg2.W, (pdats m 2 c).arrAt w cfg2.N = rd (V30 m (outs m)) c (Pipeline.arrRef spec2 w)
  | ⟨0, _⟩ => ((dat2 (rd (V29 m (outsB m))) c).arrAt_in 0 rfl _).trans ((A_eq2 (rd (V29 m (outsB m))) c 0).trans
      ((V30_of m (outs m) c _ (by decide)).trans (congrFun (V29_outs m c) _)).symm)
  | ⟨1, _⟩ => ((dat2 (rd (V29 m (outsB m))) c).arrAt_in 1 rfl _).trans ((A_eq2 (rd (V29 m (outsB m))) c 1).trans
      ((V30_of m (outs m) c _ (by decide)).trans (congrFun (V29_outs m c) _)).symm)
  | ⟨2, _⟩ => ((dat2 (rd (V29 m (outsB m))) c).arrAt_in 2 rfl _).trans ((A_eq2 (rd (V29 m (outsB m))) c 2).trans
      ((V30_of m (outs m) c _ (by decide)).trans (congrFun (V29_outs m c) _)).symm)
  | ⟨3, _⟩ => ((Pipeline.withArrays_arr spec2 launch2.win.arr_inj c _ _ 3).symm.trans (outs_30 m c main_v205).symm).trans
      (V30_out m (outs m) c).symm
theorem hrest2 (c : Dev nD) : ∀ b, b ∉ Finset.univ.image (Pipeline.arrRef spec2) → rd (V30 m (outs m)) c b = rd (V29 m (outsB m)) c b :=
  fun b hb => (V30_of m (outs m) c b fun h => hb (by
    rw [List.mem_singleton] at h; subst h; exact Finset.mem_image.mpr ⟨3, Finset.mem_univ _, rfl⟩)).trans (congrFun (V29_outs m c) _)

/-! ## The regions as segments -/

set_option backward.isDefEq.respectTransparency.types false in
/-- Region 0 as a segment of the run: entered with every unscoped buffer at the contents before it, left with them
    at the contents after it; the region's arrays are split out of the unscoped buffers at entry and put back, at what
    the pipeline leaves in them, at exit; the generator register rides along; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V13 m)) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec0 c (rd (V13 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (V13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V13 m) c) (rd (V14 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at the contents before it, left with them
    at the contents after it; the region's arrays are split out of the unscoped buffers at entry and put back, at what
    the pipeline leaves in them, at exit; the generator register rides along; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V27 m (outsA m))) c).loose
  hwaits := Pipeline.hwaits_of_owed_zero _ _ _ _ L lv 1 fun _ _ => rfl
  pre c := iprop(StableHlo.held (c : Thread nD τ) (Pipeline.ucRefs τ sig) (V27 m (outsA m) c) ∗ R c)
  post c := iprop(StableHlo.held (c : Thread nD τ) (Pipeline.ucRefs τ sig) (V28 m (outs m) c) ∗ R c)
  X c := iprop(∃ r, prngReg c r)
  Y c := iprop(∃ r, prngReg c r)
  Z c := Pipeline.unscopedRest (Ix := Unit) (Name := ℕ) (U := UR sig nD τ) (Lvl := ℕ) spec1 c (rd (V27 m (outsA m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (V27 m (outsA m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V27 m (outsA m)) c) (rd (V28 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at the contents before it, left with them
    at the contents after it; the region's arrays are split out of the unscoped buffers at entry and put back, at what
    the pipeline leaves in them, at exit; the generator register rides along; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V29 m (outsB m))) c).loose
  hwaits := Pipeline.hwaits_of_owed_zero _ _ _ _ L lv 2 fun _ _ => rfl
  pre c := iprop(StableHlo.held (c : Thread nD τ) (Pipeline.ucRefs τ sig) (V29 m (outsB m) c) ∗ R c)
  post c := iprop(StableHlo.held (c : Thread nD τ) (Pipeline.ucRefs τ sig) (V30 m (outs m) c) ∗ R c)
  X c := iprop(∃ r, prngReg c r)
  Y c := iprop(∃ r, prngReg c r)
  Z c := Pipeline.unscopedRest (Ix := Unit) (Name := ℕ) (U := UR sig nD τ) (Lvl := ℕ) spec2 c (rd (V29 m (outsB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (V29 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V29 m (outsB m)) c) (rd (V30 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Beside the buffers, every item is entered and left with the same rest. -/
def E : Fin 4 → Dev nD → sProp 𝕄 := fun _ c => R c

/-- The launch element of the pipelines' staging cells. -/
abbrev u₀ : UR sig nD τ := initOf (Pipeline.cells cfgs cellOf_inj) (Pipeline.launchToks cfgs cellOf_inj)

theorem hu₀ : (ownU (u₀) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core makes the first rest on every core. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (E (F := F) 0) : sProp 𝕄) := by
  refine Pipeline.initEach L lv fun c => ?_
  unfold E
  iintro ⟨⟨-, HO, -, Hp, -⟩, -⟩
  imodintro
  isplitl [Hp]; · iexists _; iexact Hp
  iexists ∅; iexact HO

theorem hE3 (c : Dev nD) : E (F := F) 3 c ⊢ (iprop(∃ W, owes (c : Thread nD τ) (0 : CellTallies nD τ sig Unit) W) : sProp 𝕄) := by
  unfold E
  iintro ⟨-, HO⟩; iexact HO

theorem hpre0 (c : Dev nD) : iprop(StableHlo.held (c : Thread nD τ) (Pipeline.ucRefs τ sig) (V13 m c) ∗ E 0 c) ⊢ (reg0 m).pre c := .rfl
theorem hpost0 (c : Dev nD) : (reg0 m).post c ⊢ iprop(StableHlo.held (c : Thread nD τ) (Pipeline.ucRefs τ sig) (V14 m (outs m) c) ∗ E 1 c) := .rfl
theorem hpre1 (c : Dev nD) : iprop(StableHlo.held (c : Thread nD τ) (Pipeline.ucRefs τ sig) (V27 m (outs m) c) ∗ E 1 c) ⊢ (reg1 m).pre c := by
  rw [V27_outs m c]; exact .rfl
theorem hpost1 (c : Dev nD) : (reg1 m).post c ⊢ iprop(StableHlo.held (c : Thread nD τ) (Pipeline.ucRefs τ sig) (V28 m (outs m) c) ∗ E 2 c) := .rfl
theorem hpre2 (c : Dev nD) : iprop(StableHlo.held (c : Thread nD τ) (Pipeline.ucRefs τ sig) (V29 m (outs m) c) ∗ E 2 c) ⊢ (reg2 m).pre c := by
  rw [V29_outs m c]; exact .rfl
theorem hpost2 (c : Dev nD) : (reg2 m).post c ⊢ iprop(StableHlo.held (c : Thread nD τ) (Pipeline.ucRefs τ sig) (V30 m (outs m) c) ∗ E 3 c) := .rfl

set_option backward.isDefEq.respectTransparency.types false in
/-- THE RUN. From any memory with zero counters every weakly fair execution of @main terminates, nothing faulting;
    at the end the result array holds what the last region's pipeline leaves in it and every argument array is as
    launched. -/
theorem run_val (ρ : Dev nD → PrngReg) : θ_run defs (onTc (τ := τ) (main (F := F))) ⟨m, fun _ => 0, ρ⟩ (fun r => ∀ c : Dev nD,
      r.2.mem ((c.tc : Thread nD τ).loc main_v205) = outs m 30 main_v205 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m))
    (fun c Q => by
      rewrite [main_chain c, Seg.run_eq_chain,
        show (segs m (outs m) 𝒱₀ L lv E () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V30 m (outs m) c))
    (hch := fun c => ⟨.rfl, .rfl, .rfl, .rfl, .rfl, .rfl, .rfl, .rfl, .rfl, .rfl, .rfl, .rfl, .rfl, hpre0 m c, hpost0 m c, .rfl, .rfl, .rfl, .rfl, .rfl, .rfl, .rfl, .rfl, .rfl, .rfl, .rfl, .rfl, hpre1 m c, hpost1 m c, hpre2 m c, (hpost2 m c).trans (sep_mono .rfl (hE3 c))⟩)
    (hinit := ?_) (QY := fun c s => s.mem ((c.tc : Thread nD τ).loc main_v205) = outs m 30 main_v205 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V30 m (outs m) c) s') $$ [Hh HSI]
    · isplitl [Hh] <;> iassumption
    icases Hr with ⟨%h, HSI⟩
    imodintro
    isplitr
    · ipureintro
      exact ⟨(h (Proc.devRef .tc main_v205) (Finset.mem_filter.mpr ⟨StableHlo.devRef_mem_tcRefs main_v205, by decide⟩)).trans (V30_out m (outs m) c),
        (h (Proc.devRef .tc main_arg0) (Finset.mem_filter.mpr ⟨StableHlo.devRef_mem_tcRefs main_arg0, by decide⟩)).trans (V30_main_arg0 m (outs m) c),
        (h (Proc.devRef .tc main_arg1) (Finset.mem_filter.mpr ⟨StableHlo.devRef_mem_tcRefs main_arg1, by decide⟩)).trans (V30_main_arg1 m (outs m) c),
        (h (Proc.devRef .tc main_arg2) (Finset.mem_filter.mpr ⟨StableHlo.devRef_mem_tcRefs main_arg2, by decide⟩)).trans (V30_main_arg2 m (outs m) c),
        (h (Proc.devRef .tc main_arg3) (Finset.mem_filter.mpr ⟨StableHlo.devRef_mem_tcRefs main_arg3, by decide⟩)).trans (V30_main_arg3 m (outs m) c),
        (h (Proc.devRef .tc main_arg4) (Finset.mem_filter.mpr ⟨StableHlo.devRef_mem_tcRefs main_arg4, by decide⟩)).trans (V30_main_arg4 m (outs m) c),
        (h (Proc.devRef .tc main_arg5) (Finset.mem_filter.mpr ⟨StableHlo.devRef_mem_tcRefs main_arg5, by decide⟩)).trans (V30_main_arg5 m (outs m) c)⟩
    · iexact HSI

/-- THE FRAME: the run with the result forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_val m ρ)

end Cert.Kernel.Frm

end
-- ==== Proof.KIBody0.lean ====
/-
  Region 0 of the program: the layer kernel on one block of 2000 rows.

  The pipeline hands the body four staging buffers: a [3, 2000, 256] block of the stacked aggregates (one slab per
  relation), the whole [3, 256, 256] stack of weights, the whole [3, 256] stack of biases, and the [2000, 256] block of
  the result. The body reads the three slabs, the three weight matrices and the three bias rows through fixed
  rectangles and writes the result block once, whole. What the result block holds afterwards is therefore one function
  of the three input blocks (`out0_3`), and the pipeline's proof data say: every input buffer still holds its block,
  the output buffer holds that function of them.
-/
import proofs.«159030_j5789615915676_1_alg».proof.Proof.Gen.KernelIdeal.Launch
import proofs.«159030_j5789615915676_1_alg».proof.Proof.Gen.KernelIdeal.Skeleton
import proofs.«159030_j5789615915676_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the pipeline fetched
    it there or not: a block that is not fetched again has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- Slab r of the aggregates' block. -/
abbrev ra0_0 : Rect S3x2000x256 := Rect.unit (s := S3x2000x256) ![0, 0, 0] S1x2000x256.size inb_S3x2000x256_S1x2000x256_0_0_0
abbrev ra0_1 : Rect S3x2000x256 := Rect.unit (s := S3x2000x256) ![1, 0, 0] S1x2000x256.size inb_S3x2000x256_S1x2000x256_1_0_0
abbrev ra0_2 : Rect S3x2000x256 := Rect.unit (s := S3x2000x256) ![2, 0, 0] S1x2000x256.size inb_S3x2000x256_S1x2000x256_2_0_0
/-- Weight matrix r of the stack. -/
abbrev rw0_0 : Rect S3x256x256 := Rect.unit (s := S3x256x256) ![0, 0, 0] S1x256x256.size inb_S3x256x256_S1x256x256_0_0_0
abbrev rw0_1 : Rect S3x256x256 := Rect.unit (s := S3x256x256) ![1, 0, 0] S1x256x256.size inb_S3x256x256_S1x256x256_1_0_0
abbrev rw0_2 : Rect S3x256x256 := Rect.unit (s := S3x256x256) ![2, 0, 0] S1x256x256.size inb_S3x256x256_S1x256x256_2_0_0
/-- Bias row r of the stack. -/
abbrev rb0_0 : Rect S3x256 := Rect.unit (s := S3x256) ![0, 0] S1x256.size inb_S3x256_S1x256_0_0
abbrev rb0_1 : Rect S3x256 := Rect.unit (s := S3x256) ![1, 0] S1x256.size inb_S3x256_S1x256_1_0
abbrev rb0_2 : Rect S3x256 := Rect.unit (s := S3x256) ![2, 0] S1x256.size inb_S3x256_S1x256_2_0
/-- The whole result block. -/
abbrev ro0 : Rect S2000x256 := Rect.unit (s := S2000x256) ![0, 0] S2000x256.size inb_S2000x256_S2000x256_0_0

/-! ## What the body leaves in the result block -/

/-- The result block after the body, as a function of the three input blocks: the body's one store, whose value is
    the layer's arithmetic on the slabs, weight matrices and bias rows read through the rectangles above. -/
def out0_3 (x0 : Vec F S3x2000x256 .f32) (x1 : Vec F S3x256x256 .f32) (x2 : Vec F S3x256 .f32) : Vec F S2000x256 .f32 :=
  View.canon [⟨ro0, k0_pay1
    (k0_pay2 (View.ld x0 ra0_0) (View.ld x1 rw0_0) (View.ld x2 rb0_0) (View.ld x0 ra0_1) (View.ld x1 rw0_1) (View.ld x2 rb0_1))
    (k0_pay3 (View.ld x0 ra0_2)) (k0_pay4 (View.ld x1 rw0_2)) (constant S2000x256 .f32 0x00000000#32) (View.ld x2 rb0_2)⟩]

/-- The one store covers the whole block. -/
theorem cover0_3 (p0 : Vec F S2000x256 .f32) (y : S2000x256.Idx) :
    ∃ pc ∈ ([⟨ro0, p0⟩] : List (View.Piece (Elt F) S2000x256 .f32)), y ∈ pc.1.set :=
  View.cover_of_tiled [⟨ro0, p0⟩] S2000x256.size (by rfl) y

/-! ## The body's triple -/

set_option maxHeartbeats 4000000 in
/-- The body on whole staging buffers, the inputs' at contents `x0 x1 x2` and the output's at anything, runs to the
    end, leaves the inputs as they were and the output at `out0_3 x0 x1 x2`. -/
theorem sound_kernel0 (c : Dev nD) (E : Set ℕ) (i : grid0.Coords)
    (arg1 : Memref sig .tc .vmem S3x2000x256 .f32) (harg1 : arg1.IsWhole) (arg2 : Memref sig .tc .vmem S3x256x256 .f32) (harg2 : arg2.IsWhole)
    (arg3 : Memref sig .tc .vmem S3x256 .f32) (harg3 : arg3.IsWhole) (arg4 : Memref sig .tc .vmem S2000x256 .f32) (harg4 : arg4.IsWhole)
    (x0 : Vec F S3x2000x256 .f32) (x1 : Vec F S3x256x256 .f32) (x2 : Vec F S3x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__rgcn_layer_kernel i arg1 harg1 arg2 harg2 arg3 harg3 arg4 harg4) K := by
  simp only [cc0__rgcn_layer_kernel_eq_skeleton]; unfold cc0__rgcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region's pipeline on core `c`: the arrays as the region finds them; after the body at
    point `t` each input buffer holds its block and the output buffer `out0_3` of the three blocks; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KIBody1.lean ====
/-
  Region 1 of the program: the layer kernel on one block of 2000 rows.

  The pipeline hands the body four staging buffers: a [3, 2000, 256] block of the stacked aggregates (one slab per
  relation), the whole [3, 256, 256] stack of weights, the whole [3, 256] stack of biases, and the [2000, 256] block of
  the result. The body reads the three slabs, the three weight matrices and the three bias rows through fixed
  rectangles and writes the result block once, whole. What the result block holds afterwards is therefore one function
  of the three input blocks (`out1_3`), and the pipeline's proof data say: every input buffer still holds its block,
  the output buffer holds that function of them.
-/
import proofs.«159030_j5789615915676_1_alg».proof.Proof.Gen.KernelIdeal.Launch
import proofs.«159030_j5789615915676_1_alg».proof.Proof.Gen.KernelIdeal.Skeleton
import proofs.«159030_j5789615915676_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the pipeline fetched
    it there or not: a block that is not fetched again has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- Slab r of the aggregates' block. -/
abbrev ra1_0 : Rect S3x2000x256 := Rect.unit (s := S3x2000x256) ![0, 0, 0] S1x2000x256.size inb_S3x2000x256_S1x2000x256_0_0_0
abbrev ra1_1 : Rect S3x2000x256 := Rect.unit (s := S3x2000x256) ![1, 0, 0] S1x2000x256.size inb_S3x2000x256_S1x2000x256_1_0_0
abbrev ra1_2 : Rect S3x2000x256 := Rect.unit (s := S3x2000x256) ![2, 0, 0] S1x2000x256.size inb_S3x2000x256_S1x2000x256_2_0_0
/-- Weight matrix r of the stack. -/
abbrev rw1_0 : Rect S3x256x256 := Rect.unit (s := S3x256x256) ![0, 0, 0] S1x256x256.size inb_S3x256x256_S1x256x256_0_0_0
abbrev rw1_1 : Rect S3x256x256 := Rect.unit (s := S3x256x256) ![1, 0, 0] S1x256x256.size inb_S3x256x256_S1x256x256_1_0_0
abbrev rw1_2 : Rect S3x256x256 := Rect.unit (s := S3x256x256) ![2, 0, 0] S1x256x256.size inb_S3x256x256_S1x256x256_2_0_0
/-- Bias row r of the stack. -/
abbrev rb1_0 : Rect S3x256 := Rect.unit (s := S3x256) ![0, 0] S1x256.size inb_S3x256_S1x256_0_0
abbrev rb1_1 : Rect S3x256 := Rect.unit (s := S3x256) ![1, 0] S1x256.size inb_S3x256_S1x256_1_0
abbrev rb1_2 : Rect S3x256 := Rect.unit (s := S3x256) ![2, 0] S1x256.size inb_S3x256_S1x256_2_0
/-- The whole result block. -/
abbrev ro1 : Rect S2000x256 := Rect.unit (s := S2000x256) ![0, 0] S2000x256.size inb_S2000x256_S2000x256_0_0

/-! ## What the body leaves in the result block -/

/-- The result block after the body, as a function of the three input blocks: the body's one store, whose value is
    the layer's arithmetic on the slabs, weight matrices and bias rows read through the rectangles above. -/
def out1_3 (x0 : Vec F S3x2000x256 .f32) (x1 : Vec F S3x256x256 .f32) (x2 : Vec F S3x256 .f32) : Vec F S2000x256 .f32 :=
  View.canon [⟨ro1, k1_pay1
    (k1_pay2 (View.ld x0 ra1_0) (View.ld x1 rw1_0) (View.ld x2 rb1_0) (View.ld x0 ra1_1) (View.ld x1 rw1_1) (View.ld x2 rb1_1))
    (k1_pay3 (View.ld x0 ra1_2)) (k1_pay4 (View.ld x1 rw1_2)) (constant S2000x256 .f32 0x00000000#32) (View.ld x2 rb1_2)⟩]

/-- The one store covers the whole block. -/
theorem cover1_3 (p0 : Vec F S2000x256 .f32) (y : S2000x256.Idx) :
    ∃ pc ∈ ([⟨ro1, p0⟩] : List (View.Piece (Elt F) S2000x256 .f32)), y ∈ pc.1.set :=
  View.cover_of_tiled [⟨ro1, p0⟩] S2000x256.size (by rfl) y

/-! ## The body's triple -/

set_option maxHeartbeats 4000000 in
/-- The body on whole staging buffers, the inputs' at contents `x0 x1 x2` and the output's at anything, runs to the
    end, leaves the inputs as they were and the output at `out1_3 x0 x1 x2`. -/
theorem sound_kernel1 (c : Dev nD) (E : Set ℕ) (i : grid1.Coords)
    (arg1 : Memref sig .tc .vmem S3x2000x256 .f32) (harg1 : arg1.IsWhole) (arg2 : Memref sig .tc .vmem S3x256x256 .f32) (harg2 : arg2.IsWhole)
    (arg3 : Memref sig .tc .vmem S3x256 .f32) (harg3 : arg3.IsWhole) (arg4 : Memref sig .tc .vmem S2000x256 .f32) (harg4 : arg4.IsWhole)
    (x0 : Vec F S3x2000x256 .f32) (x1 : Vec F S3x256x256 .f32) (x2 : Vec F S3x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__rgcn_layer_kernel i arg1 harg1 arg2 harg2 arg3 harg3 arg4 harg4) K := by
  simp only [cc1__rgcn_layer_kernel_eq_skeleton]; unfold cc1__rgcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region's pipeline on core `c`: the arrays as the region finds them; after the body at
    point `t` each input buffer holds its block and the output buffer `out1_3` of the three blocks; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KIBody2.lean ====
/-
  Region 2 of the program: the final projection on one block of 2000 rows.

  The pipeline hands the body four staging buffers: a [2000, 256] block of the hidden features, the whole [256, 349]
  weight matrix, the [1, 349] bias row, and the [2000, 349] block of the result. The body reads the three inputs whole
  and writes the result block once, whole: what it holds afterwards is one function of the three input blocks
  (`out2_3`). The proof data say: every input buffer still holds its block, the output buffer holds that function.
-/
import proofs.«159030_j5789615915676_1_alg».proof.Proof.Gen.KernelIdeal.Launch
import proofs.«159030_j5789615915676_1_alg».proof.Proof.Gen.KernelIdeal.Skeleton
import proofs.«159030_j5789615915676_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether the pipeline fetched
    it there or not: a block that is not fetched again has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through: each buffer whole -/

abbrev rh2 : Rect S2000x256 := Rect.unit (s := S2000x256) ![0, 0] S2000x256.size inb_S2000x256_S2000x256_0_0
abbrev rw2 : Rect S256x349 := Rect.unit (s := S256x349) ![0, 0] S256x349.size inb_S256x349_S256x349_0_0
abbrev rb2 : Rect S1x349 := Rect.unit (s := S1x349) ![0, 0] S1x349.size inb_S1x349_S1x349_0_0
abbrev ro2 : Rect S2000x349 := Rect.unit (s := S2000x349) ![0, 0] S2000x349.size inb_S2000x349_S2000x349_0_0

/-! ## What the body leaves in the result block -/

/-- The result block after the body, as a function of the three input blocks: the body's one store, whose value is
    the projection's arithmetic on the features, the weight matrix and the bias row. -/
def out2_3 (x0 : Vec F S2000x256 .f32) (x1 : Vec F S256x349 .f32) (x2 : Vec F S1x349 .f32) : Vec F S2000x349 .f32 :=
  View.canon [⟨ro2, k2_pay1 (View.ld x0 rh2) (View.ld x1 rw2) (View.ld x2 rb2)⟩]

/-- The one store covers the whole block. -/
theorem cover2_3 (p0 : Vec F S2000x349 .f32) (y : S2000x349.Idx) :
    ∃ pc ∈ ([⟨ro2, p0⟩] : List (View.Piece (Elt F) S2000x349 .f32)), y ∈ pc.1.set :=
  View.cover_of_tiled [⟨ro2, p0⟩] S2000x349.size (by rfl) y

/-! ## The body's triple -/

set_option maxHeartbeats 4000000 in
/-- The body on whole staging buffers, the inputs' at contents `x0 x1 x2` and the output's at anything, runs to the
    end, leaves the inputs as they were and the output at `out2_3 x0 x1 x2`. -/
theorem sound_kernel2 (c : Dev nD) (E : Set ℕ) (i : grid2.Coords)
    (arg1 : Memref sig .tc .vmem S2000x256 .f32) (harg1 : arg1.IsWhole) (arg2 : Memref sig .tc .vmem S256x349 .f32) (harg2 : arg2.IsWhole)
    (arg3 : Memref sig .tc .vmem S1x349 .f32) (harg3 : arg3.IsWhole) (arg4 : Memref sig .tc .vmem S2000x349 .f32) (harg4 : arg4.IsWhole)
    (x0 : Vec F S2000x256 .f32) (x1 : Vec F S256x349 .f32) (x2 : Vec F S1x349 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__final_proj_kernel i arg1 harg1 arg2 harg2 arg3 harg3 arg4 harg4) K := by
  simp only [cc2__final_proj_kernel_eq_skeleton]; unfold cc2__final_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this region's pipeline on core `c`: the arrays as the region finds them; after the body at
    point `t` each input buffer holds its block and the output buffer `out2_3` of the three blocks; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KIFrame.lean ====
/-
  The run of the whole program: host operations, the first layer's region, host operations, the second layer's
  region, one host operation, the projection's region.

  Between two items every unscoped buffer of the core is held at known contents: the launch contents, then what each
  stretch of host operations computes from them, and after a region the region's output array at what its pipeline
  leaves there. Each region is entered by splitting its four arrays out of the unscoped buffers and left by putting
  them back. The contents a region leaves are fixed stage by stage: the second region's entry contents are computed
  from what the first leaves, the third's from what the second leaves. From the run follow the frame (every argument
  array ends as launched) and, for the value claim, what the result array holds at the end: what the last region's
  pipeline leaves in it.
-/
import proofs.«159030_j5789615915676_1_alg».proof.Proof.KIBody0
import proofs.«159030_j5789615915676_1_alg».proof.Proof.KIBody1
import proofs.«159030_j5789615915676_1_alg».proof.Proof.KIBody2
import proofs.«159030_j5789615915676_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- A valuation read at the TensorCore's references. -/
abbrev rd (W : Dev nD → Valuation τ sig (Elt F)) : (c : Dev nD) → (b : Ref sig .tc) → Buf (Elt F) ((c : Thread nD τ).loc b) :=
  fun c b => W c b

/-! ## What the regions leave, stage by stage -/

/-- After the first region: its arrays at what its pipeline leaves, every other buffer as the region found it. -/
def X14 (c : Dev nD) : Valuation τ sig (Elt F) :=
  Pipeline.withArrays spec0 c (V13 m c) fun w => (dat0 (rd (V13 m)) c).arrAt w cfg0.N
/-- The regions' leavings, the first region's known. -/
def outsA : Outs (F := F) := fun _ r c => X14 m c r
/-- After the second region, entered at the contents computed from the first's leavings. -/
def X28 (c : Dev nD) : Valuation τ sig (Elt F) :=
  Pipeline.withArrays spec1 c (V27 m (outsA m) c) fun w => (dat1 (rd (V27 m (outsA m))) c).arrAt w cfg1.N
/-- The regions' leavings, the first two regions' known. -/
def outsB : Outs (F := F) := fun J r c => if J = 14 then X14 m c r else X28 m c r
/-- After the third region, entered at the contents computed from the first two's leavings. -/
def X30 (c : Dev nD) : Valuation τ sig (Elt F) :=
  Pipeline.withArrays spec2 c (V29 m (outsB m) c) fun w => (dat2 (rd (V29 m (outsB m))) c).arrAt w cfg2.N
/-- What each region leaves in the buffers it may change. -/
def outs : Outs (F := F) := fun J r c => if J = 14 then X14 m c r else if J = 28 then X28 m c r else X30 m c r

theorem outs_14 (c : Dev nD) (r : Ref sig .tc) : outs m 14 r c = X14 m c r := if_pos rfl
theorem outs_28 (c : Dev nD) (r : Ref sig .tc) : outs m 28 r c = X28 m c r := (if_neg (by decide)).trans (if_pos rfl)
theorem outs_30 (c : Dev nD) (r : Ref sig .tc) : outs m 30 r c = X30 m c r := (if_neg (by decide)).trans (if_neg (by decide))
theorem outsB_14 (c : Dev nD) (r : Ref sig .tc) : outsB m 14 r c = X14 m c r := if_pos rfl
theorem outsB_28 (c : Dev nD) (r : Ref sig .tc) : outsB m 28 r c = X28 m c r := if_neg (by decide)

/-! ## The contents between items depend only on the leavings read so far -/

theorem V14_congr (o o' : Outs (F := F)) (c : Dev nD) (h : o 14 main_v101 c = o' 14 main_v101 c) : V14 m o c = V14 m o' c := by
  show Function.update (V13 m c) _ (o 14 main_v101 c) = Function.update (V13 m c) _ (o' 14 main_v101 c)
  rw [h]
theorem V27_congr (o o' : Outs (F := F)) (c : Dev nD) (h : o 14 main_v101 c = o' 14 main_v101 c) : V27 m o c = V27 m o' c :=
  congrArg (StableHlo.after (hostOps1_12 (F := F))) (congrArg (StableHlo.after (hostOps1_11 (F := F))) (congrArg (StableHlo.after (hostOps1_10 (F := F))) (congrArg (StableHlo.after (hostOps1_9 (F := F))) (congrArg (StableHlo.after (hostOps1_8 (F := F))) (congrArg (StableHlo.after (hostOps1_7 (F := F))) (congrArg (StableHlo.after (hostOps1_6 (F := F))) (congrArg (StableHlo.after (hostOps1_5 (F := F))) (congrArg (StableHlo.after (hostOps1_4 (F := F))) (congrArg (StableHlo.after (hostOps1_3 (F := F))) (congrArg (StableHlo.after (hostOps1_2 (F := F))) (congrArg (StableHlo.after (hostOps1_1 (F := F))) (congrArg (StableHlo.after (hostOps1 (F := F))) (V14_congr m o o' c h)))))))))))))
theorem V28_congr (o o' : Outs (F := F)) (c : Dev nD) (h : o 14 main_v101 c = o' 14 main_v101 c) (h' : o 28 main_v203 c = o' 28 main_v203 c) :
    V28 m o c = V28 m o' c := by
  show Function.update (V27 m o c) _ (o 28 main_v203 c) = Function.update (V27 m o' c) _ (o' 28 main_v203 c)
  rw [h', V27_congr m o o' c h]
theorem V29_congr (o o' : Outs (F := F)) (c : Dev nD) (h : o 14 main_v101 c = o' 14 main_v101 c) (h' : o 28 main_v203 c = o' 28 main_v203 c) :
    V29 m o c = V29 m o' c :=
  congrArg (StableHlo.after (hostOps2 (F := F))) (V28_congr m o o' c h h')

theorem V14_out (o : Outs (F := F)) (c : Dev nD) : V14 m o c main_v101 = o 14 main_v101 c := by
  show Function.update (V13 m c) _ (o 14 main_v101 c) _ = _
  exact Function.update_self _ _ _
theorem V28_out (o : Outs (F := F)) (c : Dev nD) : V28 m o c main_v203 = o 28 main_v203 c := by
  show Function.update (V27 m o c) _ (o 28 main_v203 c) _ = _
  exact Function.update_self _ _ _
theorem V30_out (o : Outs (F := F)) (c : Dev nD) : V30 m o c main_v205 = o 30 main_v205 c := by
  show Function.update (V29 m o c) _ (o 30 main_v205 c) _ = _
  exact Function.update_self _ _ _

theorem V27_outs (c : Dev nD) : V27 m (outs m) c = V27 m (outsA m) c := V27_congr m _ _ c (outs_14 m c _)
theorem V29_outs (c : Dev nD) : V29 m (outs m) c = V29 m (outsB m) c :=
  V29_congr m _ _ c ((outs_14 m c _).trans (outsB_14 m c _).symm) ((outs_28 m c _).trans (outsB_28 m c _).symm)

/-! ## The proof data family -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (cfgs p) c
  | ⟨0, _⟩ => fun c => dat0 (rd (V13 m)) c
  | ⟨1, _⟩ => fun c => dat1 (rd (V27 m (outsA m))) c
  | ⟨2, _⟩ => fun c => dat2 (rd (V29 m (outsB m))) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Each region's exit contents: its arrays at what the pipeline leaves, the rest as entered -/

theorem hF0 (c : Dev nD) : ∀ w : Fin cfg0.W, (pdats m 0 c).arrAt w cfg0.N = rd (V14 m (outs m)) c (Pipeline.arrRef spec0 w)
  | ⟨0, _⟩ => ((dat0 (rd (V13 m)) c).arrAt_in 0 rfl _).trans ((A_eq0 (rd (V13 m)) c 0).trans (V14_of m (outs m) c _ (by decide)).symm)
  | ⟨1, _⟩ => ((dat0 (rd (V13 m)) c).arrAt_in 1 rfl _).trans ((A_eq0 (rd (V13 m)) c 1).trans (V14_of m (outs m) c _ (by decide)).symm)
  | ⟨2, _⟩ => ((dat0 (rd (V13 m)) c).arrAt_in 2 rfl _).trans ((A_eq0 (rd (V13 m)) c 2).trans (V14_of m (outs m) c _ (by decide)).symm)
  | ⟨3, _⟩ => ((Pipeline.withArrays_arr spec0 launch0.win.arr_inj c _ _ 3).symm.trans (outs_14 m c main_v101).symm).trans
      (V14_out m (outs m) c).symm
theorem hrest0 (c : Dev nD) : ∀ b, b ∉ Finset.univ.image (Pipeline.arrRef spec0) → rd (V14 m (outs m)) c b = rd (V13 m) c b :=
  fun b hb => V14_of m (outs m) c b fun h => hb (by
    rw [List.mem_singleton] at h; subst h; exact Finset.mem_image.mpr ⟨3, Finset.mem_univ _, rfl⟩)

theorem hF1 (c : Dev nD) : ∀ w : Fin cfg1.W, (pdats m 1 c).arrAt w cfg1.N = rd (V28 m (outs m)) c (Pipeline.arrRef spec1 w)
  | ⟨0, _⟩ => ((dat1 (rd (V27 m (outsA m))) c).arrAt_in 0 rfl _).trans ((A_eq1 (rd (V27 m (outsA m))) c 0).trans
      ((V28_of m (outs m) c _ (by decide)).trans (congrFun (V27_outs m c) _)).symm)
  | ⟨1, _⟩ => ((dat1 (rd (V27 m (outsA m))) c).arrAt_in 1 rfl _).trans ((A_eq1 (rd (V27 m (outsA m))) c 1).trans
      ((V28_of m (outs m) c _ (by decide)).trans (congrFun (V27_outs m c) _)).symm)
  | ⟨2, _⟩ => ((dat1 (rd (V27 m (outsA m))) c).arrAt_in 2 rfl _).trans ((A_eq1 (rd (V27 m (outsA m))) c 2).trans
      ((V28_of m (outs m) c _ (by decide)).trans (congrFun (V27_outs m c) _)).symm)
  | ⟨3, _⟩ => ((Pipeline.withArrays_arr spec1 launch1.win.arr_inj c _ _ 3).symm.trans (outs_28 m c main_v203).symm).trans
      (V28_out m (outs m) c).symm
theorem hrest1 (c : Dev nD) : ∀ b, b ∉ Finset.univ.image (Pipeline.arrRef spec1) → rd (V28 m (outs m)) c b = rd (V27 m (outsA m)) c b :=
  fun b hb => (V28_of m (outs m) c b fun h => hb (by
    rw [List.mem_singleton] at h; subst h; exact Finset.mem_image.mpr ⟨3, Finset.mem_univ _, rfl⟩)).trans (congrFun (V27_outs m c) _)

theorem hF2 (c : Dev nD) : ∀ w : Fin cfg2.W, (pdats m 2 c).arrAt w cfg2.N = rd (V30 m (outs m)) c (Pipeline.arrRef spec2 w)
  | ⟨0, _⟩ => ((dat2 (rd (V29 m (outsB m))) c).arrAt_in 0 rfl _).trans ((A_eq2 (rd (V29 m (outsB m))) c 0).trans
      ((V30_of m (outs m) c _ (by decide)).trans (congrFun (V29_outs m c) _)).symm)
  | ⟨1, _⟩ => ((dat2 (rd (V29 m (outsB m))) c).arrAt_in 1 rfl _).trans ((A_eq2 (rd (V29 m (outsB m))) c 1).trans
      ((V30_of m (outs m) c _ (by decide)).trans (congrFun (V29_outs m c) _)).symm)
  | ⟨2, _⟩ => ((dat2 (rd (V29 m (outsB m))) c).arrAt_in 2 rfl _).trans ((A_eq2 (rd (V29 m (outsB m))) c 2).trans
      ((V30_of m (outs m) c _ (by decide)).trans (congrFun (V29_outs m c) _)).symm)
  | ⟨3, _⟩ => ((Pipeline.withArrays_arr spec2 launch2.win.arr_inj c _ _ 3).symm.trans (outs_30 m c main_v205).symm).trans
      (V30_out m (outs m) c).symm
theorem hrest2 (c : Dev nD) : ∀ b, b ∉ Finset.univ.image (Pipeline.arrRef spec2) → rd (V30 m (outs m)) c b = rd (V29 m (outsB m)) c b :=
  fun b hb => (V30_of m (outs m) c b fun h => hb (by
    rw [List.mem_singleton] at h; subst h; exact Finset.mem_image.mpr ⟨3, Finset.mem_univ _, rfl⟩)).trans (congrFun (V29_outs m c) _)

/-! ## The regions as segments -/

set_option backward.isDefEq.respectTransparency.types false in
/-- Region 0 as a segment of the run: entered with every unscoped buffer at the contents before it, left with them
    at the contents after it; the region's arrays are split out of the unscoped buffers at entry and put back, at what
    the pipeline leaves in them, at exit; the generator register rides along; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (V13 m)) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec0 c (rd (V13 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (V13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V13 m) c) (rd (V14 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at the contents before it, left with them
    at the contents after it; the region's arrays are split out of the unscoped buffers at entry and put back, at what
    the pipeline leaves in them, at exit; the generator register rides along; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (V27 m (outsA m))) c).loose
  hwaits := Pipeline.hwaits_of_owed_zero _ _ _ _ L lv 1 fun _ _ => rfl
  pre c := iprop(StableHlo.held (c : Thread nD τ) (Pipeline.ucRefs τ sig) (V27 m (outsA m) c) ∗ R c)
  post c := iprop(StableHlo.held (c : Thread nD τ) (Pipeline.ucRefs τ sig) (V28 m (outs m) c) ∗ R c)
  X c := iprop(∃ r, prngReg c r)
  Y c := iprop(∃ r, prngReg c r)
  Z c := Pipeline.unscopedRest (Ix := Unit) (Name := ℕ) (U := UR sig nD τ) (Lvl := ℕ) spec1 c (rd (V27 m (outsA m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (V27 m (outsA m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V27 m (outsA m)) c) (rd (V28 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at the contents before it, left with them
    at the contents after it; the region's arrays are split out of the unscoped buffers at entry and put back, at what
    the pipeline leaves in them, at exit; the generator register rides along; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (V29 m (outsB m))) c).loose
  hwaits := Pipeline.hwaits_of_owed_zero _ _ _ _ L lv 2 fun _ _ => rfl
  pre c := iprop(StableHlo.held (c : Thread nD τ) (Pipeline.ucRefs τ sig) (V29 m (outsB m) c) ∗ R c)
  post c := iprop(StableHlo.held (c : Thread nD τ) (Pipeline.ucRefs τ sig) (V30 m (outs m) c) ∗ R c)
  X c := iprop(∃ r, prngReg c r)
  Y c := iprop(∃ r, prngReg c r)
  Z c := Pipeline.unscopedRest (Ix := Unit) (Name := ℕ) (U := UR sig nD τ) (Lvl := ℕ) spec2 c (rd (V29 m (outsB m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (V29 m (outsB m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V29 m (outsB m)) c) (rd (V30 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Beside the buffers, every item is entered and left with the same rest. -/
def E : Fin 4 → Dev nD → sProp 𝕄 := fun _ c => R c

/-- The launch element of the pipelines' staging cells. -/
abbrev u₀ : UR sig nD τ := initOf (Pipeline.cells cfgs cellOf_inj) (Pipeline.launchToks cfgs cellOf_inj)

theorem hu₀ : (ownU (u₀) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core makes the first rest on every core. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (E (F := F) 0) : sProp 𝕄) := by
  refine Pipeline.initEach L lv fun c => ?_
  unfold E
  iintro ⟨⟨-, HO, -, Hp, -⟩, -⟩
  imodintro
  isplitl [Hp]; · iexists _; iexact Hp
  iexists ∅; iexact HO

theorem hE3 (c : Dev nD) : E (F := F) 3 c ⊢ (iprop(∃ W, owes (c : Thread nD τ) (0 : CellTallies nD τ sig Unit) W) : sProp 𝕄) := by
  unfold E
  iintro ⟨-, HO⟩; iexact HO

theorem hpre0 (c : Dev nD) : iprop(StableHlo.held (c : Thread nD τ) (Pipeline.ucRefs τ sig) (V13 m c) ∗ E 0 c) ⊢ (reg0 m).pre c := .rfl
theorem hpost0 (c : Dev nD) : (reg0 m).post c ⊢ iprop(StableHlo.held (c : Thread nD τ) (Pipeline.ucRefs τ sig) (V14 m (outs m) c) ∗ E 1 c) := .rfl
theorem hpre1 (c : Dev nD) : iprop(StableHlo.held (c : Thread nD τ) (Pipeline.ucRefs τ sig) (V27 m (outs m) c) ∗ E 1 c) ⊢ (reg1 m).pre c := by
  rw [V27_outs m c]; exact .rfl
theorem hpost1 (c : Dev nD) : (reg1 m).post c ⊢ iprop(StableHlo.held (c : Thread nD τ) (Pipeline.ucRefs τ sig) (V28 m (outs m) c) ∗ E 2 c) := .rfl
theorem hpre2 (c : Dev nD) : iprop(StableHlo.held (c : Thread nD τ) (Pipeline.ucRefs τ sig) (V29 m (outs m) c) ∗ E 2 c) ⊢ (reg2 m).pre c := by
  rw [V29_outs m c]; exact .rfl
theorem hpost2 (c : Dev nD) : (reg2 m).post c ⊢ iprop(StableHlo.held (c : Thread nD τ) (Pipeline.ucRefs τ sig) (V30 m (outs m) c) ∗ E 3 c) := .rfl

set_option backward.isDefEq.respectTransparency.types false in
/-- THE RUN. From any memory with zero counters every weakly fair execution of @main terminates, nothing faulting;
    at the end the result array holds what the last region's pipeline leaves in it and every argument array is as
    launched. -/
theorem run_val (ρ : Dev nD → PrngReg) : θ_run defs (onTc (τ := τ) (main (F := F))) ⟨m, fun _ => 0, ρ⟩ (fun r => ∀ c : Dev nD,
      r.2.mem ((c.tc : Thread nD τ).loc main_v205) = outs m 30 main_v205 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m))
    (fun c Q => by
      rewrite [main_chain c, Seg.run_eq_chain,
        show (segs m (outs m) 𝒱₀ L lv E () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V30 m (outs m) c))
    (hch := fun c => ⟨.rfl, .rfl, .rfl, .rfl, .rfl, .rfl, .rfl, .rfl, .rfl, .rfl, .rfl, .rfl, .rfl, hpre0 m c, hpost0 m c, .rfl, .rfl, .rfl, .rfl, .rfl, .rfl, .rfl, .rfl, .rfl, .rfl, .rfl, .rfl, hpre1 m c, hpost1 m c, hpre2 m c, (hpost2 m c).trans (sep_mono .rfl (hE3 c))⟩)
    (hinit := ?_) (QY := fun c s => s.mem ((c.tc : Thread nD τ).loc main_v205) = outs m 30 main_v205 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V30 m (outs m) c) s') $$ [Hh HSI]
    · isplitl [Hh] <;> iassumption
    icases Hr with ⟨%h, HSI⟩
    imodintro
    isplitr
    · ipureintro
      exact ⟨(h (Proc.devRef .tc main_v205) (Finset.mem_filter.mpr ⟨StableHlo.devRef_mem_tcRefs main_v205, by decide⟩)).trans (V30_out m (outs m) c),
        (h (Proc.devRef .tc main_arg0) (Finset.mem_filter.mpr ⟨StableHlo.devRef_mem_tcRefs main_arg0, by decide⟩)).trans (V30_main_arg0 m (outs m) c),
        (h (Proc.devRef .tc main_arg1) (Finset.mem_filter.mpr ⟨StableHlo.devRef_mem_tcRefs main_arg1, by decide⟩)).trans (V30_main_arg1 m (outs m) c),
        (h (Proc.devRef .tc main_arg2) (Finset.mem_filter.mpr ⟨StableHlo.devRef_mem_tcRefs main_arg2, by decide⟩)).trans (V30_main_arg2 m (outs m) c),
        (h (Proc.devRef .tc main_arg3) (Finset.mem_filter.mpr ⟨StableHlo.devRef_mem_tcRefs main_arg3, by decide⟩)).trans (V30_main_arg3 m (outs m) c),
        (h (Proc.devRef .tc main_arg4) (Finset.mem_filter.mpr ⟨StableHlo.devRef_mem_tcRefs main_arg4, by decide⟩)).trans (V30_main_arg4 m (outs m) c),
        (h (Proc.devRef .tc main_arg5) (Finset.mem_filter.mpr ⟨StableHlo.devRef_mem_tcRefs main_arg5, by decide⟩)).trans (V30_main_arg5 m (outs m) c)⟩
    · iexact HSI

/-- THE FRAME: the run with the result forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_val m ρ)

end Cert.KernelIdeal.Frm

end
-- ==== Proof.KIStages.lean ====
/-
  What the kernel program's host operations hand to its three regions, as functions of the arrays they are made from.

  The three aggregates of a layer are stacked into one [3, 50000, 256] array; the layer's weights are the layer's
  [3, 256, 256] slab of the [2, 3, 256, 256] weight array and its biases the [3, 256] slab of the [2, 3, 256] bias
  array; the output bias becomes a one-row [1, 349] matrix.
-/
import proofs.«159030_j5789615915676_1_alg».proof.Proof.Gen.KernelIdeal

noncomputable section

namespace Cert.KernelIdeal.Stg

open Cert.KernelIdeal Cert.KernelIdeal.Gen Idealize.ShloMosaic Idealize.ShloMosaic.TcCoe Idealize.SL.Sem

variable {F : FTy → Type} [FloatOps F]

/-- Three [50000, 256] arrays stacked along a new leading axis. -/
def stackK (a0 a1 a2 : FVec F S50000x256 .f32) : FVec F S3x50000x256 .f32 :=
  concatenate S3x50000x256 0 [⟨S1x50000x256, broadcastInDim S1x50000x256 ![1, 2] bcast_S50000x256_S1x50000x256_1_2 a0⟩,
    ⟨S1x50000x256, broadcastInDim S1x50000x256 ![1, 2] bcast_S50000x256_S1x50000x256_1_2 a1⟩,
    ⟨S1x50000x256, broadcastInDim S1x50000x256 ![1, 2] bcast_S50000x256_S1x50000x256_1_2 a2⟩]
    concatenates_S1x50000x256_S1x50000x256_S1x50000x256_S3x50000x256_d0

/-- Layer 0's three weight matrices. -/
def wsK0 (x1 : FVec F S2x3x256x256 .f32) : FVec F S3x256x256 .f32 :=
  shapeCast _ (extractStridedSlice S1x3x256x256 ![0, 0, 0, 0] x1 slices_S2x3x256x256_S1x3x256x256_0_0_0_0) shapeCasts_S1x3x256x256_S3x256x256
/-- Layer 1's three weight matrices. -/
def wsK1 (x1 : FVec F S2x3x256x256 .f32) : FVec F S3x256x256 .f32 :=
  shapeCast _ (extractStridedSlice S1x3x256x256 ![1, 0, 0, 0] x1 slices_S2x3x256x256_S1x3x256x256_1_0_0_0) shapeCasts_S1x3x256x256_S3x256x256
/-- Layer 0's three bias rows. -/
def bsK0 (x2 : FVec F S2x3x256 .f32) : FVec F S3x256 .f32 :=
  shapeCast _ (extractStridedSlice S1x3x256 ![0, 0, 0] x2 slices_S2x3x256_S1x3x256_0_0_0) shapeCasts_S1x3x256_S3x256
/-- Layer 1's three bias rows. -/
def bsK1 (x2 : FVec F S2x3x256 .f32) : FVec F S3x256 .f32 :=
  shapeCast _ (extractStridedSlice S1x3x256 ![1, 0, 0] x2 slices_S2x3x256_S1x3x256_1_0_0) shapeCasts_S1x3x256_S3x256
/-- The output bias as a one-row matrix. -/
def boutK (x4 : FVec F S349 .f32) : FVec F S1x349 .f32 :=
  shapeCast _ x4 shapeCasts_S349_S1x349

end Cert.KernelIdeal.Stg

end
-- ==== Proof.RefStages.lean ====
/-
  The reference's dense stages as functions of their inputs, at any float family.

  One relation's affine map of a layer is the [50000, 256] aggregate times that relation's [256, 256] weight matrix
  plus the relation's bias row on every row. A layer adds the three relations' maps to a zero array, in order, and
  divides by three; the first layer then takes the maximum with zero. The head is the hidden features times the
  [256, 349] output matrix plus the output bias on every row. Each definition is the reference's own sequence of
  host operations on the named inputs, so that the reference's result is these functions composed.
-/
import proofs.«159030_j5789615915676_1_alg».proof.Proof.Gen.ReferenceIdeal

noncomputable section

namespace Cert.ReferenceIdeal.Stg

open Cert.ReferenceIdeal Cert.ReferenceIdeal.Gen Idealize.ShloMosaic Idealize.ShloMosaic.TcCoe Idealize.SL.Sem Idealize.ShloMosaic.StableHlo

variable {F : FTy → Type} [FloatOps F]

/-- Relation 0 of layer 0: the aggregate times weight matrix (0, 0), plus bias row (0, 0) on every row. -/
def affine00 (a : FVec F S50000x256 .f32) (x1 : FVec F S2x3x256x256 .f32) (x2 : FVec F S2x3x256 .f32) : FVec F S50000x256 .f32 :=
  addf (Host.dotGeneral dot_S50000x256_S256x256_S50000x256_1_0_0_1_n_n none a
      (shapeCast _ (extractStridedSlice S1x1x256x256 ![0, 0, 0, 0] x1 slices_S2x3x256x256_S1x1x256x256_0_0_0_0) shapeCasts_S1x1x256x256_S256x256))
    (broadcastInDim S50000x256 ![0, 1] bcast_S1x256_S50000x256_0_1 (broadcastInDim S1x256 ![1] bcast_S256_S1x256_1
      (shapeCast _ (extractStridedSlice S1x1x256 ![0, 0, 0] x2 slices_S2x3x256_S1x1x256_0_0_0) shapeCasts_S1x1x256_S256)))

/-- Relation 1 of layer 0: the aggregate times weight matrix (0, 1), plus bias row (0, 1) on every row. -/
def affine01 (a : FVec F S50000x256 .f32) (x1 : FVec F S2x3x256x256 .f32) (x2 : FVec F S2x3x256 .f32) : FVec F S50000x256 .f32 :=
  addf (Host.dotGeneral dot_S50000x256_S256x256_S50000x256_1_0_0_1_n_n none a
      (shapeCast _ (extractStridedSlice S1x1x256x256 ![0, 1, 0, 0] x1 slices_S2x3x256x256_S1x1x256x256_0_1_0_0) shapeCasts_S1x1x256x256_S256x256))
    (broadcastInDim S50000x256 ![0, 1] bcast_S1x256_S50000x256_0_1 (broadcastInDim S1x256 ![1] bcast_S256_S1x256_1
      (shapeCast _ (extractStridedSlice S1x1x256 ![0, 1, 0] x2 slices_S2x3x256_S1x1x256_0_1_0) shapeCasts_S1x1x256_S256)))

/-- Relation 2 of layer 0: the aggregate times weight matrix (0, 2), plus bias row (0, 2) on every row. -/
def affine02 (a : FVec F S50000x256 .f32) (x1 : FVec F S2x3x256x256 .f32) (x2 : FVec F S2x3x256 .f32) : FVec F S50000x256 .f32 :=
  addf (Host.dotGeneral dot_S50000x256_S256x256_S50000x256_1_0_0_1_n_n none a
      (shapeCast _ (extractStridedSlice S1x1x256x256 ![0, 2, 0, 0] x1 slices_S2x3x256x256_S1x1x256x256_0_2_0_0) shapeCasts_S1x1x256x256_S256x256))
    (broadcastInDim S50000x256 ![0, 1] bcast_S1x256_S50000x256_0_1 (broadcastInDim S1x256 ![1] bcast_S256_S1x256_1
      (shapeCast _ (extractStridedSlice S1x1x256 ![0, 2, 0] x2 slices_S2x3x256_S1x1x256_0_2_0) shapeCasts_S1x1x256_S256)))

/-- Relation 0 of layer 1: the aggregate times weight matrix (1, 0), plus bias row (1, 0) on every row. -/
def affine10 (a : FVec F S50000x256 .f32) (x1 : FVec F S2x3x256x256 .f32) (x2 : FVec F S2x3x256 .f32) : FVec F S50000x256 .f32 :=
  addf (Host.dotGeneral dot_S50000x256_S256x256_S50000x256_1_0_0_1_n_n none a
      (shapeCast _ (extractStridedSlice S1x1x256x256 ![1, 0, 0, 0] x1 slices_S2x3x256x256_S1x1x256x256_1_0_0_0) shapeCasts_S1x1x256x256_S256x256))
    (broadcastInDim S50000x256 ![0, 1] bcast_S1x256_S50000x256_0_1 (broadcastInDim S1x256 ![1] bcast_S256_S1x256_1
      (shapeCast _ (extractStridedSlice S1x1x256 ![1, 0, 0] x2 slices_S2x3x256_S1x1x256_1_0_0) shapeCasts_S1x1x256_S256)))

/-- Relation 1 of layer 1: the aggregate times weight matrix (1, 1), plus bias row (1, 1) on every row. -/
def affine11 (a : FVec F S50000x256 .f32) (x1 : FVec F S2x3x256x256 .f32) (x2 : FVec F S2x3x256 .f32) : FVec F S50000x256 .f32 :=
  addf (Host.dotGeneral dot_S50000x256_S256x256_S50000x256_1_0_0_1_n_n none a
      (shapeCast _ (extractStridedSlice S1x1x256x256 ![1, 1, 0, 0] x1 slices_S2x3x256x256_S1x1x256x256_1_1_0_0) shapeCasts_S1x1x256x256_S256x256))
    (broadcastInDim S50000x256 ![0, 1] bcast_S1x256_S50000x256_0_1 (broadcastInDim S1x256 ![1] bcast_S256_S1x256_1
      (shapeCast _ (extractStridedSlice S1x1x256 ![1, 1, 0] x2 slices_S2x3x256_S1x1x256_1_1_0) shapeCasts_S1x1x256_S256)))

/-- Relation 2 of layer 1: the aggregate times weight matrix (1, 2), plus bias row (1, 2) on every row. -/
def affine12 (a : FVec F S50000x256 .f32) (x1 : FVec F S2x3x256x256 .f32) (x2 : FVec F S2x3x256 .f32) : FVec F S50000x256 .f32 :=
  addf (Host.dotGeneral dot_S50000x256_S256x256_S50000x256_1_0_0_1_n_n none a
      (shapeCast _ (extractStridedSlice S1x1x256x256 ![1, 2, 0, 0] x1 slices_S2x3x256x256_S1x1x256x256_1_2_0_0) shapeCasts_S1x1x256x256_S256x256))
    (broadcastInDim S50000x256 ![0, 1] bcast_S1x256_S50000x256_0_1 (broadcastInDim S1x256 ![1] bcast_S256_S1x256_1
      (shapeCast _ (extractStridedSlice S1x1x256 ![1, 2, 0] x2 slices_S2x3x256_S1x1x256_1_2_0) shapeCasts_S1x1x256_S256)))

/-- The first layer on its three aggregates: the mean of the three affine maps, then the maximum with zero. -/
def layerR0 (a0 a1 a2 : FVec F S50000x256 .f32) (x1 : FVec F S2x3x256x256 .f32) (x2 : FVec F S2x3x256 .f32) : FVec F S50000x256 .f32 :=
  maximumf (Host.divf (addf (addf (addf (broadcastInDim S50000x256 ![] bcast_S_S50000x256 (constant S_ .f32 0x00000000#32))
      (affine00 a0 x1 x2)) (affine01 a1 x1 x2)) (affine02 a2 x1 x2))
    (broadcastInDim S50000x256 ![] bcast_S_S50000x256 (constant S_ .f32 0x40400000#32)))
    (broadcastInDim S50000x256 ![] bcast_S_S50000x256 (constant S_ .f32 0x00000000#32))

/-- The second layer on its three aggregates: the mean of the three affine maps. -/
def layerR1 (a0 a1 a2 : FVec F S50000x256 .f32) (x1 : FVec F S2x3x256x256 .f32) (x2 : FVec F S2x3x256 .f32) : FVec F S50000x256 .f32 :=
  Host.divf (addf (addf (addf (broadcastInDim S50000x256 ![] bcast_S_S50000x256 (constant S_ .f32 0x00000000#32))
      (affine10 a0 x1 x2)) (affine11 a1 x1 x2)) (affine12 a2 x1 x2))
    (broadcastInDim S50000x256 ![] bcast_S_S50000x256 (constant S_ .f32 0x40400000#32))

/-- The head: the hidden features times the output matrix, plus the output bias on every row. -/
def projR (h : FVec F S50000x256 .f32) (x3 : FVec F S256x349 .f32) (x4 : FVec F S349 .f32) : FVec F S50000x349 .f32 :=
  addf (Host.dotGeneral dot_S50000x256_S256x349_S50000x349_1_0_0_1_n_n none h x3)
    (broadcastInDim S50000x349 ![0, 1] bcast_S1x349_S50000x349_0_1 (broadcastInDim S1x349 ![1] bcast_S349_S1x349_1 x4))

end Cert.ReferenceIdeal.Stg

end
-- ==== Proof.KILayer0.lean ====
/-
  Layer 0's region: the array it leaves, as the reference's layer on the same aggregates.

  Row n, column j of the layer: for each of the three relations the row n of its aggregate against column j of its
  weight matrix, plus its bias entry at j; the three added onto zero, a third of the sum, the maximum with zero. The
  region computes this block by block of 2000 rows, adding products and biases one after the other; the reference
  adds each relation's product to its bias first and divides by three. On the extended reals the two are one function.
-/
import proofs.«159030_j5789615915676_1_alg».proof.Proof.KIBody0
import proofs.«159030_j5789615915676_1_alg».proof.Proof.KIStages
import proofs.«159030_j5789615915676_1_alg».proof.Proof.RefStages
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws
import Idealize.ShloMosaic.PureOps.IdealRules

noncomputable section

namespace Cert.KernelIdeal.Val.L0

open Cert.KernelIdeal Cert.KernelIdeal.Gen Cert.KernelIdeal.Frm
open Idealize.ShloMosaic Idealize.ShloMosaic.TcCoe Idealize.SL.Sem
open Idealize.ShloMosaic.ValueIdx

/-! ## Constants -/

theorem dot_plain : dot_S2000x256_S256x256_S2000x256_1_0_0_1_n_n = DotDims.plain 2000 256 256 := rfl

/-- The named reciprocal is the rational one third. -/
theorem inv3 : Named.named (F := Ideal) Cert.KernelIdeal.κ "inv_3" (φ := .f32) 0x3EAAAAAB#32 = ((1 / 3 : ℝ) : EReal) :=
  IdealRules.named_const.ideal_named_scalar _ _ _ _ rfl

/-- The reference's divisor is the real three. -/
theorem three : Ideal.ofBits .f32 0x40400000#32 = ((3 : ℝ) : EReal) := by
  simp [Ideal.ofBits, Ideal.ieee, -EReal.coe_mul]; norm_num

/-! ## The stacked inputs read at an index -/

/-- Slab 0 of the stack is the first aggregate. -/
theorem stackK_apply0 (a0 a1 a2 : FVec Ideal S50000x256 .f32) (I : S3x50000x256.Idx) (n : Fin 50000) (k : Fin 256)
    (h0 : (I 0).val = 0) (h1 : (I 1).val = n.val) (h2 : (I 2).val = k.val) :
    Stg.stackK a0 a1 a2 I = a0 (ix2 n k) := by
  unfold Stg.stackK
  refine (concatenate_apply_piece (t := S3x50000x256) (0 : Fin 3) _ _ I 0 (by simp) S1x50000x256 _ rfl rfl 0 (by simp)
    (ix3 (0 : Fin 1) n k) ?_ ?_).trans ?_
  · intro b hb
    match b with
    | ⟨0, _⟩ => exact absurd rfl hb
    | ⟨1, _⟩ => exact h1.symm
    | ⟨2, _⟩ => exact h2.symm
  · show 0 + 0 = (I 0).val; omega
  · exact broadcastInDim_apply ![1, 2] bcast_S50000x256_S1x50000x256_1_2 a0 (ix3 (0 : Fin 1) n k) (ix2 n k) (fun a => match a with
      | ⟨0, _⟩ => by show n.val = if (50000 : Nat) = 1 then 0 else n.val; rw [if_neg (by decide)]
      | ⟨1, _⟩ => by show k.val = if (256 : Nat) = 1 then 0 else k.val; rw [if_neg (by decide)])

/-- Slab 1 of the stack is the second aggregate. -/
theorem stackK_apply1 (a0 a1 a2 : FVec Ideal S50000x256 .f32) (I : S3x50000x256.Idx) (n : Fin 50000) (k : Fin 256)
    (h0 : (I 0).val = 1) (h1 : (I 1).val = n.val) (h2 : (I 2).val = k.val) :
    Stg.stackK a0 a1 a2 I = a1 (ix2 n k) := by
  unfold Stg.stackK
  refine (concatenate_apply_piece (t := S3x50000x256) (0 : Fin 3) _ _ I 1 (by simp) S1x50000x256 _ rfl rfl 1 (by simp)
    (ix3 (0 : Fin 1) n k) ?_ ?_).trans ?_
  · intro b hb
    match b with
    | ⟨0, _⟩ => exact absurd rfl hb
    | ⟨1, _⟩ => exact h1.symm
    | ⟨2, _⟩ => exact h2.symm
  · show 1 + 0 = (I 0).val; omega
  · exact broadcastInDim_apply ![1, 2] bcast_S50000x256_S1x50000x256_1_2 a1 (ix3 (0 : Fin 1) n k) (ix2 n k) (fun a => match a with
      | ⟨0, _⟩ => by show n.val = if (50000 : Nat) = 1 then 0 else n.val; rw [if_neg (by decide)]
      | ⟨1, _⟩ => by show k.val = if (256 : Nat) = 1 then 0 else k.val; rw [if_neg (by decide)])

/-- Slab 2 of the stack is the third aggregate. -/
theorem stackK_apply2 (a0 a1 a2 : FVec Ideal S50000x256 .f32) (I : S3x50000x256.Idx) (n : Fin 50000) (k : Fin 256)
    (h0 : (I 0).val = 2) (h1 : (I 1).val = n.val) (h2 : (I 2).val = k.val) :
    Stg.stackK a0 a1 a2 I = a2 (ix2 n k) := by
  unfold Stg.stackK
  refine (concatenate_apply_piece (t := S3x50000x256) (0 : Fin 3) _ _ I 2 (by simp) S1x50000x256 _ rfl rfl 2 (by simp)
    (ix3 (0 : Fin 1) n k) ?_ ?_).trans ?_
  · intro b hb
    match b with
    | ⟨0, _⟩ => exact absurd rfl hb
    | ⟨1, _⟩ => exact h1.symm
    | ⟨2, _⟩ => exact h2.symm
  · show 2 + 0 = (I 0).val; omega
  · exact broadcastInDim_apply ![1, 2] bcast_S50000x256_S1x50000x256_1_2 a2 (ix3 (0 : Fin 1) n k) (ix2 n k) (fun a => match a with
      | ⟨0, _⟩ => by show n.val = if (50000 : Nat) = 1 then 0 else n.val; rw [if_neg (by decide)]
      | ⟨1, _⟩ => by show k.val = if (256 : Nat) = 1 then 0 else k.val; rw [if_neg (by decide)])

/-- The layer's weight slab at (r, k, j) is the weight array at (0, r, k, j). -/
theorem wsK0_apply (x1 : FVec Ideal S2x3x256x256 .f32) (I : S3x256x256.Idx) (r : Fin 3) (k j : Fin 256)
    (h0 : (I 0).val = r.val) (h1 : (I 1).val = k.val) (h2 : (I 2).val = j.val) :
    Stg.wsK0 x1 I = x1 (ix4 (0 : Fin 2) r k j) := by
  obtain rfl : I = ix3 r k j := funext fun a => Fin.ext (match a with
    | ⟨0, _⟩ => h0
    | ⟨1, _⟩ => h1
    | ⟨2, _⟩ => h2)
  unfold Stg.wsK0
  refine (shapeCast_1abc_abc_apply _ shapeCasts_S1x3x256x256_S3x256x256 r k j).trans ?_
  exact extractStridedSlice_apply ![0, 0, 0, 0] x1 slices_S2x3x256x256_S1x3x256x256_0_0_0_0 (ix4 (0 : Fin 1) r k j) (ix4 (0 : Fin 2) r k j) (fun a => match a with
    | ⟨0, _⟩ => by show 0 = 0 + 0; omega
    | ⟨1, _⟩ => by show r.val = 0 + r.val; omega
    | ⟨2, _⟩ => by show k.val = 0 + k.val; omega
    | ⟨3, _⟩ => by show j.val = 0 + j.val; omega)

/-- The layer's bias slab at (r, j) is the bias array at (0, r, j). -/
theorem bsK0_apply (x2 : FVec Ideal S2x3x256 .f32) (I : S3x256.Idx) (r : Fin 3) (j : Fin 256)
    (h0 : (I 0).val = r.val) (h1 : (I 1).val = j.val) :
    Stg.bsK0 x2 I = x2 (ix3 (0 : Fin 2) r j) := by
  obtain rfl : I = ix2 r j := funext fun a => Fin.ext (match a with
    | ⟨0, _⟩ => h0
    | ⟨1, _⟩ => h1)
  unfold Stg.bsK0
  refine (shapeCast_apply _ shapeCasts_S1x3x256_S3x256 (ix2 r j) (ix3 (0 : Fin 1) r j) (by
    rw [Shape.rowMajor_val_three, Shape.rowMajor_val_two]
    show (0 * 3 + r.val) * 256 + j.val = r.val * 256 + j.val
    omega)).trans ?_
  exact extractStridedSlice_apply ![0, 0, 0] x2 slices_S2x3x256_S1x3x256_0_0_0 (ix3 (0 : Fin 1) r j) (ix3 (0 : Fin 2) r j) (fun a => match a with
    | ⟨0, _⟩ => by show 0 = 0 + 0; omega
    | ⟨1, _⟩ => by show r.val = 0 + r.val; omega
    | ⟨2, _⟩ => by show j.val = 0 + j.val; omega)

/-! ## The body's arithmetic read at an element -/

/-- One relation's product: the slab's row e against the matrix's column j. -/
theorem slab_prod (A : FVec Ideal S1x2000x256 .f32) (Wm : FVec Ideal S1x256x256 .f32) (e : Fin 2000) (j : Fin 256) :
    matmul (F := Ideal) dot_S2000x256_S256x256_S2000x256_1_0_0_1_n_n none
      (truncf (F := Ideal) .bf16 (shapeCast S2000x256 A shapeCasts_S1x2000x256_S2000x256) bitsLt_bf16_f32)
      (truncf (F := Ideal) .bf16 (shapeCast S256x256 Wm shapeCasts_S1x256x256_S256x256) bitsLt_bf16_f32)
      (constant (F := Ideal) S2000x256 .f32 0x00000000#32) (ix2 e j)
    = ∑ k : Fin 256, A (ix3 (0 : Fin 1) e k) * Wm (ix3 (0 : Fin 1) k j) := by
  rw [dot_plain, matmul_zero_eq_dotGeneral]
  refine (StackMember.dotGeneral_plain_apply none _ _ e j).trans ?_
  refine Finset.sum_congr rfl fun k _ => ?_
  rw [truncf_apply, truncf_apply, shapeCast_1ab_ab_apply, shapeCast_1ab_ab_apply]

/-- One relation's bias row over the block's rows. -/
theorem bias_row (b : FVec Ideal S1x256 .f32) (e : Fin 2000) (j : Fin 256) :
    broadcastTo S2000x256 (shapeCast S1x256 (shapeCast S256 b shapeCasts_S1x256_S256) shapeCasts_S256_S1x256)
      broadcasts_S1x256_S2000x256 (ix2 e j) = b (ix2 (0 : Fin 1) j) := by
  rw [shapeCast_shapeCast]
  exact broadcastTo_1b_ab_apply b broadcasts_S1x256_S2000x256 e j

/-- Slab r of the aggregates' block, read through its rectangle. -/
theorem ld_a (X0 : Vec Ideal S3x2000x256 .f32) (e : Fin 2000) (k : Fin 256) :
    View.ld X0 ra0_0 (ix3 (0 : Fin 1) e k) = X0 (ix3 (0 : Fin 3) e k)
    ∧ View.ld X0 ra0_1 (ix3 (0 : Fin 1) e k) = X0 (ix3 (1 : Fin 3) e k)
    ∧ View.ld X0 ra0_2 (ix3 (0 : Fin 1) e k) = X0 (ix3 (2 : Fin 3) e k) := by
  refine ⟨congrArg X0 (funext fun a => Fin.ext ?_), congrArg X0 (funext fun a => Fin.ext ?_), congrArg X0 (funext fun a => Fin.ext ?_)⟩ <;>
  · match a with
    | ⟨0, _⟩ => rfl
    | ⟨1, _⟩ => show 0 + 1 * e.val = e.val; omega
    | ⟨2, _⟩ => show 0 + 1 * k.val = k.val; omega

/-- Matrix r of the weights' block, read through its rectangle. -/
theorem ld_w (X1 : Vec Ideal S3x256x256 .f32) (k j : Fin 256) :
    View.ld X1 rw0_0 (ix3 (0 : Fin 1) k j) = X1 (ix3 (0 : Fin 3) k j)
    ∧ View.ld X1 rw0_1 (ix3 (0 : Fin 1) k j) = X1 (ix3 (1 : Fin 3) k j)
    ∧ View.ld X1 rw0_2 (ix3 (0 : Fin 1) k j) = X1 (ix3 (2 : Fin 3) k j) := by
  refine ⟨congrArg X1 (funext fun a => Fin.ext ?_), congrArg X1 (funext fun a => Fin.ext ?_), congrArg X1 (funext fun a => Fin.ext ?_)⟩ <;>
  · match a with
    | ⟨0, _⟩ => rfl
    | ⟨1, _⟩ => show 0 + 1 * k.val = k.val; omega
    | ⟨2, _⟩ => show 0 + 1 * j.val = j.val; omega

/-- Row r of the biases' block, read through its rectangle. -/
theorem ld_b (X2 : Vec Ideal S3x256 .f32) (j : Fin 256) :
    View.ld X2 rb0_0 (ix2 (0 : Fin 1) j) = X2 (ix2 (0 : Fin 3) j)
    ∧ View.ld X2 rb0_1 (ix2 (0 : Fin 1) j) = X2 (ix2 (1 : Fin 3) j)
    ∧ View.ld X2 rb0_2 (ix2 (0 : Fin 1) j) = X2 (ix2 (2 : Fin 3) j) := by
  refine ⟨congrArg X2 (funext fun a => Fin.ext ?_), congrArg X2 (funext fun a => Fin.ext ?_), congrArg X2 (funext fun a => Fin.ext ?_)⟩ <;>
  · match a with
    | ⟨0, _⟩ => rfl
    | ⟨1, _⟩ => show 0 + 1 * j.val = j.val; omega

/-- The layer's arithmetic on one row of three aggregates: the three products and bias entries added in the body's
    order onto zero, a third of the sum, and the maximum with zero. -/
def rowK (z : EReal) (p0 b0 p1 b1 p2 b2 : EReal) : EReal :=
  max (((((((z + p0) + b0) + p1) + b1) + p2) + b2) * ((1 / 3 : ℝ) : EReal)) z

/-- The block the body stores, at row e and column j. -/
theorem pay_apply (X0 : Vec Ideal S3x2000x256 .f32) (X1 : Vec Ideal S3x256x256 .f32) (X2 : Vec Ideal S3x256 .f32)
    (e : Fin 2000) (j : Fin 256) :
    k0_pay1 (k0_pay2 (View.ld X0 ra0_0) (View.ld X1 rw0_0) (View.ld X2 rb0_0) (View.ld X0 ra0_1) (View.ld X1 rw0_1) (View.ld X2 rb0_1))
      (k0_pay3 (View.ld X0 ra0_2)) (k0_pay4 (View.ld X1 rw0_2)) (constant S2000x256 .f32 0x00000000#32) (View.ld X2 rb0_2) (ix2 e j)
    = rowK (Ideal.ofBits .f32 0x00000000#32)
        (∑ k : Fin 256, X0 (ix3 (0 : Fin 3) e k) * X1 (ix3 (0 : Fin 3) k j)) (X2 (ix2 (0 : Fin 3) j))
        (∑ k : Fin 256, X0 (ix3 (1 : Fin 3) e k) * X1 (ix3 (1 : Fin 3) k j)) (X2 (ix2 (1 : Fin 3) j))
        (∑ k : Fin 256, X0 (ix3 (2 : Fin 3) e k) * X1 (ix3 (2 : Fin 3) k j)) (X2 (ix2 (2 : Fin 3) j)) := by
  unfold k0_pay1 k0_pay2 k0_pay3 k0_pay4 rowK
  show max (((((((Ideal.ofBits .f32 0x00000000#32
      + matmul (F := Ideal) _ none (truncf (F := Ideal) .bf16 (shapeCast S2000x256 (View.ld X0 ra0_0) _) _) (truncf (F := Ideal) .bf16 (shapeCast S256x256 (View.ld X1 rw0_0) _) _) _ (ix2 e j))
      + broadcastTo _ _ _ (ix2 e j))
      + matmul (F := Ideal) _ none (truncf (F := Ideal) .bf16 (shapeCast S2000x256 (View.ld X0 ra0_1) _) _) (truncf (F := Ideal) .bf16 (shapeCast S256x256 (View.ld X1 rw0_1) _) _) _ (ix2 e j))
      + broadcastTo _ _ _ (ix2 e j))
      + matmul (F := Ideal) _ none (truncf (F := Ideal) .bf16 (shapeCast S2000x256 (View.ld X0 ra0_2) _) _) (truncf (F := Ideal) .bf16 (shapeCast S256x256 (View.ld X1 rw0_2) _) _) _ (ix2 e j))
      + broadcastTo _ _ _ (ix2 e j))
      * Named.named (F := Ideal) Cert.KernelIdeal.κ "inv_3" (φ := .f32) 0x3EAAAAAB#32) (Ideal.ofBits .f32 0x00000000#32) = _
  rw [slab_prod, slab_prod, slab_prod, bias_row, bias_row, bias_row, inv3]
  simp only [(ld_a X0 e _).1, (ld_a X0 e _).2.1, (ld_a X0 e _).2.2, (ld_w X1 _ j).1, (ld_w X1 _ j).2.1, (ld_w X1 _ j).2.2,
    (ld_b X2 j).1, (ld_b X2 j).2.1, (ld_b X2 j).2.2]

/-! ## The layer as one function of the arrays -/

/-- The layer at row n and column j. -/
def G0at (a0 a1 a2 : FVec Ideal S50000x256 .f32) (x1 : FVec Ideal S2x3x256x256 .f32) (x2 : FVec Ideal S2x3x256 .f32)
    (n : Fin 50000) (j : Fin 256) : EReal :=
  rowK (Ideal.ofBits .f32 0x00000000#32)
    (∑ k : Fin 256, a0 (ix2 n k) * x1 (ix4 (0 : Fin 2) (0 : Fin 3) k j)) (x2 (ix3 (0 : Fin 2) (0 : Fin 3) j))
    (∑ k : Fin 256, a1 (ix2 n k) * x1 (ix4 (0 : Fin 2) (1 : Fin 3) k j)) (x2 (ix3 (0 : Fin 2) (1 : Fin 3) j))
    (∑ k : Fin 256, a2 (ix2 n k) * x1 (ix4 (0 : Fin 2) (2 : Fin 3) k j)) (x2 (ix3 (0 : Fin 2) (2 : Fin 3) j))

/-- The layer as an array. -/
def G0 (a0 a1 a2 : FVec Ideal S50000x256 .f32) (x1 : FVec Ideal S2x3x256x256 .f32) (x2 : FVec Ideal S2x3x256 .f32) :
    FVec Ideal S50000x256 .f32 :=
  fun i => G0at a0 a1 a2 x1 x2 ⟨(i 0).val, (i 0).isLt⟩ ⟨(i 1).val, (i 1).isLt⟩

theorem G0_apply (a0 a1 a2 : FVec Ideal S50000x256 .f32) (x1 : FVec Ideal S2x3x256x256 .f32) (x2 : FVec Ideal S2x3x256 .f32)
    (i : S50000x256.Idx) (n : Fin 50000) (j : Fin 256) (h0 : (i 0).val = n.val) (h1 : (i 1).val = j.val) :
    G0 a0 a1 a2 x1 x2 i = G0at a0 a1 a2 x1 x2 n j := by
  obtain rfl : i = ix2 n j := funext fun a => Fin.ext (match a with
    | ⟨0, _⟩ => h0
    | ⟨1, _⟩ => h1)
  rfl

/-- The stored block at an element is the layer at the array's element it lies over, when the three input blocks read
    the arrays' rows and slabs there. -/
theorem point_eq (X0 : Vec Ideal S3x2000x256 .f32) (X1 : Vec Ideal S3x256x256 .f32) (X2 : Vec Ideal S3x256 .f32)
    (a0 a1 a2 : FVec Ideal S50000x256 .f32) (x1 : FVec Ideal S2x3x256x256 .f32) (x2 : FVec Ideal S2x3x256 .f32)
    (y : S2000x256.Idx) (i : S50000x256.Idx) (e : Fin 2000) (j : Fin 256) (n : Fin 50000)
    (hy0 : (y 0).val = e.val) (hy1 : (y 1).val = j.val) (hi0 : (i 0).val = n.val) (hi1 : (i 1).val = j.val)
    (hA0 : ∀ k : Fin 256, X0 (ix3 (0 : Fin 3) e k) = a0 (ix2 n k))
    (hA1 : ∀ k : Fin 256, X0 (ix3 (1 : Fin 3) e k) = a1 (ix2 n k))
    (hA2 : ∀ k : Fin 256, X0 (ix3 (2 : Fin 3) e k) = a2 (ix2 n k))
    (hW : ∀ (r : Fin 3) (k q : Fin 256), X1 (ix3 r k q) = x1 (ix4 (0 : Fin 2) r k q))
    (hB : ∀ (r : Fin 3) (q : Fin 256), X2 (ix2 r q) = x2 (ix3 (0 : Fin 2) r q)) :
    k0_pay1 (k0_pay2 (View.ld X0 ra0_0) (View.ld X1 rw0_0) (View.ld X2 rb0_0) (View.ld X0 ra0_1) (View.ld X1 rw0_1) (View.ld X2 rb0_1))
      (k0_pay3 (View.ld X0 ra0_2)) (k0_pay4 (View.ld X1 rw0_2)) (constant S2000x256 .f32 0x00000000#32) (View.ld X2 rb0_2) y
    = G0 a0 a1 a2 x1 x2 i := by
  obtain rfl : y = ix2 e j := funext fun a => Fin.ext (match a with
    | ⟨0, _⟩ => hy0
    | ⟨1, _⟩ => hy1)
  rw [pay_apply, G0_apply a0 a1 a2 x1 x2 i n j hi0 hi1]
  unfold G0at
  simp only [hA0, hA1, hA2, hW, hB]

/-! ## From the blocks to the array -/

theorem hz2 : (![0, 0] : Fin 2 → Nat) = fun _ => 0 := funext fun a => by fin_cases a <;> rfl

/-- The blocks' positions over the grid: the aggregates' block moves down the rows with the result's, the weights' and
    biases' blocks stay. -/
theorem idx_facts0 : ∀ t : Fin cfg0.N,
    win0_0.index t (0 : Fin 3) = 0 ∧ win0_0.index t (1 : Fin 3) = win0_3.index t (0 : Fin 2) ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer of the arrays. -/
theorem flushed0_eq (V : (c : Dev nD) → (b : Ref sig .tc) → Buf (Elt Ideal) ((c : Thread nD τ).loc b)) (c : Dev nD)
    (a0 a1 a2 : FVec Ideal S50000x256 .f32) (x1 : FVec Ideal S2x3x256x256 .f32) (x2 : FVec Ideal S2x3x256 .f32)
    (hA : V c (Pipeline.arrRef spec0 0) = Stg.stackK a0 a1 a2)
    (hW : V c (Pipeline.arrRef spec0 1) = Stg.wsK0 x1)
    (hb : V c (Pipeline.arrRef spec0 2) = Stg.bsK0 x2) (t : Fin cfg0.N) :
    (dat0 (F := Ideal) V c).flushed 3 t = ((cfg0.win 3).blk t).view.read (Elt Ideal) (G0 a0 a1 a2 x1 x2) := by
  show (cfg0.win 3).cut (grid0.coords t) ((dat0 (F := Ideal) V c).after 3 t) = _
  rw [after0_3]
  unfold out0_3
  rw [View.canon_unit_zero hz2]
  obtain ⟨f00, f01, f02, f10, f11, f12, f20, f21, f30, f31⟩ := idx_facts0 t
  have hN : cfg0.N = 25 := N_0
  have ht : t.val < 25 := hN ▸ t.isLt
  funext y
  have hy0 : (y 0).val < 2000 := (y 0).isLt
  have hy1 : (y 1).val < 256 := (y 1).isLt
  refine point_eq (iblk0 V c 0 t) (iblk0 V c 1 t) (iblk0 V c 2 t) a0 a1 a2 x1 x2 y (((cfg0.win 3).blk t).view.emb y)
    ⟨(y 0).val, hy0⟩ ⟨(y 1).val, hy1⟩ ⟨win0_3.index t (0 : Fin 2) * 2000 + (y 0).val, by omega⟩ rfl rfl ?_ ?_ ?_ ?_ ?_ ?_ ?_
  · show win0_3.index t (0 : Fin 2) * 2000 + 1 * (y 0).val = win0_3.index t (0 : Fin 2) * 2000 + (y 0).val; omega
  · show win0_3.index t (1 : Fin 2) * 256 + 1 * (y 1).val = (y 1).val; omega
  · intro k
    refine (congrFun hA (((cfg0.win 0).blk t).view.emb (ix3 (0 : Fin 3) (⟨(y 0).val, hy0⟩ : Fin 2000) k))).trans ?_
    refine stackK_apply0 a0 a1 a2 _ _ k ?_ ?_ ?_
    · show win0_0.index t (0 : Fin 3) * 3 + 1 * 0 = 0; omega
    · show win0_0.index t (1 : Fin 3) * 2000 + 1 * (y 0).val = win0_3.index t (0 : Fin 2) * 2000 + (y 0).val; omega
    · show win0_0.index t (2 : Fin 3) * 256 + 1 * k.val = k.val; omega
  · intro k
    refine (congrFun hA (((cfg0.win 0).blk t).view.emb (ix3 (1 : Fin 3) (⟨(y 0).val, hy0⟩ : Fin 2000) k))).trans ?_
    refine stackK_apply1 a0 a1 a2 _ _ k ?_ ?_ ?_
    · show win0_0.index t (0 : Fin 3) * 3 + 1 * 1 = 1; omega
    · show win0_0.index t (1 : Fin 3) * 2000 + 1 * (y 0).val = win0_3.index t (0 : Fin 2) * 2000 + (y 0).val; omega
    · show win0_0.index t (2 : Fin 3) * 256 + 1 * k.val = k.val; omega
  · intro k
    refine (congrFun hA (((cfg0.win 0).blk t).view.emb (ix3 (2 : Fin 3) (⟨(y 0).val, hy0⟩ : Fin 2000) k))).trans ?_
    refine stackK_apply2 a0 a1 a2 _ _ k ?_ ?_ ?_
    · show win0_0.index t (0 : Fin 3) * 3 + 1 * 2 = 2; omega
    · show win0_0.index t (1 : Fin 3) * 2000 + 1 * (y 0).val = win0_3.index t (0 : Fin 2) * 2000 + (y 0).val; omega
    · show win0_0.index t (2 : Fin 3) * 256 + 1 * k.val = k.val; omega
  · intro r k q
    refine (congrFun hW (((cfg0.win 1).blk t).view.emb (ix3 r k q))).trans ?_
    refine wsK0_apply x1 _ r k q ?_ ?_ ?_
    · show win0_1.index t (0 : Fin 3) * 3 + 1 * r.val = r.val; omega
    · show win0_1.index t (1 : Fin 3) * 256 + 1 * k.val = k.val; omega
    · show win0_1.index t (2 : Fin 3) * 256 + 1 * q.val = q.val; omega
  · intro r q
    refine (congrFun hb (((cfg0.win 2).blk t).view.emb (ix2 r q))).trans ?_
    refine bsK0_apply x2 _ r q ?_ ?_
    · show win0_2.index t (0 : Fin 2) * 3 + 1 * r.val = r.val; omega
    · show win0_2.index t (1 : Fin 2) * 256 + 1 * q.val = q.val; omega

/-- An element of the array is in point t's block when its row and column are in the block's ranges. -/
theorem mem_blk0 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v101).slice (win0_3.rect t)).set ↔ _
  rw [View.set_slice_whole, Rect.mem_set_unit]
  exact Iff.rfl

/-- The array the region leaves is the layer of the arrays it found. -/
theorem final0 (V : (c : Dev nD) → (b : Ref sig .tc) → Buf (Elt Ideal) ((c : Thread nD τ).loc b)) (c : Dev nD)
    (a0 a1 a2 : FVec Ideal S50000x256 .f32) (x1 : FVec Ideal S2x3x256x256 .f32) (x2 : FVec Ideal S2x3x256 .f32)
    (hA : V c (Pipeline.arrRef spec0 0) = Stg.stackK a0 a1 a2)
    (hW : V c (Pipeline.arrRef spec0 1) = Stg.wsK0 x1)
    (hb : V c (Pipeline.arrRef spec0 2) = Stg.bsK0 x2) :
    (dat0 (F := Ideal) V c).arrAt 3 cfg0.N = G0 a0 a1 a2 x1 x2 :=
  (dat0 (F := Ideal) V c).arrAt_eq_of_cover 3 (G0 a0 a1 a2 x1 x2) (fun t _ => flushed0_eq V c a0 a1 a2 x1 x2 hA hW hb t) fun i => by
    have hN : cfg0.N = 25 := N_0
    have hi0 : (i 0).val < 50000 := (i 0).isLt
    have hi1 : (i 1).val < 256 := (i 1).isLt
    refine ⟨⟨(i 0).val / 2000, by rw [hN]; omega⟩, flush0_3 _, ?_⟩
    rw [mem_blk0]
    obtain ⟨-, -, -, -, -, -, -, -, f30, f31⟩ := idx_facts0 ⟨(i 0).val / 2000, by rw [hN]; omega⟩
    intro a
    match a with
    | ⟨0, _⟩ =>
      show win0_3.index _ (0 : Fin 2) * 2000 ≤ (i 0).val ∧ (i 0).val < win0_3.index _ (0 : Fin 2) * 2000 + 2000
      rw [f30]; show (i 0).val / 2000 * 2000 ≤ (i 0).val ∧ (i 0).val < (i 0).val / 2000 * 2000 + 2000; omega
    | ⟨1, _⟩ =>
      show win0_3.index _ (1 : Fin 2) * 256 ≤ (i 1).val ∧ (i 1).val < win0_3.index _ (1 : Fin 2) * 256 + 256
      rw [f31]; omega

end Cert.KernelIdeal.Val.L0

/-! ## The reference's layer read at an element -/

namespace Cert.KernelIdeal.Val.L0R

open Cert.ReferenceIdeal Cert.ReferenceIdeal.Gen
open Idealize.ShloMosaic Idealize.ShloMosaic.TcCoe Idealize.SL.Sem Idealize.ShloMosaic.StableHlo
open Idealize.ShloMosaic.ValueIdx

theorem dotR_plain : dot_S50000x256_S256x256_S50000x256_1_0_0_1_n_n = DotDims.plain 50000 256 256 := rfl

/-- A splat of a constant word over the array, at an element: the word's value. -/
theorem splat_apply (w : BitVec 32) (i : S50000x256.Idx) :
    broadcastInDim S50000x256 ![] bcast_S_S50000x256 (constant (F := Ideal) S_ .f32 w) i = Ideal.ofBits .f32 w :=
  (broadcastInDim_apply ![] bcast_S_S50000x256 _ i ix0 (fun a => a.elim0)).trans rfl

/-- One relation's affine map at row n and column j: the row against the matrix's column, plus the bias entry. -/
theorem affine_gen (a : FVec Ideal S50000x256 .f32) (Wm : FVec Ideal S256x256 .f32) (bv : FVec Ideal S256 .f32)
    (n : Fin 50000) (j : Fin 256) :
    addf (Host.dotGeneral (F := Ideal) dot_S50000x256_S256x256_S50000x256_1_0_0_1_n_n none a Wm)
      (broadcastInDim S50000x256 ![0, 1] bcast_S1x256_S50000x256_0_1 (broadcastInDim S1x256 ![1] bcast_S256_S1x256_1 bv)) (ix2 n j)
    = (∑ k : Fin 256, a (ix2 n k) * Wm (ix2 k j)) + bv (ix1 j) := by
  rw [addf_apply, dotR_plain, StackMember.dotGeneral_plain_apply]
  congr 1
  refine (broadcastInDim_apply ![0, 1] bcast_S1x256_S50000x256_0_1 _ (ix2 n j) (ix2 (0 : Fin 1) j) fun a => ?_).trans
    (broadcastInDim_apply ![1] bcast_S256_S1x256_1 bv (ix2 (0 : Fin 1) j) (ix1 j) fun a => ?_)
  · match a with
    | ⟨0, _⟩ => show 0 = if (1 : Nat) = 1 then 0 else n.val; rw [if_pos rfl]
    | ⟨1, _⟩ => show j.val = if (256 : Nat) = 1 then 0 else j.val; rw [if_neg (by decide)]
  · match a with
    | ⟨0, _⟩ => show j.val = if (256 : Nat) = 1 then 0 else j.val; rw [if_neg (by decide)]

/-- Weight matrix (0, 0) of the weight array, at row k and column j. -/
theorem wR_apply_0 (x1 : FVec Ideal S2x3x256x256 .f32) (k j : Fin 256) :
    shapeCast S256x256 (extractStridedSlice S1x1x256x256 ![0, 0, 0, 0] x1 slices_S2x3x256x256_S1x1x256x256_0_0_0_0) shapeCasts_S1x1x256x256_S256x256 (ix2 k j)
      = x1 (ix4 (0 : Fin 2) (0 : Fin 3) k j) :=
  (shapeCast_apply _ shapeCasts_S1x1x256x256_S256x256 (ix2 k j) (ix4 (0 : Fin 1) (0 : Fin 1) k j) (by
    rw [Shape.rowMajor_val_four, Shape.rowMajor_val_two]
    show ((0 * 1 + 0) * 256 + k.val) * 256 + j.val = k.val * 256 + j.val
    omega)).trans
  (extractStridedSlice_apply ![0, 0, 0, 0] x1 slices_S2x3x256x256_S1x1x256x256_0_0_0_0 (ix4 (0 : Fin 1) (0 : Fin 1) k j) (ix4 (0 : Fin 2) (0 : Fin 3) k j) (fun a => match a with
    | ⟨0, _⟩ => by show 0 = 0 + 0; omega
    | ⟨1, _⟩ => by show 0 = 0 + 0; omega
    | ⟨2, _⟩ => by show k.val = 0 + k.val; omega
    | ⟨3, _⟩ => by show j.val = 0 + j.val; omega))

/-- Bias row (0, 0) of the bias array, at column j. -/
theorem bR_apply_0 (x2 : FVec Ideal S2x3x256 .f32) (j : Fin 256) :
    shapeCast S256 (extractStridedSlice S1x1x256 ![0, 0, 0] x2 slices_S2x3x256_S1x1x256_0_0_0) shapeCasts_S1x1x256_S256 (ix1 j)
      = x2 (ix3 (0 : Fin 2) (0 : Fin 3) j) :=
  (shapeCast_apply _ shapeCasts_S1x1x256_S256 (ix1 j) (ix3 (0 : Fin 1) (0 : Fin 1) j) (by
    rw [Shape.rowMajor_val_three, Shape.rowMajor_val_one]
    show (0 * 1 + 0) * 256 + j.val = j.val
    omega)).trans
  (extractStridedSlice_apply ![0, 0, 0] x2 slices_S2x3x256_S1x1x256_0_0_0 (ix3 (0 : Fin 1) (0 : Fin 1) j) (ix3 (0 : Fin 2) (0 : Fin 3) j) (fun a => match a with
    | ⟨0, _⟩ => by show 0 = 0 + 0; omega
    | ⟨1, _⟩ => by show 0 = 0 + 0; omega
    | ⟨2, _⟩ => by show j.val = 0 + j.val; omega))

/-- Weight matrix (0, 1) of the weight array, at row k and column j. -/
theorem wR_apply_1 (x1 : FVec Ideal S2x3x256x256 .f32) (k j : Fin 256) :
    shapeCast S256x256 (extractStridedSlice S1x1x256x256 ![0, 1, 0, 0] x1 slices_S2x3x256x256_S1x1x256x256_0_1_0_0) shapeCasts_S1x1x256x256_S256x256 (ix2 k j)
      = x1 (ix4 (0 : Fin 2) (1 : Fin 3) k j) :=
  (shapeCast_apply _ shapeCasts_S1x1x256x256_S256x256 (ix2 k j) (ix4 (0 : Fin 1) (0 : Fin 1) k j) (by
    rw [Shape.rowMajor_val_four, Shape.rowMajor_val_two]
    show ((0 * 1 + 0) * 256 + k.val) * 256 + j.val = k.val * 256 + j.val
    omega)).trans
  (extractStridedSlice_apply ![0, 1, 0, 0] x1 slices_S2x3x256x256_S1x1x256x256_0_1_0_0 (ix4 (0 : Fin 1) (0 : Fin 1) k j) (ix4 (0 : Fin 2) (1 : Fin 3) k j) (fun a => match a with
    | ⟨0, _⟩ => by show 0 = 0 + 0; omega
    | ⟨1, _⟩ => by show 1 = 1 + 0; omega
    | ⟨2, _⟩ => by show k.val = 0 + k.val; omega
    | ⟨3, _⟩ => by show j.val = 0 + j.val; omega))

/-- Bias row (0, 1) of the bias array, at column j. -/
theorem bR_apply_1 (x2 : FVec Ideal S2x3x256 .f32) (j : Fin 256) :
    shapeCast S256 (extractStridedSlice S1x1x256 ![0, 1, 0] x2 slices_S2x3x256_S1x1x256_0_1_0) shapeCasts_S1x1x256_S256 (ix1 j)
      = x2 (ix3 (0 : Fin 2) (1 : Fin 3) j) :=
  (shapeCast_apply _ shapeCasts_S1x1x256_S256 (ix1 j) (ix3 (0 : Fin 1) (0 : Fin 1) j) (by
    rw [Shape.rowMajor_val_three, Shape.rowMajor_val_one]
    show (0 * 1 + 0) * 256 + j.val = j.val
    omega)).trans
  (extractStridedSlice_apply ![0, 1, 0] x2 slices_S2x3x256_S1x1x256_0_1_0 (ix3 (0 : Fin 1) (0 : Fin 1) j) (ix3 (0 : Fin 2) (1 : Fin 3) j) (fun a => match a with
    | ⟨0, _⟩ => by show 0 = 0 + 0; omega
    | ⟨1, _⟩ => by show 1 = 1 + 0; omega
    | ⟨2, _⟩ => by show j.val = 0 + j.val; omega))

/-- Weight matrix (0, 2) of the weight array, at row k and column j. -/
theorem wR_apply_2 (x1 : FVec Ideal S2x3x256x256 .f32) (k j : Fin 256) :
    shapeCast S256x256 (extractStridedSlice S1x1x256x256 ![0, 2, 0, 0] x1 slices_S2x3x256x256_S1x1x256x256_0_2_0_0) shapeCasts_S1x1x256x256_S256x256 (ix2 k j)
      = x1 (ix4 (0 : Fin 2) (2 : Fin 3) k j) :=
  (shapeCast_apply _ shapeCasts_S1x1x256x256_S256x256 (ix2 k j) (ix4 (0 : Fin 1) (0 : Fin 1) k j) (by
    rw [Shape.rowMajor_val_four, Shape.rowMajor_val_two]
    show ((0 * 1 + 0) * 256 + k.val) * 256 + j.val = k.val * 256 + j.val
    omega)).trans
  (extractStridedSlice_apply ![0, 2, 0, 0] x1 slices_S2x3x256x256_S1x1x256x256_0_2_0_0 (ix4 (0 : Fin 1) (0 : Fin 1) k j) (ix4 (0 : Fin 2) (2 : Fin 3) k j) (fun a => match a with
    | ⟨0, _⟩ => by show 0 = 0 + 0; omega
    | ⟨1, _⟩ => by show 2 = 2 + 0; omega
    | ⟨2, _⟩ => by show k.val = 0 + k.val; omega
    | ⟨3, _⟩ => by show j.val = 0 + j.val; omega))

/-- Bias row (0, 2) of the bias array, at column j. -/
theorem bR_apply_2 (x2 : FVec Ideal S2x3x256 .f32) (j : Fin 256) :
    shapeCast S256 (extractStridedSlice S1x1x256 ![0, 2, 0] x2 slices_S2x3x256_S1x1x256_0_2_0) shapeCasts_S1x1x256_S256 (ix1 j)
      = x2 (ix3 (0 : Fin 2) (2 : Fin 3) j) :=
  (shapeCast_apply _ shapeCasts_S1x1x256_S256 (ix1 j) (ix3 (0 : Fin 1) (0 : Fin 1) j) (by
    rw [Shape.rowMajor_val_three, Shape.rowMajor_val_one]
    show (0 * 1 + 0) * 256 + j.val = j.val
    omega)).trans
  (extractStridedSlice_apply ![0, 2, 0] x2 slices_S2x3x256_S1x1x256_0_2_0 (ix3 (0 : Fin 1) (0 : Fin 1) j) (ix3 (0 : Fin 2) (2 : Fin 3) j) (fun a => match a with
    | ⟨0, _⟩ => by show 0 = 0 + 0; omega
    | ⟨1, _⟩ => by show 2 = 2 + 0; omega
    | ⟨2, _⟩ => by show j.val = 0 + j.val; omega))

/-- The reference's layer is the layer function of the arrays. -/
theorem layerR0_eq (a0 a1 a2 : FVec Ideal S50000x256 .f32) (x1 : FVec Ideal S2x3x256x256 .f32) (x2 : FVec Ideal S2x3x256 .f32) :
    Stg.layerR0 (F := Ideal) a0 a1 a2 x1 x2 = Cert.KernelIdeal.Val.L0.G0 a0 a1 a2 x1 x2 := by
  funext i
  obtain ⟨n, j, rfl⟩ : ∃ (n : Fin 50000) (j : Fin 256), i = ix2 n j := ⟨i 0, i 1, eq_ix2 i⟩
  rw [Cert.KernelIdeal.Val.L0.G0_apply a0 a1 a2 x1 x2 (ix2 n j) n j rfl rfl]
  unfold Stg.layerR0 Stg.affine00 Stg.affine01 Stg.affine02 Cert.KernelIdeal.Val.L0.G0at Cert.KernelIdeal.Val.L0.rowK
  show max (Ideal.div (((broadcastInDim S50000x256 ![] bcast_S_S50000x256 (constant (F := Ideal) S_ .f32 0x00000000#32) (ix2 n j)
      + (addf (F := Ideal) _ _ : FVec Ideal S50000x256 .f32) (ix2 n j)) + (addf (F := Ideal) _ _ : FVec Ideal S50000x256 .f32) (ix2 n j))
      + (addf (F := Ideal) _ _ : FVec Ideal S50000x256 .f32) (ix2 n j))
      (broadcastInDim S50000x256 ![] bcast_S_S50000x256 (constant (F := Ideal) S_ .f32 0x40400000#32) (ix2 n j)))
      (broadcastInDim S50000x256 ![] bcast_S_S50000x256 (constant (F := Ideal) S_ .f32 0x00000000#32) (ix2 n j)) = _
  rw [affine_gen, affine_gen, affine_gen, splat_apply, splat_apply, Cert.KernelIdeal.Val.L0.three,
    Ideal.div_coe (by norm_num : (3 : ℝ) ≠ 0)]
  simp only [wR_apply_0, wR_apply_1, wR_apply_2, bR_apply_0, bR_apply_1, bR_apply_2]
  simp only [add_assoc]

end Cert.KernelIdeal.Val.L0R

namespace Cert.KernelIdeal.Val

open Cert.KernelIdeal Cert.KernelIdeal.Gen Cert.KernelIdeal.Frm
open Idealize.ShloMosaic Idealize.ShloMosaic.TcCoe Idealize.SL.Sem

/-- Whatever the region finds in its three arrays — the stack of three aggregates, the layer's weights and biases —
    the array it leaves is the reference's layer on those aggregates, weights and biases. -/
theorem layer0_value (V : (c : Dev nD) → (b : Ref sig .tc) → Buf (Elt Ideal) ((c : Thread nD τ).loc b)) (c : Dev nD)
    (a0 a1 a2 : FVec Ideal S50000x256 .f32) (x1 : FVec Ideal S2x3x256x256 .f32) (x2 : FVec Ideal S2x3x256 .f32)
    (hA : V c (Pipeline.arrRef spec0 0) = Stg.stackK a0 a1 a2)
    (hW : V c (Pipeline.arrRef spec0 1) = Stg.wsK0 x1)
    (hb : V c (Pipeline.arrRef spec0 2) = Stg.bsK0 x2) :
    (dat0 (F := Ideal) V c).arrAt 3 cfg0.N = Cert.ReferenceIdeal.Stg.layerR0 (F := Ideal) a0 a1 a2 x1 x2 :=
  (L0.final0 V c a0 a1 a2 x1 x2 hA hW hb).trans (L0R.layerR0_eq a0 a1 a2 x1 x2).symm

end Cert.KernelIdeal.Val

end
-- ==== Proof.KILayer1.lean ====
/-
  Layer 1's region: the array it leaves, as the reference's layer on the same aggregates.

  At row n and column j both sides are the three relations' terms — the aggregate's row n times column j of the
  relation's weight matrix, plus the relation's bias entry j — added to zero, times one third. The body adds
  product, bias, product, bias, product, bias in turn and multiplies by the named reciprocal 1/3; the reference
  adds the three sums (product + bias) and divides by 3. On the extended reals addition is associative and the
  quotient by 3 is the product with 1/3, so the two agree. The body's block at point t holds rows 2000 t … 2000 t + 1999,
  and row r of the array is in the block of point r / 2000.
-/
import proofs.«159030_j5789615915676_1_alg».proof.Proof.KIBody1
import proofs.«159030_j5789615915676_1_alg».proof.Proof.KIStages
import proofs.«159030_j5789615915676_1_alg».proof.Proof.RefStages
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.Val.L1

open Cert.KernelIdeal Cert.KernelIdeal.Gen Cert.KernelIdeal.Frm
open Idealize.ShloMosaic Idealize.ShloMosaic.TcCoe Idealize.SL.Sem Idealize.ShloMosaic.ValueIdx

/-! ## The body's result block read at an element -/

theorem hz2 : (![0, 0] : Fin 2 → Nat) = fun _ => 0 := funext fun a => by fin_cases a <;> rfl

/-- The matrix unit's product into a zero accumulator, at row y and column j. -/
theorem mmK_apply (l : FVec Ideal S2000x256 .bf16) (r : FVec Ideal S256x256 .bf16) (y : Fin 2000) (j : Fin 256) :
    matmul dot_S2000x256_S256x256_S2000x256_1_0_0_1_n_n none l r (constant S2000x256 .f32 0x00000000#32) (ix2 y j)
      = ∑ k : Fin 256, l (ix2 y k) * r (ix2 k j) := by
  rw [show dot_S2000x256_S256x256_S2000x256_1_0_0_1_n_n = DotDims.plain 2000 256 256 from rfl, matmul_zero_eq_dotGeneral]
  exact StackMember.dotGeneral_plain_apply none l r y j

/-- One relation's step of the body at row y, column j: the accumulator plus the slab's row times the weight
    matrix's column, plus the bias row's entry. -/
theorem stepK_apply (acc : FVec Ideal S2000x256 .f32) (xa : Vec Ideal S1x2000x256 .f32) (wa : Vec Ideal S1x256x256 .f32)
    (ba : Vec Ideal S1x256 .f32)
    (h1 : S1x2000x256.ShapeCasts S2000x256) (h2 : S1x256x256.ShapeCasts S256x256) (h3 : S1x256.ShapeCasts S256)
    (h4 : S256.ShapeCasts S1x256) (h5 : S1x256.Broadcasts S2000x256) (hb : FTy.bits .bf16 < FTy.bits .f32)
    (y : Fin 2000) (j : Fin 256) :
    addf (addf acc (matmul dot_S2000x256_S256x256_S2000x256_1_0_0_1_n_n none (truncf .bf16 (shapeCast S2000x256 xa h1) hb)
        (truncf .bf16 (shapeCast S256x256 wa h2) hb) (constant S2000x256 .f32 0x00000000#32)))
      (broadcastTo S2000x256 (shapeCast S1x256 (shapeCast S256 ba h3) h4) h5) (ix2 y j)
    = (acc (ix2 y j) + ∑ k : Fin 256, xa (ix3 (0 : Fin 1) y k) * wa (ix3 (0 : Fin 1) k j)) + ba (ix2 (0 : Fin 1) j) := by
  rw [addf_apply, addf_apply, mmK_apply]
  congr 1
  · congr 1
    refine Finset.sum_congr rfl fun k _ => ?_
    rw [truncf_apply, truncf_apply, shapeCast_1ab_ab_apply, shapeCast_1ab_ab_apply]
  · rw [broadcastTo_1b_ab_apply, shapeCast_a_1a_apply, shapeCast_1a_a_apply]

/-- Slab r of the aggregates' block, read at (0, y, k), is the block at (r, y, k). -/
theorem ld_ra (x0 : Vec Ideal S3x2000x256 .f32) (y : Fin 2000) (k : Fin 256) :
    View.ld x0 ra1_0 (ix3 (0 : Fin 1) y k) = x0 (ix3 (0 : Fin 3) y k)
    ∧ View.ld x0 ra1_1 (ix3 (0 : Fin 1) y k) = x0 (ix3 (1 : Fin 3) y k)
    ∧ View.ld x0 ra1_2 (ix3 (0 : Fin 1) y k) = x0 (ix3 (2 : Fin 3) y k) := by
  refine ⟨?_, ?_, ?_⟩ <;> (show x0 _ = x0 _) <;> congr 1 <;> funext a <;> apply Fin.ext
  all_goals
    match a with
    | ⟨0, _⟩ => rfl
    | ⟨1, _⟩ => show 0 + 1 * y.val = y.val; omega
    | ⟨2, _⟩ => show 0 + 1 * k.val = k.val; omega

/-- Weight matrix r of the stack, read at (0, k, j), is the stack at (r, k, j). -/
theorem ld_rw (w : Vec Ideal S3x256x256 .f32) (k j : Fin 256) :
    View.ld w rw1_0 (ix3 (0 : Fin 1) k j) = w (ix3 (0 : Fin 3) k j)
    ∧ View.ld w rw1_1 (ix3 (0 : Fin 1) k j) = w (ix3 (1 : Fin 3) k j)
    ∧ View.ld w rw1_2 (ix3 (0 : Fin 1) k j) = w (ix3 (2 : Fin 3) k j) := by
  refine ⟨?_, ?_, ?_⟩ <;> (show w _ = w _) <;> congr 1 <;> funext a <;> apply Fin.ext
  all_goals
    match a with
    | ⟨0, _⟩ => rfl
    | ⟨1, _⟩ => show 0 + 1 * k.val = k.val; omega
    | ⟨2, _⟩ => show 0 + 1 * j.val = j.val; omega

/-- Bias row r of the stack, read at (0, j), is the stack at (r, j). -/
theorem ld_rb (b : Vec Ideal S3x256 .f32) (j : Fin 256) :
    View.ld b rb1_0 (ix2 (0 : Fin 1) j) = b (ix2 (0 : Fin 3) j)
    ∧ View.ld b rb1_1 (ix2 (0 : Fin 1) j) = b (ix2 (1 : Fin 3) j)
    ∧ View.ld b rb1_2 (ix2 (0 : Fin 1) j) = b (ix2 (2 : Fin 3) j) := by
  refine ⟨?_, ?_, ?_⟩ <;> (show b _ = b _) <;> congr 1 <;> funext a <;> apply Fin.ext
  all_goals
    match a with
    | ⟨0, _⟩ => rfl
    | ⟨1, _⟩ => show 0 + 1 * j.val = j.val; omega

/-- The named reciprocal denotes the rational 1/3. -/
theorem inv_3 : Named.named (F := Ideal) κ "inv_3" (φ := .f32) 0x3EAAAAAB#32 = ((1 / 3 : ℝ) : EReal) :=
  IdealRules.named_const.ideal_named_scalar _ _ _ _ rfl

/-- The body's result block at row y, column j. -/
theorem out1_3_apply (x0 : Vec Ideal S3x2000x256 .f32) (w : Vec Ideal S3x256x256 .f32) (b : Vec Ideal S3x256 .f32)
    (y : Fin 2000) (j : Fin 256) :
    out1_3 (F := Ideal) x0 w b (ix2 y j)
      = (((((((0 : EReal) + ∑ k : Fin 256, x0 (ix3 (0 : Fin 3) y k) * w (ix3 (0 : Fin 3) k j)) + b (ix2 (0 : Fin 3) j))
          + ∑ k : Fin 256, x0 (ix3 (1 : Fin 3) y k) * w (ix3 (1 : Fin 3) k j)) + b (ix2 (1 : Fin 3) j))
          + ∑ k : Fin 256, x0 (ix3 (2 : Fin 3) y k) * w (ix3 (2 : Fin 3) k j)) + b (ix2 (2 : Fin 3) j))
        * ((1 / 3 : ℝ) : EReal) := by
  unfold out1_3
  rw [View.canon_unit_zero hz2]
  unfold k1_pay1 k1_pay2 k1_pay3 k1_pay4
  dsimp only
  rw [mulf_apply, stepK_apply, stepK_apply, stepK_apply, broadcast_apply, broadcast_apply, inv_3, Ideal.ofBits_def,
    Ideal.ofBits_zero_f32]
  have e0 : ∑ k : Fin 256, View.ld x0 ra1_0 (ix3 (0 : Fin 1) y k) * View.ld w rw1_0 (ix3 (0 : Fin 1) k j)
      = ∑ k : Fin 256, x0 (ix3 (0 : Fin 3) y k) * w (ix3 (0 : Fin 3) k j) :=
    Finset.sum_congr rfl fun k _ => by rw [(ld_ra x0 y k).1, (ld_rw w k j).1]
  have e1 : ∑ k : Fin 256, View.ld x0 ra1_1 (ix3 (0 : Fin 1) y k) * View.ld w rw1_1 (ix3 (0 : Fin 1) k j)
      = ∑ k : Fin 256, x0 (ix3 (1 : Fin 3) y k) * w (ix3 (1 : Fin 3) k j) :=
    Finset.sum_congr rfl fun k _ => by rw [(ld_ra x0 y k).2.1, (ld_rw w k j).2.1]
  have e2 : ∑ k : Fin 256, View.ld x0 ra1_2 (ix3 (0 : Fin 1) y k) * View.ld w rw1_2 (ix3 (0 : Fin 1) k j)
      = ∑ k : Fin 256, x0 (ix3 (2 : Fin 3) y k) * w (ix3 (2 : Fin 3) k j) :=
    Finset.sum_congr rfl fun k _ => by rw [(ld_ra x0 y k).2.2, (ld_rw w k j).2.2]
  rw [e0, e1, e2, (ld_rb b j).1, (ld_rb b j).2.1, (ld_rb b j).2.2]

/-! ## The reference's layer read at an index -/

/-- The host's product of a [50000, 256] by a [256, 256] matrix, at row n and column j. -/
theorem dotR_apply (a : FVec Ideal (⟨2, ![50000, 256]⟩ : Shape) .f32) (W : FVec Ideal (⟨2, ![256, 256]⟩ : Shape) .f32)
    (n : Fin 50000) (j : Fin 256) :
    Host.dotGeneral Cert.ReferenceIdeal.dot_S50000x256_S256x256_S50000x256_1_0_0_1_n_n none a W (ix2 n j)
      = ∑ k : Fin 256, a (ix2 n k) * W (ix2 k j) := by
  rw [show Cert.ReferenceIdeal.dot_S50000x256_S256x256_S50000x256_1_0_0_1_n_n = DotDims.plain 50000 256 256 from rfl]
  exact StackMember.dotGeneral_plain_apply none a W n j

/-- Weight matrix (1, r) cut out of the weight array and viewed as a matrix, at (k, j). -/
theorem wsliceR_apply (off : Fin 4 → ℕ) (r : Fin 3) (hoff : off = ![1, r.val, 0, 0])
    (x1 : FVec Ideal (⟨4, ![2, 3, 256, 256]⟩ : Shape) .f32)
    (hs : (⟨4, ![2, 3, 256, 256]⟩ : Shape).Slices off ⟨4, ![1, 1, 256, 256]⟩)
    (hc : (⟨4, ![1, 1, 256, 256]⟩ : Shape).ShapeCasts ⟨2, ![256, 256]⟩) (k j : Fin 256) :
    shapeCast (⟨2, ![256, 256]⟩ : Shape) (extractStridedSlice (⟨4, ![1, 1, 256, 256]⟩ : Shape) off x1 hs) hc (ix2 k j)
      = x1 (ix4 (1 : Fin 2) r k j) := by
  subst hoff
  refine (shapeCast_apply _ hc (ix2 k j) (ix4 (0 : Fin 1) (0 : Fin 1) k j) ?_).trans ?_
  · rw [Shape.rowMajor_val_four, Shape.rowMajor_val_two]
    show ((0 * 1 + 0) * 256 + k.val) * 256 + j.val = k.val * 256 + j.val
    omega
  · refine extractStridedSlice_apply _ x1 hs _ _ fun a => ?_
    match a with
    | ⟨0, _⟩ => rfl
    | ⟨1, _⟩ => show r.val = r.val + 0; omega
    | ⟨2, _⟩ => show k.val = 0 + k.val; omega
    | ⟨3, _⟩ => show j.val = 0 + j.val; omega

/-- Bias row (1, r) cut out of the bias array and viewed as a vector, at j. -/
theorem bsliceR_apply (off : Fin 3 → ℕ) (r : Fin 3) (hoff : off = ![1, r.val, 0])
    (x2 : FVec Ideal (⟨3, ![2, 3, 256]⟩ : Shape) .f32)
    (hs : (⟨3, ![2, 3, 256]⟩ : Shape).Slices off ⟨3, ![1, 1, 256]⟩)
    (hc : (⟨3, ![1, 1, 256]⟩ : Shape).ShapeCasts ⟨1, ![256]⟩) (j : Fin 256) :
    shapeCast (⟨1, ![256]⟩ : Shape) (extractStridedSlice (⟨3, ![1, 1, 256]⟩ : Shape) off x2 hs) hc (ix1 j)
      = x2 (ix3 (1 : Fin 2) r j) := by
  subst hoff
  refine (shapeCast_apply _ hc (ix1 j) (ix3 (0 : Fin 1) (0 : Fin 1) j) ?_).trans ?_
  · rw [Shape.rowMajor_val_three, Shape.rowMajor_val_one]
    show (0 * 1 + 0) * 256 + j.val = j.val
    omega
  · refine extractStridedSlice_apply _ x2 hs _ _ fun a => ?_
    match a with
    | ⟨0, _⟩ => rfl
    | ⟨1, _⟩ => show r.val = r.val + 0; omega
    | ⟨2, _⟩ => show j.val = 0 + j.val; omega

/-- A vector of 256 entries laid along one row and then along every one of 50000 rows, at (n, j). -/
theorem rowsR_apply (v : FVec Ideal (⟨1, ![256]⟩ : Shape) .f32)
    (h₁ : (⟨1, ![256]⟩ : Shape).BroadcastsInDim ⟨2, ![1, 256]⟩ ![1])
    (h₂ : (⟨2, ![1, 256]⟩ : Shape).BroadcastsInDim ⟨2, ![50000, 256]⟩ ![0, 1]) (n : Fin 50000) (j : Fin 256) :
    broadcastInDim (⟨2, ![50000, 256]⟩ : Shape) ![0, 1] h₂ (broadcastInDim (⟨2, ![1, 256]⟩ : Shape) ![1] h₁ v) (ix2 n j)
      = v (ix1 j) := by
  refine (broadcastInDim_apply ![0, 1] h₂ _ (ix2 n j) (ix2 (0 : Fin 1) j) fun a => ?_).trans
    (broadcastInDim_apply ![1] h₁ _ (ix2 (0 : Fin 1) j) (ix1 j) fun a => ?_)
  · match a with
    | ⟨0, _⟩ => show 0 = if (1 : ℕ) = 1 then 0 else n.val; rw [if_pos rfl]
    | ⟨1, _⟩ => show j.val = if (256 : ℕ) = 1 then 0 else j.val; rw [if_neg (by decide)]
  · match a with
    | ⟨0, _⟩ => show j.val = if (256 : ℕ) = 1 then 0 else j.val; rw [if_neg (by decide)]

/-- Relation r's product at row n, column j: the aggregate's row times column j of weight matrix (1, r). -/
def relP (a : FVec Ideal S50000x256 .f32) (x1 : FVec Ideal S2x3x256x256 .f32) (r : Fin 3) (n : Fin 50000) (j : Fin 256) :
    EReal :=
  ∑ k : Fin 256, a (ix2 n k) * x1 (ix4 (1 : Fin 2) r k j)

theorem affine10_apply (a : FVec Ideal S50000x256 .f32) (x1 : FVec Ideal S2x3x256x256 .f32) (x2 : FVec Ideal S2x3x256 .f32)
    (n : Fin 50000) (j : Fin 256) :
    Cert.ReferenceIdeal.Stg.affine10 (F := Ideal) a x1 x2 (ix2 n j) = relP a x1 0 n j + x2 (ix3 (1 : Fin 2) (0 : Fin 3) j) := by
  unfold Cert.ReferenceIdeal.Stg.affine10
  rw [addf_apply]
  refine congrArg₂ (· + ·) ((dotR_apply _ _ n j).trans (Finset.sum_congr rfl fun k _ => ?_))
    ((rowsR_apply _ _ _ n j).trans (bsliceR_apply ![1, 0, 0] 0 rfl x2 _ _ j))
  rw [wsliceR_apply ![1, 0, 0, 0] 0 rfl]

theorem affine11_apply (a : FVec Ideal S50000x256 .f32) (x1 : FVec Ideal S2x3x256x256 .f32) (x2 : FVec Ideal S2x3x256 .f32)
    (n : Fin 50000) (j : Fin 256) :
    Cert.ReferenceIdeal.Stg.affine11 (F := Ideal) a x1 x2 (ix2 n j) = relP a x1 1 n j + x2 (ix3 (1 : Fin 2) (1 : Fin 3) j) := by
  unfold Cert.ReferenceIdeal.Stg.affine11
  rw [addf_apply]
  refine congrArg₂ (· + ·) ((dotR_apply _ _ n j).trans (Finset.sum_congr rfl fun k _ => ?_))
    ((rowsR_apply _ _ _ n j).trans (bsliceR_apply ![1, 1, 0] 1 rfl x2 _ _ j))
  rw [wsliceR_apply ![1, 1, 0, 0] 1 rfl]

theorem affine12_apply (a : FVec Ideal S50000x256 .f32) (x1 : FVec Ideal S2x3x256x256 .f32) (x2 : FVec Ideal S2x3x256 .f32)
    (n : Fin 50000) (j : Fin 256) :
    Cert.ReferenceIdeal.Stg.affine12 (F := Ideal) a x1 x2 (ix2 n j) = relP a x1 2 n j + x2 (ix3 (1 : Fin 2) (2 : Fin 3) j) := by
  unfold Cert.ReferenceIdeal.Stg.affine12
  rw [addf_apply]
  refine congrArg₂ (· + ·) ((dotR_apply _ _ n j).trans (Finset.sum_congr rfl fun k _ => ?_))
    ((rowsR_apply _ _ _ n j).trans (bsliceR_apply ![1, 2, 0] 2 rfl x2 _ _ j))
  rw [wsliceR_apply ![1, 2, 0, 0] 2 rfl]

/-- The word 0x40400000 denotes the real 3. -/
theorem ofBits_three : Ideal.ofBits .f32 0x40400000#32 = ((3 : ℝ) : EReal) := by
  simp [Ideal.ofBits, Ideal.ieee, -EReal.coe_mul]; norm_num

/-- A splat of a constant word over any shape, at one element: the word's value. -/
theorem splat_apply {t : Shape} (h : (⟨0, ![]⟩ : Shape).BroadcastsInDim t ![]) (w : BitVec 32) (i : t.Idx) :
    broadcastInDim t ![] h (constant (F := Ideal) (⟨0, ![]⟩ : Shape) .f32 w) i = Ideal.ofBits .f32 w :=
  (broadcastInDim_apply ![] h _ i ix0 (fun a => a.elim0)).trans rfl

/-- The reference's layer at row n, column j. -/
theorem layerR1_apply (a0 a1 a2 : FVec Ideal S50000x256 .f32) (x1 : FVec Ideal S2x3x256x256 .f32)
    (x2 : FVec Ideal S2x3x256 .f32) (n : Fin 50000) (j : Fin 256) :
    Cert.ReferenceIdeal.Stg.layerR1 (F := Ideal) a0 a1 a2 x1 x2 (ix2 n j)
      = ((((0 : EReal) + (relP a0 x1 0 n j + x2 (ix3 (1 : Fin 2) (0 : Fin 3) j)))
          + (relP a1 x1 1 n j + x2 (ix3 (1 : Fin 2) (1 : Fin 3) j)))
          + (relP a2 x1 2 n j + x2 (ix3 (1 : Fin 2) (2 : Fin 3) j))) * ((1 / 3 : ℝ) : EReal) := by
  unfold Cert.ReferenceIdeal.Stg.layerR1 Host.divf
  rw [Ideal.hostDivf_def, addf_apply, addf_apply, addf_apply, splat_apply, splat_apply, affine10_apply, affine11_apply,
    affine12_apply, ofBits_three, Ideal.ofBits_zero_f32, Ideal.div_coe (by norm_num : (3 : ℝ) ≠ 0)]

/-- The body's block on blocks that hold rows n of the aggregates and the layer's weights and biases is the
    reference's layer at row n. -/
theorem block_value (a0 a1 a2 : FVec Ideal S50000x256 .f32) (x1 : FVec Ideal S2x3x256x256 .f32)
    (x2 : FVec Ideal S2x3x256 .f32)
    (X0 : Vec Ideal S3x2000x256 .f32) (W : Vec Ideal S3x256x256 .f32) (B : Vec Ideal S3x256 .f32)
    (y : Fin 2000) (j : Fin 256) (n : Fin 50000)
    (hX0 : ∀ k : Fin 256, X0 (ix3 (0 : Fin 3) y k) = a0 (ix2 n k))
    (hX1 : ∀ k : Fin 256, X0 (ix3 (1 : Fin 3) y k) = a1 (ix2 n k))
    (hX2 : ∀ k : Fin 256, X0 (ix3 (2 : Fin 3) y k) = a2 (ix2 n k))
    (hW : ∀ (r : Fin 3) (k j : Fin 256), W (ix3 r k j) = x1 (ix4 (1 : Fin 2) r k j))
    (hB : ∀ (r : Fin 3) (j : Fin 256), B (ix2 r j) = x2 (ix3 (1 : Fin 2) r j)) :
    out1_3 (F := Ideal) X0 W B (ix2 y j) = Cert.ReferenceIdeal.Stg.layerR1 (F := Ideal) a0 a1 a2 x1 x2 (ix2 n j) := by
  rw [out1_3_apply, layerR1_apply]
  unfold relP
  simp only [hX0, hX1, hX2, hW, hB, add_assoc]

/-! ## What the region finds in its three arrays, read at an index -/

/-- An aggregate given a leading unit axis, at (0, n, k). -/
theorem lead_apply (a : FVec Ideal S50000x256 .f32)
    (h : S50000x256.BroadcastsInDim S1x50000x256 (![1, 2] : Fin 2 → Fin 3)) (n : Fin 50000) (k : Fin 256) :
    broadcastInDim S1x50000x256 (![1, 2] : Fin 2 → Fin 3) h a (ix3 (0 : Fin 1) n k) = a (ix2 n k) := by
  refine broadcastInDim_apply _ h a _ (ix2 n k) fun b => ?_
  match b with
  | ⟨0, _⟩ => show n.val = if (50000 : ℕ) = 1 then 0 else n.val; rw [if_neg (by omega)]
  | ⟨1, _⟩ => show k.val = if (256 : ℕ) = 1 then 0 else k.val; rw [if_neg (by omega)]

/-- The stack of three aggregates at (r, n, k) is aggregate r at (n, k). -/
theorem stack3_apply (p0 p1 p2 : S1x50000x256.Idx → EReal)
    (h : Shape.Concatenates
      (([⟨S1x50000x256, p0⟩, ⟨S1x50000x256, p1⟩, ⟨S1x50000x256, p2⟩] : List ((s : Shape) × (s.Idx → EReal))).map (·.1))
      S3x50000x256 (0 : Fin 3)) (n : Fin 50000) (k : Fin 256) :
    concatenate S3x50000x256 (0 : Fin 3) [⟨S1x50000x256, p0⟩, ⟨S1x50000x256, p1⟩, ⟨S1x50000x256, p2⟩] h (ix3 (0 : Fin 3) n k)
      = p0 (ix3 (0 : Fin 1) n k)
    ∧ concatenate S3x50000x256 (0 : Fin 3) [⟨S1x50000x256, p0⟩, ⟨S1x50000x256, p1⟩, ⟨S1x50000x256, p2⟩] h (ix3 (1 : Fin 3) n k)
      = p1 (ix3 (0 : Fin 1) n k)
    ∧ concatenate S3x50000x256 (0 : Fin 3) [⟨S1x50000x256, p0⟩, ⟨S1x50000x256, p1⟩, ⟨S1x50000x256, p2⟩] h (ix3 (2 : Fin 3) n k)
      = p2 (ix3 (0 : Fin 1) n k) := by
  refine ⟨?_, ?_, ?_⟩
  · refine concatenate_apply_piece (0 : Fin 3) [⟨S1x50000x256, p0⟩, ⟨S1x50000x256, p1⟩, ⟨S1x50000x256, p2⟩] h
      (ix3 (0 : Fin 3) n k) 0 (by show (0 : ℕ) < 3; omega) S1x50000x256 p0 rfl rfl 0 rfl (ix3 (0 : Fin 1) n k) (fun b hb => ?_) rfl
    match b with
    | ⟨0, _⟩ => exact absurd (Fin.ext rfl) hb
    | ⟨1, _⟩ => rfl
    | ⟨2, _⟩ => rfl
  · refine concatenate_apply_piece (0 : Fin 3) [⟨S1x50000x256, p0⟩, ⟨S1x50000x256, p1⟩, ⟨S1x50000x256, p2⟩] h
      (ix3 (1 : Fin 3) n k) 1 (by show (1 : ℕ) < 3; omega) S1x50000x256 p1 rfl rfl 1 rfl (ix3 (0 : Fin 1) n k) (fun b hb => ?_) rfl
    match b with
    | ⟨0, _⟩ => exact absurd (Fin.ext rfl) hb
    | ⟨1, _⟩ => rfl
    | ⟨2, _⟩ => rfl
  · refine concatenate_apply_piece (0 : Fin 3) [⟨S1x50000x256, p0⟩, ⟨S1x50000x256, p1⟩, ⟨S1x50000x256, p2⟩] h
      (ix3 (2 : Fin 3) n k) 2 (by show (2 : ℕ) < 3; omega) S1x50000x256 p2 rfl rfl 2 rfl (ix3 (0 : Fin 1) n k) (fun b hb => ?_) rfl
    match b with
    | ⟨0, _⟩ => exact absurd (Fin.ext rfl) hb
    | ⟨1, _⟩ => rfl
    | ⟨2, _⟩ => rfl

/-- The stack of three aggregates at (r, n, k) is aggregate r at (n, k). -/
theorem stackK_apply (a0 a1 a2 : FVec Ideal S50000x256 .f32) (n : Fin 50000) (k : Fin 256) :
    Stg.stackK (F := Ideal) a0 a1 a2 (ix3 (0 : Fin 3) n k) = a0 (ix2 n k)
    ∧ Stg.stackK (F := Ideal) a0 a1 a2 (ix3 (1 : Fin 3) n k) = a1 (ix2 n k)
    ∧ Stg.stackK (F := Ideal) a0 a1 a2 (ix3 (2 : Fin 3) n k) = a2 (ix2 n k) := by
  unfold Stg.stackK
  obtain ⟨s0, s1, s2⟩ := stack3_apply _ _ _ concatenates_S1x50000x256_S1x50000x256_S1x50000x256_S3x50000x256_d0 n k
  exact ⟨s0.trans (lead_apply a0 _ n k), s1.trans (lead_apply a1 _ n k), s2.trans (lead_apply a2 _ n k)⟩

/-- The layer's weight slab at (r, k, j) is the weight array at (1, r, k, j). -/
theorem wsK1_apply (x1 : FVec Ideal S2x3x256x256 .f32) (r : Fin 3) (k j : Fin 256) :
    Stg.wsK1 (F := Ideal) x1 (ix3 r k j) = x1 (ix4 (1 : Fin 2) r k j) := by
  unfold Stg.wsK1
  refine (shapeCast_1abc_abc_apply _ _ r k j).trans (extractStridedSlice_apply _ x1 _ _ _ fun a => ?_)
  match a with
  | ⟨0, _⟩ => rfl
  | ⟨1, _⟩ => show r.val = 0 + r.val; omega
  | ⟨2, _⟩ => show k.val = 0 + k.val; omega
  | ⟨3, _⟩ => show j.val = 0 + j.val; omega

/-- The layer's bias slab at (r, j) is the bias array at (1, r, j). -/
theorem bsK1_apply (x2 : FVec Ideal S2x3x256 .f32) (r : Fin 3) (j : Fin 256) :
    Stg.bsK1 (F := Ideal) x2 (ix2 r j) = x2 (ix3 (1 : Fin 2) r j) := by
  unfold Stg.bsK1
  refine (shapeCast_1ab_ab_apply _ _ r j).trans (extractStridedSlice_apply _ x2 _ _ _ fun a => ?_)
  match a with
  | ⟨0, _⟩ => rfl
  | ⟨1, _⟩ => show r.val = 0 + r.val; omega
  | ⟨2, _⟩ => show j.val = 0 + j.val; omega

/-! ## The blocks -/

/-- The index maps over the grid: the aggregates' block and the result's block move down the rows with the point,
    the weights' and biases' blocks stay. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The aggregates' block at point t, at (r, y, k), is the array at (r, 2000 t + y, k). -/
theorem iblkA_apply (c : Dev nD) (A : S3x50000x256.Idx → EReal) (hA : V c (Pipeline.arrRef spec1 0) = A)
    (t : Fin cfg1.N) (r : Fin 3) (y : Fin 2000) (k : Fin 256) (n : Fin 50000) (hn : n.val = t.val * 2000 + y.val) :
    (iblk1 (F := Ideal) V c 0 t : Vec Ideal S3x2000x256 .f32) (ix3 r y k) = A (ix3 r n k) := by
  obtain ⟨e0, e1, e2, -⟩ := idx_facts t
  subst hA
  unfold iblk1
  rw [View.read_apply]
  show V c (Pipeline.arrRef spec1 0) _ = V c (Pipeline.arrRef spec1 0) _
  congr 1
  funext a
  apply Fin.ext
  match a with
  | ⟨0, _⟩ => show win1_0.index t (0 : Fin 3) * 3 + 1 * r.val = r.val; rw [e0]; omega
  | ⟨1, _⟩ => show win1_0.index t (1 : Fin 3) * 2000 + 1 * y.val = n.val; rw [e1, hn]; omega
  | ⟨2, _⟩ => show win1_0.index t (2 : Fin 3) * 256 + 1 * k.val = k.val; rw [e2]; omega

/-- The weights' block at any point is the whole array. -/
theorem iblkW_apply (c : Dev nD) (A : S3x256x256.Idx → EReal) (hA : V c (Pipeline.arrRef spec1 1) = A)
    (t : Fin cfg1.N) (r : Fin 3) (k j : Fin 256) :
    (iblk1 (F := Ideal) V c 1 t : Vec Ideal S3x256x256 .f32) (ix3 r k j) = A (ix3 r k j) := by
  obtain ⟨-, -, -, e0, e1, e2, -⟩ := idx_facts t
  subst hA
  unfold iblk1
  rw [View.read_apply]
  show V c (Pipeline.arrRef spec1 1) _ = V c (Pipeline.arrRef spec1 1) _
  congr 1
  funext a
  apply Fin.ext
  match a with
  | ⟨0, _⟩ => show win1_1.index t (0 : Fin 3) * 3 + 1 * r.val = r.val; rw [e0]; omega
  | ⟨1, _⟩ => show win1_1.index t (1 : Fin 3) * 256 + 1 * k.val = k.val; rw [e1]; omega
  | ⟨2, _⟩ => show win1_1.index t (2 : Fin 3) * 256 + 1 * j.val = j.val; rw [e2]; omega

/-- The biases' block at any point is the whole array. -/
theorem iblkB_apply (c : Dev nD) (A : S3x256.Idx → EReal) (hA : V c (Pipeline.arrRef spec1 2) = A)
    (t : Fin cfg1.N) (r : Fin 3) (j : Fin 256) :
    (iblk1 (F := Ideal) V c 2 t : Vec Ideal S3x256 .f32) (ix2 r j) = A (ix2 r j) := by
  obtain ⟨-, -, -, -, -, -, e0, e1, -⟩ := idx_facts t
  subst hA
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 3 + 1 * r.val = r.val; rw [e0]; omega
  | ⟨1, _⟩ => show win1_2.index t (1 : Fin 2) * 256 + 1 * j.val = j.val; rw [e1]; omega

/-- The body's result at point t, at an element of the block, is the reference's layer at the element of the array
    the block's element sits at. -/
theorem flushed_point (c : Dev nD) (a0 a1 a2 : FVec Ideal S50000x256 .f32) (x1 : FVec Ideal S2x3x256x256 .f32)
    (x2 : FVec Ideal S2x3x256 .f32)
    (hA : V c (Pipeline.arrRef spec1 0) = Stg.stackK a0 a1 a2)
    (hW : V c (Pipeline.arrRef spec1 1) = Stg.wsK1 x1)
    (hb : V c (Pipeline.arrRef spec1 2) = Stg.bsK1 x2)
    (t : Fin cfg1.N) (j : S2000x256.Idx) (i : S50000x256.Idx)
    (h0 : (i 0).val = t.val * 2000 + (j 0).val) (h1 : (i 1).val = (j 1).val) :
    out1_3 (F := Ideal) (iblk1 V c 0 t) (iblk1 V c 1 t) (iblk1 V c 2 t) j
      = Cert.ReferenceIdeal.Stg.layerR1 (F := Ideal) a0 a1 a2 x1 x2 i := by
  obtain ⟨y, q, rfl⟩ : ∃ (y : Fin 2000) (q : Fin 256), j = ix2 y q := ⟨j 0, j 1, eq_ix2 j⟩
  obtain ⟨n, q', rfl⟩ : ∃ (n : Fin 50000) (q' : Fin 256), i = ix2 n q' := ⟨i 0, i 1, eq_ix2 i⟩
  obtain rfl : q' = q := Fin.ext h1
  have hn : n.val = t.val * 2000 + y.val := h0
  exact block_value a0 a1 a2 x1 x2 _ _ _ y q' n
    (fun k => (iblkA_apply V c _ hA t 0 y k n hn).trans (stackK_apply a0 a1 a2 n k).1)
    (fun k => (iblkA_apply V c _ hA t 1 y k n hn).trans (stackK_apply a0 a1 a2 n k).2.1)
    (fun k => (iblkA_apply V c _ hA t 2 y k n hn).trans (stackK_apply a0 a1 a2 n k).2.2)
    (fun r k j => (iblkW_apply V c _ hW t r k j).trans (wsK1_apply x1 r k j))
    (fun r j => (iblkB_apply V c _ hb t r j).trans (bsK1_apply x2 r j))

/-- What point t writes back is block t of the reference's layer. -/
theorem flushed_eq (c : Dev nD) (a0 a1 a2 : FVec Ideal S50000x256 .f32) (x1 : FVec Ideal S2x3x256x256 .f32)
    (x2 : FVec Ideal S2x3x256 .f32)
    (hA : V c (Pipeline.arrRef spec1 0) = Stg.stackK a0 a1 a2)
    (hW : V c (Pipeline.arrRef spec1 1) = Stg.wsK1 x1)
    (hb : V c (Pipeline.arrRef spec1 2) = Stg.bsK1 x2) (t : Fin cfg1.N) :
    (dat1 (F := Ideal) V c).flushed 3 t
      = ((cfg1.win 3).blk t).view.read (Elt Ideal) (Cert.ReferenceIdeal.Stg.layerR1 (F := Ideal) a0 a1 a2 x1 x2) := by
  show (cfg1.win 3).cut (grid1.coords t) ((dat1 V c).after 3 t) = _
  rw [after1_3]
  obtain ⟨-, -, -, -, -, -, -, -, e8, e9⟩ := idx_facts t
  funext j
  refine flushed_point V c a0 a1 a2 x1 x2 hA hW hb t j (((cfg1.win 3).blk t).view.emb j) ?_ ?_
  · show win1_3.index t (0 : Fin 2) * 2000 + 1 * (j 0).val = t.val * 2000 + (j 0).val
    rw [e8]; omega
  · show win1_3.index t (1 : Fin 2) * 256 + 1 * (j 1).val = (j 1).val
    rw [e9]; omega

/-- An index of the array is in point t's block iff each coordinate is in the block's range on its axis. -/
theorem mem_blk (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v203).slice (win1_3.rect t)).set ↔ _
  rw [View.set_slice_whole, Rect.mem_set_unit]
  exact Iff.rfl

/-- Row r of the array is in the block of point r / 2000. -/
theorem cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : grid1.N = 25 := N_1
  have ht : (i 0).val / 2000 < cfg1.N := by show (i 0).val / 2000 < grid1.N; rw [hN]; omega
  obtain ⟨-, -, -, -, -, -, -, -, e8, e9⟩ := idx_facts ⟨(i 0).val / 2000, ht⟩
  refine ⟨⟨(i 0).val / 2000, ht⟩, flush1_3 _, ?_⟩
  rw [mem_blk]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e8]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val
      ∧ (i 1).val < win1_3.index ⟨(i 0).val / 2000, ht⟩ (1 : Fin 2) * 256 + 256
    rw [e9]; omega

end Cert.KernelIdeal.Val.L1

namespace Cert.KernelIdeal.Val

open Cert.KernelIdeal Cert.KernelIdeal.Gen Cert.KernelIdeal.Frm
open Idealize.ShloMosaic Idealize.ShloMosaic.TcCoe Idealize.SL.Sem

/-- Whatever the region finds in its three arrays — the stack of three aggregates, the layer's weights and biases —
    the array it leaves is the reference's layer on those aggregates, weights and biases. -/
theorem layer1_value (V : (c : Dev nD) → (b : Ref sig .tc) → Buf (Elt Ideal) ((c : Thread nD τ).loc b)) (c : Dev nD)
    (a0 a1 a2 : FVec Ideal S50000x256 .f32) (x1 : FVec Ideal S2x3x256x256 .f32) (x2 : FVec Ideal S2x3x256 .f32)
    (hA : V c (Pipeline.arrRef spec1 0) = Stg.stackK a0 a1 a2)
    (hW : V c (Pipeline.arrRef spec1 1) = Stg.wsK1 x1)
    (hb : V c (Pipeline.arrRef spec1 2) = Stg.bsK1 x2) :
    (dat1 (F := Ideal) V c).arrAt 3 cfg1.N = Cert.ReferenceIdeal.Stg.layerR1 (F := Ideal) a0 a1 a2 x1 x2 :=
  (dat1 (F := Ideal) V c).arrAt_eq_of_cover 3 (Cert.ReferenceIdeal.Stg.layerR1 (F := Ideal) a0 a1 a2 x1 x2)
    (fun t _ => L1.flushed_eq V c a0 a1 a2 x1 x2 hA hW hb t) L1.cover

end Cert.KernelIdeal.Val

end
-- ==== Proof.KIProj.lean ====
/-
  The projection's region: the array it leaves, as the reference's head on the same hidden features.

  Entry (n, j) of the head is the sum over k of the features at (n, k) times the output matrix at (k, j), plus the
  output bias at j. The region computes it block by block: the block at point t holds rows 2000 t … 2000 t + 1999,
  and inside a block the matrix unit's product into a zero accumulator plus the one-row bias broadcast over the rows
  is the same sum plus the same bias entry. The 25 blocks tile the 50000 rows.
-/
import proofs.«159030_j5789615915676_1_alg».proof.Proof.KIBody2
import proofs.«159030_j5789615915676_1_alg».proof.Proof.KIStages
import proofs.«159030_j5789615915676_1_alg».proof.Proof.RefStages
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.ValueIdx
open scoped BigOperators

namespace Proj

/-! ## The head, element by element -/

/-- Entry (n, j) of the head: ∑ₖ h(n, k) · w(k, j) + b(j). -/
def headG (h : FVec Ideal S50000x256 .f32) (x3 : FVec Ideal S256x349 .f32) (x4 : FVec Ideal S349 .f32) :
    FVec Ideal S50000x349 .f32 :=
  fun i => (∑ k : Fin 256, h (ix2 (n0 := 50000) (i 0) k) * x3 (ix2 (n1 := 349) k (i 1))) + x4 (ix1 (n := 349) (i 1))

theorem headG_ix2 (h : FVec Ideal S50000x256 .f32) (x3 : FVec Ideal S256x349 .f32) (x4 : FVec Ideal S349 .f32)
    (n : Fin 50000) (j : Fin 349) :
    headG h x3 x4 (ix2 n j) = (∑ k : Fin 256, h (ix2 n k) * x3 (ix2 k j)) + x4 (ix1 j) := rfl

/-! ## The body's arithmetic at one element of a block -/

/-- The region's dimension numbers are the plain ones of a [2000, 256] by [256, 349] product. -/
theorem dotK_plain : dot_S2000x256_S256x349_S2000x349_1_0_0_1_n_n = DotDims.plain 2000 256 349 := rfl

/-- Row y, column j of what the body stores: the sum over k of the feature block at (y, k) times the matrix at
    (k, j), plus the bias row at (0, j). -/
theorem pay_ix2 (v0 : Vec Ideal S2000x256 .f32) (v3 : Vec Ideal S256x349 .f32) (v6 : Vec Ideal S1x349 .f32)
    (y : Fin 2000) (j : Fin 349) :
    k2_pay1 (F := Ideal) v0 v3 v6 (ix2 y j) = (∑ k : Fin 256, v0 (ix2 y k) * v3 (ix2 k j)) + v6 (ix2 (0 : Fin 1) j) := by
  unfold k2_pay1
  simp only [shapeCast_self]
  rw [dotK_plain, matmul_zero_eq_dotGeneral, addf_apply, StackMember.dotGeneral_plain_apply]
  show (∑ k : Fin 256, v0 (ix2 y k) * v3 (ix2 k j)) + broadcastTo S2000x349 v6 broadcasts_S1x349_S2000x349 (ix2 y j) = _
  congr 1
  refine broadcastTo_apply v6 _ (ix2 y j) (ix2 (0 : Fin 1) j) fun a => ?_
  match a with
  | ⟨0, _⟩ => rfl
  | ⟨1, _⟩ => rfl

/-! ## The reference's head at one element -/

/-- The reference's dimension numbers are the plain ones of a [50000, 256] by [256, 349] product. -/
theorem dotR_plain : Cert.ReferenceIdeal.dot_S50000x256_S256x349_S50000x349_1_0_0_1_n_n = DotDims.plain 50000 256 349 := rfl

/-- The reference's head is that function. -/
theorem projR_eq (h : FVec Ideal S50000x256 .f32) (x3 : FVec Ideal S256x349 .f32) (x4 : FVec Ideal S349 .f32) :
    Cert.ReferenceIdeal.Stg.projR (F := Ideal) h x3 x4 = headG h x3 x4 := by
  funext i
  obtain ⟨n, j, rfl⟩ : ∃ (n : Fin 50000) (j : Fin 349), i = ix2 n j := ⟨i 0, i 1, eq_ix2 i⟩
  rw [headG_ix2]
  unfold Cert.ReferenceIdeal.Stg.projR
  rw [dotR_plain]
  show (Host.dotGeneral (DotDims.plain 50000 256 349) none h x3 (ix2 n j) : EReal) + _ = _
  rw [StackMember.dotGeneral_plain_apply]
  congr 1
  refine (broadcastInDim_apply ![0, 1] _ _ (ix2 n j) (ix2 (0 : Fin 1) j) fun a => ?_).trans
    (broadcastInDim_apply ![1] _ x4 (ix2 (0 : Fin 1) j) (ix1 j) fun a => ?_)
  · match a with
    | ⟨0, _⟩ => rfl
    | ⟨1, _⟩ => rfl
  · match a with
    | ⟨0, _⟩ => rfl

/-! ## One element of a block against one element of the head -/

/-- When the feature block is rows 2000 t … of the features, the matrix block the matrix and the bias block the bias,
    the body's value at (y₀, y₁) is the head at (2000 t + y₀, y₁). -/
theorem block_eq (x0 : Vec Ideal S2000x256 .f32) (x1 : Vec Ideal S256x349 .f32) (x2 : Vec Ideal S1x349 .f32)
    (h : FVec Ideal S50000x256 .f32) (x3 : FVec Ideal S256x349 .f32) (x4 : FVec Ideal S349 .f32) (t : ℕ) (ht : t < 25)
    (h0 : ∀ (y : Fin 2000) (k : Fin 256), x0 (ix2 y k) = h (ix2 (⟨2000 * t + y.val, by omega⟩ : Fin 50000) k))
    (h1 : ∀ (k : Fin 256) (j : Fin 349), x1 (ix2 k j) = x3 (ix2 k j))
    (h2 : ∀ j : Fin 349, x2 (ix2 (0 : Fin 1) j) = x4 (ix1 j))
    (y : S2000x349.Idx) (i : S50000x349.Idx) (hi0 : (i 0).val = 2000 * t + (y 0).val) (hi1 : (i 1).val = (y 1).val) :
    k2_pay1 (F := Ideal) x0 x1 x2 y = headG h x3 x4 i := by
  obtain ⟨p, q, rfl⟩ : ∃ (p : Fin 2000) (q : Fin 349), y = ix2 p q := ⟨y 0, y 1, eq_ix2 y⟩
  have hp : 2000 * t + p.val < 50000 := by omega
  obtain ⟨n, j, rfl⟩ : ∃ (n : Fin 50000) (j : Fin 349), i = ix2 n j := ⟨i 0, i 1, eq_ix2 i⟩
  obtain rfl : n = ⟨2000 * t + p.val, hp⟩ := Fin.ext hi0
  obtain rfl : j = q := Fin.ext hi1
  rw [pay_ix2, headG_ix2]
  congr 1
  · exact Finset.sum_congr rfl fun k _ => by rw [h0, h1]
  · exact h2 _

/-! ## The region's blocks -/

theorem hz2 : (![0, 0] : Fin 2 → Nat) = fun _ => 0 := funext fun a => by fin_cases a <;> rfl

theorem lt25 (t : Fin cfg2.N) : t.val < 25 := lt_of_lt_of_eq t.isLt N_2

/-- The printed index maps over the grid: the features' and the result's block moves down one block of rows per
    point; the matrix and the bias row stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Region

variable (V : (c : Dev nD) → (b : Ref sig .tc) → Buf (Elt Ideal) ((c : Thread nD τ).loc b)) (c : Dev nD)

/-- The feature block at point t is rows 2000 t … 2000 t + 1999 of the features. -/
theorem blk_h (h : FVec Ideal S50000x256 .f32) (hH : V c (Pipeline.arrRef spec2 0) = h) (t : Fin cfg2.N)
    (y : Fin 2000) (k : Fin 256) :
    (iblk2 (F := Ideal) V c 0 t : Vec Ideal S2000x256 .f32) (ix2 y k)
      = h (ix2 (⟨2000 * t.val + y.val, by have := lt25 t; omega⟩ : Fin 50000) k) := by
  obtain ⟨e0, e1, -⟩ := idx_facts t
  unfold iblk2
  rw [View.read_apply]
  show V c (Pipeline.arrRef spec2 0) _ = h _
  rw [hH]
  congr 1
  funext a
  apply Fin.ext
  match a with
  | ⟨0, _⟩ => show win2_0.index t (0 : Fin 2) * 2000 + 1 * y.val = 2000 * t.val + y.val; omega
  | ⟨1, _⟩ => show win2_0.index t (1 : Fin 2) * 256 + 1 * k.val = k.val; omega

/-- The matrix block at every point is the matrix. -/
theorem blk_w (x3 : FVec Ideal S256x349 .f32) (hW : V c (Pipeline.arrRef spec2 1) = x3) (t : Fin cfg2.N)
    (k : Fin 256) (j : Fin 349) :
    (iblk2 (F := Ideal) V c 1 t : Vec Ideal S256x349 .f32) (ix2 k j) = x3 (ix2 k j) := by
  obtain ⟨-, -, e0, e1, -⟩ := idx_facts t
  unfold iblk2
  rw [View.read_apply]
  show V c (Pipeline.arrRef spec2 1) _ = x3 _
  rw [hW]
  congr 1
  funext a
  apply Fin.ext
  match a with
  | ⟨0, _⟩ => show win2_1.index t (0 : Fin 2) * 256 + 1 * k.val = k.val; omega
  | ⟨1, _⟩ => show win2_1.index t (1 : Fin 2) * 349 + 1 * j.val = j.val; omega

/-- The bias block at every point is the bias laid as one row. -/
theorem blk_b (x4 : FVec Ideal S349 .f32) (hb : V c (Pipeline.arrRef spec2 2) = Stg.boutK x4) (t : Fin cfg2.N)
    (j : Fin 349) :
    (iblk2 (F := Ideal) V c 2 t : Vec Ideal S1x349 .f32) (ix2 (0 : Fin 1) j) = x4 (ix1 j) := by
  obtain ⟨-, -, -, -, e0, e1, -⟩ := idx_facts t
  unfold iblk2
  rw [View.read_apply]
  show V c (Pipeline.arrRef spec2 2) _ = x4 _
  rw [hb]
  unfold Stg.boutK
  refine shapeCast_apply x4 _ _ (ix1 j) ?_
  rw [Shape.rowMajor_val_one, Shape.rowMajor_val_two]
  show j.val = (win2_2.index t (0 : Fin 2) * 1 + 1 * 0) * 349 + (win2_2.index t (1 : Fin 2) * 349 + 1 * j.val)
  omega

/-- What point t writes back is block t of the head. -/
theorem flushed_eq (h : FVec Ideal S50000x256 .f32) (x3 : FVec Ideal S256x349 .f32) (x4 : FVec Ideal S349 .f32)
    (hH : V c (Pipeline.arrRef spec2 0) = h) (hW : V c (Pipeline.arrRef spec2 1) = x3)
    (hb : V c (Pipeline.arrRef spec2 2) = Stg.boutK x4) (t : Fin cfg2.N) :
    (dat2 (F := Ideal) V c).flushed 3 t = ((cfg2.win 3).blk t).view.read (Elt Ideal) (headG h x3 x4) := by
  obtain ⟨-, -, -, -, -, -, e0, e1⟩ := idx_facts t
  show (cfg2.win 3).cut (grid2.coords t) ((dat2 V c).after 3 t) = _
  rw [after2_3]
  unfold out2_3
  rw [View.canon_unit_zero hz2]
  simp only [View.ld_unit_zero (S := S2000x256) hz2, View.ld_unit_zero (S := S256x349) hz2, View.ld_unit_zero (S := S1x349) hz2]
  funext y
  show k2_pay1 (F := Ideal) (iblk2 V c 0 t) (iblk2 V c 1 t) (iblk2 V c 2 t) y = headG h x3 x4 (((cfg2.win 3).blk t).view.emb y)
  refine block_eq _ _ _ h x3 x4 t.val (lt25 t) (blk_h V c h hH t) (blk_w V c x3 hW t) (blk_b V c x4 hb t) y _ ?_ ?_
  · show win2_3.index t (0 : Fin 2) * 2000 + 1 * (y 0).val = 2000 * t.val + (y 0).val; omega
  · show win2_3.index t (1 : Fin 2) * 349 + 1 * (y 1).val = (y 1).val; omega

/-- An index of the result is in point t's block iff each coordinate is in the block's range on its axis. -/
theorem mem_blk (t : Fin cfg2.N) (i : S50000x349.Idx) :
    i ∈ ((cfg2.win 3).blk t).view.set ↔ ∀ a : Fin 2, win2_3.index t a * S2000x349.size a ≤ (i a).val ∧ (i a).val < win2_3.index t a * S2000x349.size a + S2000x349.size a := by
  show i ∈ ((View.whole main_v205).slice (win2_3.rect t)).set ↔ _
  rw [View.set_slice_whole, Rect.mem_set_unit]
  exact Iff.rfl

/-- Row r of the result is in the block of point r / 2000. -/
theorem cover (i : S50000x349.Idx) : ∃ t : Fin cfg2.N, (cfg2.win 3).flush t = true ∧ i ∈ ((cfg2.win 3).blk t).view.set := by
  have hi0 : (i 0).val < 50000 := (i 0).isLt
  have hi1 : (i 1).val < 349 := (i 1).isLt
  have hN : cfg2.N = 25 := N_2
  have hq : (i 0).val / 2000 < cfg2.N := by rw [hN]; omega
  obtain ⟨-, -, -, -, -, -, e0, e1⟩ := idx_facts ⟨(i 0).val / 2000, hq⟩
  refine ⟨⟨(i 0).val / 2000, hq⟩, flush2_3 _, ?_⟩
  rw [mem_blk]
  intro a
  match a with
  | ⟨0, _⟩ =>
    show win2_3.index ⟨(i 0).val / 2000, hq⟩ (0 : Fin 2) * 2000 ≤ (i 0).val ∧ (i 0).val < win2_3.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, hq⟩ (1 : Fin 2) * 349 ≤ (i 1).val ∧ (i 1).val < win2_3.index ⟨(i 0).val / 2000, hq⟩ (1 : Fin 2) * 349 + 349
    rw [e1]; omega

end Region

end Proj

/-- Whatever the region finds in its three arrays — the hidden features, the output matrix, the output bias as a
    one-row matrix — the array it leaves is the reference's head on those features, matrix and bias. -/
theorem proj_value (V : (c : Dev nD) → (b : Ref sig .tc) → Buf (Elt Ideal) ((c : Thread nD τ).loc b)) (c : Dev nD)
    (h : FVec Ideal S50000x256 .f32) (x3 : FVec Ideal S256x349 .f32) (x4 : FVec Ideal S349 .f32)
    (hH : V c (Pipeline.arrRef spec2 0) = h)
    (hW : V c (Pipeline.arrRef spec2 1) = x3)
    (hb : V c (Pipeline.arrRef spec2 2) = Stg.boutK x4) :
    (dat2 (F := Ideal) V c).arrAt 3 cfg2.N = Cert.ReferenceIdeal.Stg.projR (F := Ideal) h x3 x4 := by
  rw [Proj.projR_eq]
  exact (dat2 (F := Ideal) V c).arrAt_eq_of_cover 3 (Proj.headG h x3 x4) (fun t _ => Proj.flushed_eq V c h x3 x4 hH hW hb t) Proj.cover

end Cert.KernelIdeal.Val

end
-- ==== Proof.LibNaryThree.lean ====
/-
  A host operation over a literal family of three operands (a join of three arrays along one axis prints so): what
  its result buffer holds afterwards, with each operand's contents named at its own buffer, so that a proof can go on
  rewriting the three contents one by one.
-/
import Idealize.ShloMosaic.Lib.StableHlo.Run

noncomputable section

namespace Cert.LibNaryThree

open Idealize.ShloMosaic Idealize.ShloMosaic.StableHlo

variable {τ : Topo} {sig : RefSig} {Val : EltTy → Type}
variable {x a b y : Ref sig .tc}

/-- After an operation over the three operands `x`, `a`, `b`, the result buffer holds the operation's function at
    the family whose entries are the three buffers' contents, each at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated so that a simplifier pass finds it at any result buffer. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNaryThree

end
-- ==== Proof.KIHost0.lean ====
/-
  What the host operations before the first layer kernel leave in its three operand arrays.

  The stacked [3, 50000, 256] operand holds, slab by slab, the three relations' degree-normalised aggregates of the
  input features. One relation's aggregate is a function of the features and the relation's two [250000] lists of
  node numbers (sources and targets): the features are scaled row by row by the inverse square root of the clipped
  source degree, gathered along the source list, added up at the target list, and scaled by the inverse square root
  of the clipped target degree; a degree is the number of occurrences of a node in a list, clipped below at one. The
  reference computes each aggregate by the same chain of operations, so the two closed terms coincide. The weight and
  bias operands are layer 0's slabs of the weight and bias arrays.
-/
import proofs.«159030_j5789615915676_1_alg».proof.Proof.Gen.KernelIdeal.Regions
import proofs.«159030_j5789615915676_1_alg».proof.Proof.KIStages
import proofs.«159030_j5789615915676_1_alg».proof.Proof.RefRead
import proofs.«159030_j5789615915676_1_alg».proof.Proof.LibNaryThree

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-- The contents a stretch of host operations leaves, by one simplifier pass: each operation's result at its own
    buffer is its function of the operands' contents, and any other buffer is as it was. -/
macro "host_results" : tactic =>
  `(tactic| (simp (disch := decide) only [after_cons, after_nil,
      nullary_result', unary_result', binary_result', ternary_result', reshape_result', Cert.LibNaryThree.nary3_result',
      nullary_result_ne', unary_result_ne', binary_result_ne', ternary_result_ne', reshape_result_ne', nary_result_ne']))

section Closed

variable {F : FTy → Type} [FloatOps F] [Named F]

/-- One [250000] list of node numbers: the row of the edge array at the given first three coordinates. -/
def nodesK (o : Fin S2x3x2x250000.rank → Nat) (h : S2x3x2x250000.Slices o S1x1x1x250000)
    (x5 : (⟨S2x3x2x250000, .i32⟩ : BufTy).Contents (Elt F)) : (⟨S250000, .i32⟩ : BufTy).Contents (Elt F) :=
  shapeCast _ (extractStridedSlice S1x1x1x250000 o x5 h) shapeCasts_S1x1x1x250000_S250000

/-- The scalar one. -/
def oneK : (⟨S_, .f32⟩ : BufTy).Contents (Elt F) := constant S_ .f32 0x3F800000#32

/-- 250000 ones. -/
def onesK : (⟨S250000, .f32⟩ : BufTy).Contents (Elt F) :=
  broadcastInDim S250000 ![] bcast_S_S250000 (constant S_ .f32 0x3F800000#32)

/-- How often each of the 50000 nodes occurs in a list: ones added into zeros at the list's entries. -/
def countK (l : (⟨S250000, .i32⟩ : BufTy).Contents (Elt F)) (ones : (⟨S250000, .f32⟩ : BufTy).Contents (Elt F)) :
    (⟨S50000, .f32⟩ : BufTy).Contents (Elt F) :=
  Host.scatterAdd scatter_S50000_S250000x1_S250000_n_0_0_1
    (broadcastInDim S50000 ![] bcast_S_S50000 (constant S_ .f32 0x00000000#32))
    (broadcastInDim S250000x1 ![0] bcast_S250000_S250000x1_0 l) ones

/-- A count clipped below at one. -/
def clipK (one : (⟨S_, .f32⟩ : BufTy).Contents (Elt F)) (n : (⟨S50000, .f32⟩ : BufTy).Contents (Elt F)) :
    (⟨S50000, .f32⟩ : BufTy).Contents (Elt F) :=
  maximumf (broadcastInDim S50000 ![] bcast_S_S50000 (id one)) n

/-- One relation's aggregate: the features scaled by the inverse square root of the source degree, gathered along the
    source list (negative entries wrapped), added up at the target list, scaled by the inverse square root of the
    target degree. -/
def aggK (x0 : (⟨S50000x256, .f32⟩ : BufTy).Contents (Elt F))
    (src dst : (⟨S250000, .i32⟩ : BufTy).Contents (Elt F))
    (dsrc ddst : (⟨S50000, .f32⟩ : BufTy).Contents (Elt F)) : (⟨S50000x256, .f32⟩ : BufTy).Contents (Elt F) :=
  mulf
    (Host.scatterAdd scatter_S50000x256_S250000x1_S250000x256_1_0_0_1
      (broadcastInDim S50000x256 ![] bcast_S_S50000x256 (constant S_ .f32 0x00000000#32))
      (broadcastInDim S250000x1 ![0] bcast_S250000_S250000x1_0 dst)
      (Host.gather gather_S50000x256_S250000x1_S250000x256_1_0_n_n_0_1_1256
        (mulf x0 (broadcastInDim S50000x256 ![0, 1] bcast_S50000x1_S50000x256_0_1
          (broadcastInDim S50000x1 ![0] bcast_S50000_S50000x1_0 (Host.rsqrt dsrc))))
        (broadcastInDim S250000x1 ![0] bcast_S250000_S250000x1_0
          (select (cmpi .slt src (broadcastInDim S250000 ![] bcast_S_S250000 (constantI S_ 32 0#32)))
            (addi src (broadcastInDim S250000 ![] bcast_S_S250000 (constantI S_ 32 50000#32))) src))))
    (broadcastInDim S50000x256 ![0, 1] bcast_S50000x1_S50000x256_0_1
      (broadcastInDim S50000x1 ![0] bcast_S50000_S50000x1_0 (Host.rsqrt ddst)))

variable (W : Valuation τ sig (Elt F))

/-! ### Relation 0's lists, the ones, its source count; then the clipped source degree -/

theorem s0_v1 : (StableHlo.after hostOps0 W (Proc.devRef .tc main_v1) : (⟨S250000, .i32⟩ : BufTy).Contents (Elt F))
    = nodesK ![0, 0, 0, 0] slices_S2x3x2x250000_S1x1x1x250000_0_0_0_0 (W (Proc.devRef .tc main_arg5)) := by
  host_results; rfl
theorem s0_v3 : (StableHlo.after hostOps0 W (Proc.devRef .tc main_v3) : (⟨S250000, .i32⟩ : BufTy).Contents (Elt F))
    = nodesK ![0, 0, 1, 0] slices_S2x3x2x250000_S1x1x1x250000_0_0_1_0 (W (Proc.devRef .tc main_arg5)) := by
  host_results; rfl
theorem s0_v4 : (StableHlo.after hostOps0 W (Proc.devRef .tc main_v4) : (⟨S250000, .f32⟩ : BufTy).Contents (Elt F))
    = onesK := by
  host_results; rfl
theorem s0_v7 : (StableHlo.after hostOps0 W (Proc.devRef .tc main_v7) : (⟨S50000, .f32⟩ : BufTy).Contents (Elt F))
    = countK (nodesK ![0, 0, 0, 0] slices_S2x3x2x250000_S1x1x1x250000_0_0_0_0 (W (Proc.devRef .tc main_arg5))) onesK := by
  host_results; rfl
theorem s0_cst_1 : (StableHlo.after hostOps0 W (Proc.devRef .tc main_cst_1) : (⟨S_, .f32⟩ : BufTy).Contents (Elt F))
    = oneK := by
  host_results; rfl
theorem s1_v8 : (StableHlo.after hostOps0_1 W (Proc.devRef .tc main_v8) : (⟨S50000, .f32⟩ : BufTy).Contents (Elt F))
    = clipK (W (Proc.devRef .tc main_cst_1)) (W (Proc.devRef .tc main_v7)) := by
  host_results; rfl

/-! ### Relation 0's target count and clipped target degree -/

theorem s2_v11 : (StableHlo.after hostOps0_2 W (Proc.devRef .tc main_v11) : (⟨S50000, .f32⟩ : BufTy).Contents (Elt F))
    = countK (W (Proc.devRef .tc main_v3)) (W (Proc.devRef .tc main_v4)) := by
  host_results; rfl
theorem s2_cst_3 : (StableHlo.after hostOps0_2 W (Proc.devRef .tc main_cst_3) : (⟨S_, .f32⟩ : BufTy).Contents (Elt F))
    = oneK := by
  host_results; rfl
theorem s3_v12 : (StableHlo.after hostOps0_3 W (Proc.devRef .tc main_v12) : (⟨S50000, .f32⟩ : BufTy).Contents (Elt F))
    = clipK (W (Proc.devRef .tc main_cst_3)) (W (Proc.devRef .tc main_v11)) := by
  host_results; rfl

/-! ### Relation 0's aggregate; relation 1's lists, ones and source count -/

theorem s4_v30 : (StableHlo.after hostOps0_4 W (Proc.devRef .tc main_v30) : (⟨S50000x256, .f32⟩ : BufTy).Contents (Elt F))
    = aggK (W (Proc.devRef .tc main_arg0)) (W (Proc.devRef .tc main_v1)) (W (Proc.devRef .tc main_v3)) (W (Proc.devRef .tc main_v8)) (W (Proc.devRef .tc main_v12)) := by
  host_results; rfl
theorem s4_v32 : (StableHlo.after hostOps0_4 W (Proc.devRef .tc main_v32) : (⟨S250000, .i32⟩ : BufTy).Contents (Elt F))
    = nodesK ![0, 1, 0, 0] slices_S2x3x2x250000_S1x1x1x250000_0_1_0_0 (W (Proc.devRef .tc main_arg5)) := by
  host_results; rfl
theorem s4_v34 : (StableHlo.after hostOps0_4 W (Proc.devRef .tc main_v34) : (⟨S250000, .i32⟩ : BufTy).Contents (Elt F))
    = nodesK ![0, 1, 1, 0] slices_S2x3x2x250000_S1x1x1x250000_0_1_1_0 (W (Proc.devRef .tc main_arg5)) := by
  host_results; rfl
theorem s4_v35 : (StableHlo.after hostOps0_4 W (Proc.devRef .tc main_v35) : (⟨S250000, .f32⟩ : BufTy).Contents (Elt F))
    = onesK := by
  host_results; rfl
theorem s4_v38 : (StableHlo.after hostOps0_4 W (Proc.devRef .tc main_v38) : (⟨S50000, .f32⟩ : BufTy).Contents (Elt F))
    = countK (nodesK ![0, 1, 0, 0] slices_S2x3x2x250000_S1x1x1x250000_0_1_0_0 (W (Proc.devRef .tc main_arg5))) onesK := by
  host_results; rfl
theorem s4_cst_8 : (StableHlo.after hostOps0_4 W (Proc.devRef .tc main_cst_8) : (⟨S_, .f32⟩ : BufTy).Contents (Elt F))
    = oneK := by
  host_results; rfl
theorem s5_v39 : (StableHlo.after hostOps0_5 W (Proc.devRef .tc main_v39) : (⟨S50000, .f32⟩ : BufTy).Contents (Elt F))
    = clipK (W (Proc.devRef .tc main_cst_8)) (W (Proc.devRef .tc main_v38)) := by
  host_results; rfl

/-! ### Relation 1's target count and clipped target degree -/

theorem s6_v42 : (StableHlo.after hostOps0_6 W (Proc.devRef .tc main_v42) : (⟨S50000, .f32⟩ : BufTy).Contents (Elt F))
    = countK (W (Proc.devRef .tc main_v34)) (W (Proc.devRef .tc main_v35)) := by
  host_results; rfl
theorem s6_cst_10 : (StableHlo.after hostOps0_6 W (Proc.devRef .tc main_cst_10) : (⟨S_, .f32⟩ : BufTy).Contents (Elt F))
    = oneK := by
  host_results; rfl
theorem s7_v43 : (StableHlo.after hostOps0_7 W (Proc.devRef .tc main_v43) : (⟨S50000, .f32⟩ : BufTy).Contents (Elt F))
    = clipK (W (Proc.devRef .tc main_cst_10)) (W (Proc.devRef .tc main_v42)) := by
  host_results; rfl

/-! ### Relation 1's aggregate; relation 2's lists, ones and source count -/

theorem s8_v61 : (StableHlo.after hostOps0_8 W (Proc.devRef .tc main_v61) : (⟨S50000x256, .f32⟩ : BufTy).Contents (Elt F))
    = aggK (W (Proc.devRef .tc main_arg0)) (W (Proc.devRef .tc main_v32)) (W (Proc.devRef .tc main_v34)) (W (Proc.devRef .tc main_v39)) (W (Proc.devRef .tc main_v43)) := by
  host_results; rfl
theorem s8_v63 : (StableHlo.after hostOps0_8 W (Proc.devRef .tc main_v63) : (⟨S250000, .i32⟩ : BufTy).Contents (Elt F))
    = nodesK ![0, 2, 0, 0] slices_S2x3x2x250000_S1x1x1x250000_0_2_0_0 (W (Proc.devRef .tc main_arg5)) := by
  host_results; rfl
theorem s8_v65 : (StableHlo.after hostOps0_8 W (Proc.devRef .tc main_v65) : (⟨S250000, .i32⟩ : BufTy).Contents (Elt F))
    = nodesK ![0, 2, 1, 0] slices_S2x3x2x250000_S1x1x1x250000_0_2_1_0 (W (Proc.devRef .tc main_arg5)) := by
  host_results; rfl
theorem s8_v66 : (StableHlo.after hostOps0_8 W (Proc.devRef .tc main_v66) : (⟨S250000, .f32⟩ : BufTy).Contents (Elt F))
    = onesK := by
  host_results; rfl
theorem s8_v69 : (StableHlo.after hostOps0_8 W (Proc.devRef .tc main_v69) : (⟨S50000, .f32⟩ : BufTy).Contents (Elt F))
    = countK (nodesK ![0, 2, 0, 0] slices_S2x3x2x250000_S1x1x1x250000_0_2_0_0 (W (Proc.devRef .tc main_arg5))) onesK := by
  host_results; rfl
theorem s8_cst_16 : (StableHlo.after hostOps0_8 W (Proc.devRef .tc main_cst_16) : (⟨S_, .f32⟩ : BufTy).Contents (Elt F))
    = oneK := by
  host_results; rfl
theorem s9_v70 : (StableHlo.after hostOps0_9 W (Proc.devRef .tc main_v70) : (⟨S50000, .f32⟩ : BufTy).Contents (Elt F))
    = clipK (W (Proc.devRef .tc main_cst_16)) (W (Proc.devRef .tc main_v69)) := by
  host_results; rfl

/-! ### Relation 2's target count and clipped target degree -/

theorem s10_v73 : (StableHlo.after hostOps0_10 W (Proc.devRef .tc main_v73) : (⟨S50000, .f32⟩ : BufTy).Contents (Elt F))
    = countK (W (Proc.devRef .tc main_v65)) (W (Proc.devRef .tc main_v66)) := by
  host_results; rfl
theorem s10_cst_18 : (StableHlo.after hostOps0_10 W (Proc.devRef .tc main_cst_18) : (⟨S_, .f32⟩ : BufTy).Contents (Elt F))
    = oneK := by
  host_results; rfl
theorem s11_v74 : (StableHlo.after hostOps0_11 W (Proc.devRef .tc main_v74) : (⟨S50000, .f32⟩ : BufTy).Contents (Elt F))
    = clipK (W (Proc.devRef .tc main_cst_18)) (W (Proc.devRef .tc main_v73)) := by
  host_results; rfl

/-! ### Relation 2's aggregate and the three aggregates stacked -/

theorem s12_v96 : (StableHlo.after hostOps0_12 W (Proc.devRef .tc main_v96) : (⟨S3x50000x256, .f32⟩ : BufTy).Contents (Elt F))
    = Stg.stackK (W (Proc.devRef .tc main_v30)) (W (Proc.devRef .tc main_v61))
        (aggK (W (Proc.devRef .tc main_arg0)) (W (Proc.devRef .tc main_v63)) (W (Proc.devRef .tc main_v65)) (W (Proc.devRef .tc main_v70)) (W (Proc.devRef .tc main_v74))) := by
  host_results; rfl

/-- The clipped number of occurrences of each node in a list. -/
def degK (l : (⟨S250000, .i32⟩ : BufTy).Contents (Elt F)) : (⟨S50000, .f32⟩ : BufTy).Contents (Elt F) :=
  clipK oneK (countK l onesK)

/-- One relation's aggregate as a function of the features and the relation's two lists. -/
def relK (x0 : (⟨S50000x256, .f32⟩ : BufTy).Contents (Elt F)) (src dst : (⟨S250000, .i32⟩ : BufTy).Contents (Elt F)) :
    (⟨S50000x256, .f32⟩ : BufTy).Contents (Elt F) :=
  aggK x0 src dst (degK src) (degK dst)

end Closed

/-! ## The stretches chained from the launch contents -/

section Chain

variable (m : (ℓ : Loc nD τ sig) → Buf (Elt Ideal) ℓ) (c : Dev nD)

/-- The features as launched. -/
abbrev featK : (⟨S50000x256, .f32⟩ : BufTy).Contents (Elt Ideal) := m ((c.tc : Thread nD τ).loc main_arg0)
/-- The edge array as launched. -/
abbrev edgesK : (⟨S2x3x2x250000, .i32⟩ : BufTy).Contents (Elt Ideal) := m ((c.tc : Thread nD τ).loc main_arg5)

theorem V4_arg0 : V4 m c main_arg0 = featK m c :=
  (V4_of m c main_arg0 (by decide)).trans <| (V3_of m c main_arg0 (by decide)).trans <| (V2_of m c main_arg0 (by decide)).trans <| (V1_of m c main_arg0 (by decide)).trans <| rfl
theorem V8_arg0 : V8 m c main_arg0 = featK m c :=
  (V8_of m c main_arg0 (by decide)).trans <| (V7_of m c main_arg0 (by decide)).trans <| (V6_of m c main_arg0 (by decide)).trans <| (V5_of m c main_arg0 (by decide)).trans <| V4_arg0 m c
theorem V12_arg0 : V12 m c main_arg0 = featK m c :=
  (V12_of m c main_arg0 (by decide)).trans <| (V11_of m c main_arg0 (by decide)).trans <| (V10_of m c main_arg0 (by decide)).trans <| (V9_of m c main_arg0 (by decide)).trans <| V8_arg0 m c
theorem V4_arg5 : V4 m c main_arg5 = edgesK m c :=
  (V4_of m c main_arg5 (by decide)).trans <| (V3_of m c main_arg5 (by decide)).trans <| (V2_of m c main_arg5 (by decide)).trans <| (V1_of m c main_arg5 (by decide)).trans <| rfl
theorem V8_arg5 : V8 m c main_arg5 = edgesK m c :=
  (V8_of m c main_arg5 (by decide)).trans <| (V7_of m c main_arg5 (by decide)).trans <| (V6_of m c main_arg5 (by decide)).trans <| (V5_of m c main_arg5 (by decide)).trans <| V4_arg5 m c

/-! ### Relation 0 -/

theorem c_v1 : (V1 m c main_v1 : (⟨S250000, .i32⟩ : BufTy).Contents (Elt Ideal)) = nodesK ![0, 0, 0, 0] slices_S2x3x2x250000_S1x1x1x250000_0_0_0_0 (edgesK m c) := s0_v1 (V0 m c)
theorem c_v3 : (V1 m c main_v3 : (⟨S250000, .i32⟩ : BufTy).Contents (Elt Ideal)) = nodesK ![0, 0, 1, 0] slices_S2x3x2x250000_S1x1x1x250000_0_0_1_0 (edgesK m c) := s0_v3 (V0 m c)
theorem c_v4 : (V1 m c main_v4 : (⟨S250000, .f32⟩ : BufTy).Contents (Elt Ideal)) = onesK := s0_v4 (V0 m c)
theorem c_v7 : (V1 m c main_v7 : (⟨S50000, .f32⟩ : BufTy).Contents (Elt Ideal)) = countK (nodesK ![0, 0, 0, 0] slices_S2x3x2x250000_S1x1x1x250000_0_0_0_0 (edgesK m c)) onesK := s0_v7 (V0 m c)
theorem c_cst_1 : (V1 m c main_cst_1 : (⟨S_, .f32⟩ : BufTy).Contents (Elt Ideal)) = oneK := s0_cst_1 (V0 m c)
theorem c_v8 : (V2 m c main_v8 : (⟨S50000, .f32⟩ : BufTy).Contents (Elt Ideal)) = degK (nodesK ![0, 0, 0, 0] slices_S2x3x2x250000_S1x1x1x250000_0_0_0_0 (edgesK m c)) :=
  (s1_v8 (V1 m c)).trans (by rw [c_cst_1, c_v7]; rfl)
theorem c_v11 : (V3 m c main_v11 : (⟨S50000, .f32⟩ : BufTy).Contents (Elt Ideal)) = countK (nodesK ![0, 0, 1, 0] slices_S2x3x2x250000_S1x1x1x250000_0_0_1_0 (edgesK m c)) onesK :=
  (s2_v11 (V2 m c)).trans (by rw [V2_of m c main_v3 (by decide), V2_of m c main_v4 (by decide), c_v3, c_v4])
theorem c_cst_3 : (V3 m c main_cst_3 : (⟨S_, .f32⟩ : BufTy).Contents (Elt Ideal)) = oneK := s2_cst_3 (V2 m c)
theorem c_v12 : (V4 m c main_v12 : (⟨S50000, .f32⟩ : BufTy).Contents (Elt Ideal)) = degK (nodesK ![0, 0, 1, 0] slices_S2x3x2x250000_S1x1x1x250000_0_0_1_0 (edgesK m c)) :=
  (s3_v12 (V3 m c)).trans (by rw [c_cst_3, c_v11]; rfl)
theorem c_v30 : (V5 m c main_v30 : (⟨S50000x256, .f32⟩ : BufTy).Contents (Elt Ideal)) = relK (featK m c) (nodesK ![0, 0, 0, 0] slices_S2x3x2x250000_S1x1x1x250000_0_0_0_0 (edgesK m c)) (nodesK ![0, 0, 1, 0] slices_S2x3x2x250000_S1x1x1x250000_0_0_1_0 (edgesK m c)) :=
  (s4_v30 (V4 m c)).trans (by
    rw [V4_arg0,
      show V4 m c main_v1 = _ from (V4_of m c main_v1 (by decide)).trans <| (V3_of m c main_v1 (by decide)).trans <| (V2_of m c main_v1 (by decide)).trans <| c_v1 m c,
      show V4 m c main_v3 = _ from (V4_of m c main_v3 (by decide)).trans <| (V3_of m c main_v3 (by decide)).trans <| (V2_of m c main_v3 (by decide)).trans <| c_v3 m c,
      show V4 m c main_v8 = _ from (V4_of m c main_v8 (by decide)).trans <| (V3_of m c main_v8 (by decide)).trans <| c_v8 m c,
      c_v12]; rfl)

/-! ### Relation 1 -/

theorem c_v32 : (V5 m c main_v32 : (⟨S250000, .i32⟩ : BufTy).Contents (Elt Ideal)) = nodesK ![0, 1, 0, 0] slices_S2x3x2x250000_S1x1x1x250000_0_1_0_0 (edgesK m c) :=
  (s4_v32 (V4 m c)).trans (by rw [V4_arg5])
theorem c_v34 : (V5 m c main_v34 : (⟨S250000, .i32⟩ : BufTy).Contents (Elt Ideal)) = nodesK ![0, 1, 1, 0] slices_S2x3x2x250000_S1x1x1x250000_0_1_1_0 (edgesK m c) :=
  (s4_v34 (V4 m c)).trans (by rw [V4_arg5])
theorem c_v35 : (V5 m c main_v35 : (⟨S250000, .f32⟩ : BufTy).Contents (Elt Ideal)) = onesK := s4_v35 (V4 m c)
theorem c_v38 : (V5 m c main_v38 : (⟨S50000, .f32⟩ : BufTy).Contents (Elt Ideal)) = countK (nodesK ![0, 1, 0, 0] slices_S2x3x2x250000_S1x1x1x250000_0_1_0_0 (edgesK m c)) onesK :=
  (s4_v38 (V4 m c)).trans (by rw [V4_arg5])
theorem c_cst_8 : (V5 m c main_cst_8 : (⟨S_, .f32⟩ : BufTy).Contents (Elt Ideal)) = oneK := s4_cst_8 (V4 m c)
theorem c_v39 : (V6 m c main_v39 : (⟨S50000, .f32⟩ : BufTy).Contents (Elt Ideal)) = degK (nodesK ![0, 1, 0, 0] slices_S2x3x2x250000_S1x1x1x250000_0_1_0_0 (edgesK m c)) :=
  (s5_v39 (V5 m c)).trans (by rw [c_cst_8, c_v38]; rfl)
theorem c_v42 : (V7 m c main_v42 : (⟨S50000, .f32⟩ : BufTy).Contents (Elt Ideal)) = countK (nodesK ![0, 1, 1, 0] slices_S2x3x2x250000_S1x1x1x250000_0_1_1_0 (edgesK m c)) onesK :=
  (s6_v42 (V6 m c)).trans (by rw [V6_of m c main_v34 (by decide), V6_of m c main_v35 (by decide), c_v34, c_v35])
theorem c_cst_10 : (V7 m c main_cst_10 : (⟨S_, .f32⟩ : BufTy).Contents (Elt Ideal)) = oneK := s6_cst_10 (V6 m c)
theorem c_v43 : (V8 m c main_v43 : (⟨S50000, .f32⟩ : BufTy).Contents (Elt Ideal)) = degK (nodesK ![0, 1, 1, 0] slices_S2x3x2x250000_S1x1x1x250000_0_1_1_0 (edgesK m c)) :=
  (s7_v43 (V7 m c)).trans (by rw [c_cst_10, c_v42]; rfl)
theorem c_v61 : (V9 m c main_v61 : (⟨S50000x256, .f32⟩ : BufTy).Contents (Elt Ideal)) = relK (featK m c) (nodesK ![0, 1, 0, 0] slices_S2x3x2x250000_S1x1x1x250000_0_1_0_0 (edgesK m c)) (nodesK ![0, 1, 1, 0] slices_S2x3x2x250000_S1x1x1x250000_0_1_1_0 (edgesK m c)) :=
  (s8_v61 (V8 m c)).trans (by
    rw [V8_arg0,
      show V8 m c main_v32 = _ from (V8_of m c main_v32 (by decide)).trans <| (V7_of m c main_v32 (by decide)).trans <| (V6_of m c main_v32 (by decide)).trans <| c_v32 m c,
      show V8 m c main_v34 = _ from (V8_of m c main_v34 (by decide)).trans <| (V7_of m c main_v34 (by decide)).trans <| (V6_of m c main_v34 (by decide)).trans <| c_v34 m c,
      show V8 m c main_v39 = _ from (V8_of m c main_v39 (by decide)).trans <| (V7_of m c main_v39 (by decide)).trans <| c_v39 m c,
      c_v43]; rfl)

/-! ### Relation 2 and the stack -/

theorem c_v63 : (V9 m c main_v63 : (⟨S250000, .i32⟩ : BufTy).Contents (Elt Ideal)) = nodesK ![0, 2, 0, 0] slices_S2x3x2x250000_S1x1x1x250000_0_2_0_0 (edgesK m c) :=
  (s8_v63 (V8 m c)).trans (by rw [V8_arg5])
theorem c_v65 : (V9 m c main_v65 : (⟨S250000, .i32⟩ : BufTy).Contents (Elt Ideal)) = nodesK ![0, 2, 1, 0] slices_S2x3x2x250000_S1x1x1x250000_0_2_1_0 (edgesK m c) :=
  (s8_v65 (V8 m c)).trans (by rw [V8_arg5])
theorem c_v66 : (V9 m c main_v66 : (⟨S250000, .f32⟩ : BufTy).Contents (Elt Ideal)) = onesK := s8_v66 (V8 m c)
theorem c_v69 : (V9 m c main_v69 : (⟨S50000, .f32⟩ : BufTy).Contents (Elt Ideal)) = countK (nodesK ![0, 2, 0, 0] slices_S2x3x2x250000_S1x1x1x250000_0_2_0_0 (edgesK m c)) onesK :=
  (s8_v69 (V8 m c)).trans (by rw [V8_arg5])
theorem c_cst_16 : (V9 m c main_cst_16 : (⟨S_, .f32⟩ : BufTy).Contents (Elt Ideal)) = oneK := s8_cst_16 (V8 m c)
theorem c_v70 : (V10 m c main_v70 : (⟨S50000, .f32⟩ : BufTy).Contents (Elt Ideal)) = degK (nodesK ![0, 2, 0, 0] slices_S2x3x2x250000_S1x1x1x250000_0_2_0_0 (edgesK m c)) :=
  (s9_v70 (V9 m c)).trans (by rw [c_cst_16, c_v69]; rfl)
theorem c_v73 : (V11 m c main_v73 : (⟨S50000, .f32⟩ : BufTy).Contents (Elt Ideal)) = countK (nodesK ![0, 2, 1, 0] slices_S2x3x2x250000_S1x1x1x250000_0_2_1_0 (edgesK m c)) onesK :=
  (s10_v73 (V10 m c)).trans (by rw [V10_of m c main_v65 (by decide), V10_of m c main_v66 (by decide), c_v65, c_v66])
theorem c_cst_18 : (V11 m c main_cst_18 : (⟨S_, .f32⟩ : BufTy).Contents (Elt Ideal)) = oneK := s10_cst_18 (V10 m c)
theorem c_v74 : (V12 m c main_v74 : (⟨S50000, .f32⟩ : BufTy).Contents (Elt Ideal)) = degK (nodesK ![0, 2, 1, 0] slices_S2x3x2x250000_S1x1x1x250000_0_2_1_0 (edgesK m c)) :=
  (s11_v74 (V11 m c)).trans (by rw [c_cst_18, c_v73]; rfl)

/-- The stacked operand of the first layer kernel: the three relations' aggregates of the launched features. -/
theorem c_v96 : (V13 m c main_v96 : (⟨S3x50000x256, .f32⟩ : BufTy).Contents (Elt Ideal))
    = Stg.stackK (relK (featK m c) (nodesK ![0, 0, 0, 0] slices_S2x3x2x250000_S1x1x1x250000_0_0_0_0 (edgesK m c)) (nodesK ![0, 0, 1, 0] slices_S2x3x2x250000_S1x1x1x250000_0_0_1_0 (edgesK m c))) (relK (featK m c) (nodesK ![0, 1, 0, 0] slices_S2x3x2x250000_S1x1x1x250000_0_1_0_0 (edgesK m c)) (nodesK ![0, 1, 1, 0] slices_S2x3x2x250000_S1x1x1x250000_0_1_1_0 (edgesK m c)))
        (relK (featK m c) (nodesK ![0, 2, 0, 0] slices_S2x3x2x250000_S1x1x1x250000_0_2_0_0 (edgesK m c)) (nodesK ![0, 2, 1, 0] slices_S2x3x2x250000_S1x1x1x250000_0_2_1_0 (edgesK m c))) :=
  (s12_v96 (V12 m c)).trans (by
    rw [V12_arg0,
      show V12 m c main_v30 = _ from (V12_of m c main_v30 (by decide)).trans <| (V11_of m c main_v30 (by decide)).trans <| (V10_of m c main_v30 (by decide)).trans <| (V9_of m c main_v30 (by decide)).trans <| (V8_of m c main_v30 (by decide)).trans <| (V7_of m c main_v30 (by decide)).trans <| (V6_of m c main_v30 (by decide)).trans <| c_v30 m c,
      show V12 m c main_v61 = _ from (V12_of m c main_v61 (by decide)).trans <| (V11_of m c main_v61 (by decide)).trans <| (V10_of m c main_v61 (by decide)).trans <| c_v61 m c,
      show V12 m c main_v63 = _ from (V12_of m c main_v63 (by decide)).trans <| (V11_of m c main_v63 (by decide)).trans <| (V10_of m c main_v63 (by decide)).trans <| c_v63 m c,
      show V12 m c main_v65 = _ from (V12_of m c main_v65 (by decide)).trans <| (V11_of m c main_v65 (by decide)).trans <| (V10_of m c main_v65 (by decide)).trans <| c_v65 m c,
      show V12 m c main_v70 = _ from (V12_of m c main_v70 (by decide)).trans <| (V11_of m c main_v70 (by decide)).trans <| c_v70 m c,
      c_v74]; rfl)

end Chain

/-! ## The aggregates are the reference's -/

section Same

variable {F : FTy → Type} [FloatOps F] [Named F]
variable (x0 : (⟨S50000x256, .f32⟩ : BufTy).Contents (Elt F)) (x5 : (⟨S2x3x2x250000, .i32⟩ : BufTy).Contents (Elt F))

/-- Relation 0's aggregate is the reference's: the same operations in the same order. -/
theorem rel0_eq : relK x0 (nodesK ![0, 0, 0, 0] slices_S2x3x2x250000_S1x1x1x250000_0_0_0_0 x5) (nodesK ![0, 0, 1, 0] slices_S2x3x2x250000_S1x1x1x250000_0_0_1_0 x5)
    = Cert.ReferenceIdeal.ReadP.val_main_v34 (F := F) x0 x5 := rfl
/-- Relation 1's aggregate is the reference's. -/
theorem rel1_eq : relK x0 (nodesK ![0, 1, 0, 0] slices_S2x3x2x250000_S1x1x1x250000_0_1_0_0 x5) (nodesK ![0, 1, 1, 0] slices_S2x3x2x250000_S1x1x1x250000_0_1_1_0 x5)
    = Cert.ReferenceIdeal.ReadP.val_main_v73 (F := F) x0 x5 := rfl
/-- Relation 2's aggregate is the reference's. -/
theorem rel2_eq : relK x0 (nodesK ![0, 2, 0, 0] slices_S2x3x2x250000_S1x1x1x250000_0_2_0_0 x5) (nodesK ![0, 2, 1, 0] slices_S2x3x2x250000_S1x1x1x250000_0_2_1_0 x5)
    = Cert.ReferenceIdeal.ReadP.val_main_v112 (F := F) x0 x5 := rfl

end Same

/-! ## The three operands of the first layer kernel -/

variable (m : (ℓ : Loc nD τ sig) → Buf (Elt Ideal) ℓ)

/-- The stacked operand: the reference's three layer-0 aggregates, one slab each. -/
theorem host0_stack (c : Dev nD) : (V13 m c main_v96 : FVec Ideal S3x50000x256 .f32) =
    Stg.stackK (F := Ideal)
      (Cert.ReferenceIdeal.ReadP.val_main_v34 (F := Ideal) (m ((c.tc : Thread nD τ).loc main_arg0)) (m ((c.tc : Thread nD τ).loc main_arg5)))
      (Cert.ReferenceIdeal.ReadP.val_main_v73 (F := Ideal) (m ((c.tc : Thread nD τ).loc main_arg0)) (m ((c.tc : Thread nD τ).loc main_arg5)))
      (Cert.ReferenceIdeal.ReadP.val_main_v112 (F := Ideal) (m ((c.tc : Thread nD τ).loc main_arg0)) (m ((c.tc : Thread nD τ).loc main_arg5))) :=
  (c_v96 m c).trans (by rw [rel0_eq, rel1_eq, rel2_eq])

/-- The weight operand: layer 0's slab of the weight array. -/
theorem host0_ws (c : Dev nD) : (V13 m c main_v98 : FVec Ideal S3x256x256 .f32) = Stg.wsK0 (F := Ideal) (m ((c.tc : Thread nD τ).loc main_arg1)) := by
  show StableHlo.after hostOps0_12 (V12 m c) (Proc.devRef .tc main_v98) = _
  after_results
  rfl

/-- The bias operand: layer 0's slab of the bias array. -/
theorem host0_bs (c : Dev nD) : (V13 m c main_v100 : FVec Ideal S3x256 .f32) = Stg.bsK0 (F := Ideal) (m ((c.tc : Thread nD τ).loc main_arg2)) := by
  show StableHlo.after hostOps0_12 (V12 m c) (Proc.devRef .tc main_v100) = _
  after_results
  rfl

end Cert.KernelIdeal.Val
end
-- ==== Proof.KIHost1.lean ====
/-
  What the host operations between the first and the second layer kernel, and before the projection kernel, leave
  in those kernels' operand arrays.

  The second layer's stacked [3, 50000, 256] operand holds, slab by slab, the three relations' degree-normalised
  aggregates of the first layer's result h: h is scaled row by row by the inverse square root of the clipped source
  degree, gathered along the relation's source list, added up at its target list, and scaled by the inverse square
  root of the clipped target degree; a degree is the number of occurrences of a node in a list, clipped below at one.
  The lists are layer 1's rows of the edge array. The reference computes each aggregate by the same chain of
  operations applied to its own first-layer result, so once the two first-layer results agree the closed terms
  coincide. The weight and bias operands are layer 1's slabs of the weight and bias arrays; the projection kernel
  reads the second layer's result as the layer kernel left it, the projection matrix as launched, and the output bias
  as a one-row matrix.
-/
import proofs.«159030_j5789615915676_1_alg».proof.Proof.Gen.KernelIdeal.Regions
import proofs.«159030_j5789615915676_1_alg».proof.Proof.KIStages
import proofs.«159030_j5789615915676_1_alg».proof.Proof.RefRead
import proofs.«159030_j5789615915676_1_alg».proof.Proof.LibNaryThree

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

namespace L1

/-- The contents a stretch of host operations leaves, by one simplifier pass: each operation's result at its own
    buffer is its function of the operands' contents, and any other buffer is as it was. -/
macro "host1_results" : tactic =>
  `(tactic| (simp (disch := decide) only [after_cons, after_nil,
      nullary_result', unary_result', binary_result', ternary_result', reshape_result', Cert.LibNaryThree.nary3_result',
      nullary_result_ne', unary_result_ne', binary_result_ne', ternary_result_ne', reshape_result_ne', nary_result_ne']))

section Closed

variable {F : FTy → Type} [FloatOps F] [Named F]

/-- One [250000] list of node numbers: the row of the edge array at the given first three coordinates. -/
def nodesK (o : Fin S2x3x2x250000.rank → Nat) (h : S2x3x2x250000.Slices o S1x1x1x250000)
    (x5 : (⟨S2x3x2x250000, .i32⟩ : BufTy).Contents (Elt F)) : (⟨S250000, .i32⟩ : BufTy).Contents (Elt F) :=
  shapeCast _ (extractStridedSlice S1x1x1x250000 o x5 h) shapeCasts_S1x1x1x250000_S250000

/-- The scalar one. -/
def oneK : (⟨S_, .f32⟩ : BufTy).Contents (Elt F) := constant S_ .f32 0x3F800000#32

/-- 250000 ones. -/
def onesK : (⟨S250000, .f32⟩ : BufTy).Contents (Elt F) :=
  broadcastInDim S250000 ![] bcast_S_S250000 (constant S_ .f32 0x3F800000#32)

/-- How often each of the 50000 nodes occurs in a list: ones added into zeros at the list's entries. -/
def countK (l : (⟨S250000, .i32⟩ : BufTy).Contents (Elt F)) (ones : (⟨S250000, .f32⟩ : BufTy).Contents (Elt F)) :
    (⟨S50000, .f32⟩ : BufTy).Contents (Elt F) :=
  Host.scatterAdd scatter_S50000_S250000x1_S250000_n_0_0_1
    (broadcastInDim S50000 ![] bcast_S_S50000 (constant S_ .f32 0x00000000#32))
    (broadcastInDim S250000x1 ![0] bcast_S250000_S250000x1_0 l) ones

/-- A count clipped below at one. -/
def clipK (one : (⟨S_, .f32⟩ : BufTy).Contents (Elt F)) (n : (⟨S50000, .f32⟩ : BufTy).Contents (Elt F)) :
    (⟨S50000, .f32⟩ : BufTy).Contents (Elt F) :=
  maximumf (broadcastInDim S50000 ![] bcast_S_S50000 (id one)) n

/-- One relation's aggregate of a [50000, 256] array h: h scaled by the inverse square root of the source degree,
    gathered along the source list (negative entries wrapped), added up at the target list, scaled by the inverse
    square root of the target degree. -/
def aggK (h : (⟨S50000x256, .f32⟩ : BufTy).Contents (Elt F))
    (src dst : (⟨S250000, .i32⟩ : BufTy).Contents (Elt F))
    (dsrc ddst : (⟨S50000, .f32⟩ : BufTy).Contents (Elt F)) : (⟨S50000x256, .f32⟩ : BufTy).Contents (Elt F) :=
  mulf
    (Host.scatterAdd scatter_S50000x256_S250000x1_S250000x256_1_0_0_1
      (broadcastInDim S50000x256 ![] bcast_S_S50000x256 (constant S_ .f32 0x00000000#32))
      (broadcastInDim S250000x1 ![0] bcast_S250000_S250000x1_0 dst)
      (Host.gather gather_S50000x256_S250000x1_S250000x256_1_0_n_n_0_1_1256
        (mulf h (broadcastInDim S50000x256 ![0, 1] bcast_S50000x1_S50000x256_0_1
          (broadcastInDim S50000x1 ![0] bcast_S50000_S50000x1_0 (Host.rsqrt dsrc))))
        (broadcastInDim S250000x1 ![0] bcast_S250000_S250000x1_0
          (select (cmpi .slt src (broadcastInDim S250000 ![] bcast_S_S250000 (constantI S_ 32 0#32)))
            (addi src (broadcastInDim S250000 ![] bcast_S_S250000 (constantI S_ 32 50000#32))) src))))
    (broadcastInDim S50000x256 ![0, 1] bcast_S50000x1_S50000x256_0_1
      (broadcastInDim S50000x1 ![0] bcast_S50000_S50000x1_0 (Host.rsqrt ddst)))

/-- The clipped number of occurrences of each node in a list. -/
def degK (l : (⟨S250000, .i32⟩ : BufTy).Contents (Elt F)) : (⟨S50000, .f32⟩ : BufTy).Contents (Elt F) :=
  clipK oneK (countK l onesK)

/-- One relation's aggregate as a function of the array and the relation's two lists. -/
def relK (h : (⟨S50000x256, .f32⟩ : BufTy).Contents (Elt F)) (src dst : (⟨S250000, .i32⟩ : BufTy).Contents (Elt F)) :
    (⟨S50000x256, .f32⟩ : BufTy).Contents (Elt F) :=
  aggK h src dst (degK src) (degK dst)

variable (W : Valuation τ sig (Elt F))

/-! ### Relation 0: its two lists, the ones, its source count; the clipped source degree; the target count and clipped target degree; the aggregate -/

theorem t14_v103 : (StableHlo.after hostOps1 W (Proc.devRef .tc main_v103) : (⟨S250000, .i32⟩ : BufTy).Contents (Elt F))
    = nodesK ![1, 0, 0, 0] slices_S2x3x2x250000_S1x1x1x250000_1_0_0_0 (W (Proc.devRef .tc main_arg5)) := by
  host1_results; rfl
theorem t14_v105 : (StableHlo.after hostOps1 W (Proc.devRef .tc main_v105) : (⟨S250000, .i32⟩ : BufTy).Contents (Elt F))
    = nodesK ![1, 0, 1, 0] slices_S2x3x2x250000_S1x1x1x250000_1_0_1_0 (W (Proc.devRef .tc main_arg5)) := by
  host1_results; rfl
theorem t14_v106 : (StableHlo.after hostOps1 W (Proc.devRef .tc main_v106) : (⟨S250000, .f32⟩ : BufTy).Contents (Elt F))
    = onesK := by
  host1_results; rfl
theorem t14_v109 : (StableHlo.after hostOps1 W (Proc.devRef .tc main_v109) : (⟨S50000, .f32⟩ : BufTy).Contents (Elt F))
    = countK (nodesK ![1, 0, 0, 0] slices_S2x3x2x250000_S1x1x1x250000_1_0_0_0 (W (Proc.devRef .tc main_arg5))) onesK := by
  host1_results; rfl
theorem t14_cst_24 : (StableHlo.after hostOps1 W (Proc.devRef .tc main_cst_24) : (⟨S_, .f32⟩ : BufTy).Contents (Elt F))
    = oneK := by
  host1_results; rfl
theorem t15_v110 : (StableHlo.after hostOps1_1 W (Proc.devRef .tc main_v110) : (⟨S50000, .f32⟩ : BufTy).Contents (Elt F))
    = clipK (W (Proc.devRef .tc main_cst_24)) (W (Proc.devRef .tc main_v109)) := by
  host1_results; rfl
theorem t16_v113 : (StableHlo.after hostOps1_2 W (Proc.devRef .tc main_v113) : (⟨S50000, .f32⟩ : BufTy).Contents (Elt F))
    = countK (W (Proc.devRef .tc main_v105)) (W (Proc.devRef .tc main_v106)) := by
  host1_results; rfl
theorem t16_cst_26 : (StableHlo.after hostOps1_2 W (Proc.devRef .tc main_cst_26) : (⟨S_, .f32⟩ : BufTy).Contents (Elt F))
    = oneK := by
  host1_results; rfl
theorem t17_v114 : (StableHlo.after hostOps1_3 W (Proc.devRef .tc main_v114) : (⟨S50000, .f32⟩ : BufTy).Contents (Elt F))
    = clipK (W (Proc.devRef .tc main_cst_26)) (W (Proc.devRef .tc main_v113)) := by
  host1_results; rfl
theorem t18_v132 : (StableHlo.after hostOps1_4 W (Proc.devRef .tc main_v132) : (⟨S50000x256, .f32⟩ : BufTy).Contents (Elt F))
    = aggK (W (Proc.devRef .tc main_v101)) (W (Proc.devRef .tc main_v103)) (W (Proc.devRef .tc main_v105)) (W (Proc.devRef .tc main_v110)) (W (Proc.devRef .tc main_v114)) := by
  host1_results; rfl

/-! ### Relation 1: its two lists, the ones, its source count; the clipped source degree; the target count and clipped target degree; the aggregate -/

theorem t18_v134 : (StableHlo.after hostOps1_4 W (Proc.devRef .tc main_v134) : (⟨S250000, .i32⟩ : BufTy).Contents (Elt F))
    = nodesK ![1, 1, 0, 0] slices_S2x3x2x250000_S1x1x1x250000_1_1_0_0 (W (Proc.devRef .tc main_arg5)) := by
  host1_results; rfl
theorem t18_v136 : (StableHlo.after hostOps1_4 W (Proc.devRef .tc main_v136) : (⟨S250000, .i32⟩ : BufTy).Contents (Elt F))
    = nodesK ![1, 1, 1, 0] slices_S2x3x2x250000_S1x1x1x250000_1_1_1_0 (W (Proc.devRef .tc main_arg5)) := by
  host1_results; rfl
theorem t18_v137 : (StableHlo.after hostOps1_4 W (Proc.devRef .tc main_v137) : (⟨S250000, .f32⟩ : BufTy).Contents (Elt F))
    = onesK := by
  host1_results; rfl
theorem t18_v140 : (StableHlo.after hostOps1_4 W (Proc.devRef .tc main_v140) : (⟨S50000, .f32⟩ : BufTy).Contents (Elt F))
    = countK (nodesK ![1, 1, 0, 0] slices_S2x3x2x250000_S1x1x1x250000_1_1_0_0 (W (Proc.devRef .tc main_arg5))) onesK := by
  host1_results; rfl
theorem t18_cst_32 : (StableHlo.after hostOps1_4 W (Proc.devRef .tc main_cst_32) : (⟨S_, .f32⟩ : BufTy).Contents (Elt F))
    = oneK := by
  host1_results; rfl
theorem t19_v141 : (StableHlo.after hostOps1_5 W (Proc.devRef .tc main_v141) : (⟨S50000, .f32⟩ : BufTy).Contents (Elt F))
    = clipK (W (Proc.devRef .tc main_cst_32)) (W (Proc.devRef .tc main_v140)) := by
  host1_results; rfl
theorem t20_v144 : (StableHlo.after hostOps1_6 W (Proc.devRef .tc main_v144) : (⟨S50000, .f32⟩ : BufTy).Contents (Elt F))
    = countK (W (Proc.devRef .tc main_v136)) (W (Proc.devRef .tc main_v137)) := by
  host1_results; rfl
theorem t20_cst_34 : (StableHlo.after hostOps1_6 W (Proc.devRef .tc main_cst_34) : (⟨S_, .f32⟩ : BufTy).Contents (Elt F))
    = oneK := by
  host1_results; rfl
theorem t21_v145 : (StableHlo.after hostOps1_7 W (Proc.devRef .tc main_v145) : (⟨S50000, .f32⟩ : BufTy).Contents (Elt F))
    = clipK (W (Proc.devRef .tc main_cst_34)) (W (Proc.devRef .tc main_v144)) := by
  host1_results; rfl
theorem t22_v163 : (StableHlo.after hostOps1_8 W (Proc.devRef .tc main_v163) : (⟨S50000x256, .f32⟩ : BufTy).Contents (Elt F))
    = aggK (W (Proc.devRef .tc main_v101)) (W (Proc.devRef .tc main_v134)) (W (Proc.devRef .tc main_v136)) (W (Proc.devRef .tc main_v141)) (W (Proc.devRef .tc main_v145)) := by
  host1_results; rfl

/-! ### Relation 2: its two lists, the ones, its source count; the clipped source degree; the target count and clipped target degree -/

theorem t22_v165 : (StableHlo.after hostOps1_8 W (Proc.devRef .tc main_v165) : (⟨S250000, .i32⟩ : BufTy).Contents (Elt F))
    = nodesK ![1, 2, 0, 0] slices_S2x3x2x250000_S1x1x1x250000_1_2_0_0 (W (Proc.devRef .tc main_arg5)) := by
  host1_results; rfl
theorem t22_v167 : (StableHlo.after hostOps1_8 W (Proc.devRef .tc main_v167) : (⟨S250000, .i32⟩ : BufTy).Contents (Elt F))
    = nodesK ![1, 2, 1, 0] slices_S2x3x2x250000_S1x1x1x250000_1_2_1_0 (W (Proc.devRef .tc main_arg5)) := by
  host1_results; rfl
theorem t22_v168 : (StableHlo.after hostOps1_8 W (Proc.devRef .tc main_v168) : (⟨S250000, .f32⟩ : BufTy).Contents (Elt F))
    = onesK := by
  host1_results; rfl
theorem t22_v171 : (StableHlo.after hostOps1_8 W (Proc.devRef .tc main_v171) : (⟨S50000, .f32⟩ : BufTy).Contents (Elt F))
    = countK (nodesK ![1, 2, 0, 0] slices_S2x3x2x250000_S1x1x1x250000_1_2_0_0 (W (Proc.devRef .tc main_arg5))) onesK := by
  host1_results; rfl
theorem t22_cst_40 : (StableHlo.after hostOps1_8 W (Proc.devRef .tc main_cst_40) : (⟨S_, .f32⟩ : BufTy).Contents (Elt F))
    = oneK := by
  host1_results; rfl
theorem t23_v172 : (StableHlo.after hostOps1_9 W (Proc.devRef .tc main_v172) : (⟨S50000, .f32⟩ : BufTy).Contents (Elt F))
    = clipK (W (Proc.devRef .tc main_cst_40)) (W (Proc.devRef .tc main_v171)) := by
  host1_results; rfl
theorem t24_v175 : (StableHlo.after hostOps1_10 W (Proc.devRef .tc main_v175) : (⟨S50000, .f32⟩ : BufTy).Contents (Elt F))
    = countK (W (Proc.devRef .tc main_v167)) (W (Proc.devRef .tc main_v168)) := by
  host1_results; rfl
theorem t24_cst_42 : (StableHlo.after hostOps1_10 W (Proc.devRef .tc main_cst_42) : (⟨S_, .f32⟩ : BufTy).Contents (Elt F))
    = oneK := by
  host1_results; rfl
theorem t25_v176 : (StableHlo.after hostOps1_11 W (Proc.devRef .tc main_v176) : (⟨S50000, .f32⟩ : BufTy).Contents (Elt F))
    = clipK (W (Proc.devRef .tc main_cst_42)) (W (Proc.devRef .tc main_v175)) := by
  host1_results; rfl

/-! ### Relation 2's aggregate, the three aggregates stacked; layer 1's weight and bias slabs; the output bias as a row -/

theorem t26_v198 : (StableHlo.after hostOps1_12 W (Proc.devRef .tc main_v198) : (⟨S3x50000x256, .f32⟩ : BufTy).Contents (Elt F))
    = Stg.stackK (W (Proc.devRef .tc main_v132)) (W (Proc.devRef .tc main_v163))
        (aggK (W (Proc.devRef .tc main_v101)) (W (Proc.devRef .tc main_v165)) (W (Proc.devRef .tc main_v167)) (W (Proc.devRef .tc main_v172)) (W (Proc.devRef .tc main_v176))) := by
  host1_results; rfl
theorem t26_v200 : (StableHlo.after hostOps1_12 W (Proc.devRef .tc main_v200) : (⟨S3x256x256, .f32⟩ : BufTy).Contents (Elt F))
    = Stg.wsK1 (W (Proc.devRef .tc main_arg1)) := by
  host1_results; rfl
theorem t26_v202 : (StableHlo.after hostOps1_12 W (Proc.devRef .tc main_v202) : (⟨S3x256, .f32⟩ : BufTy).Contents (Elt F))
    = Stg.bsK1 (W (Proc.devRef .tc main_arg2)) := by
  host1_results; rfl
theorem t28_v204 : (StableHlo.after hostOps2 W (Proc.devRef .tc main_v204) : (⟨S1x349, .f32⟩ : BufTy).Contents (Elt F))
    = Stg.boutK (W (Proc.devRef .tc main_arg4)) := by
  host1_results; rfl

end Closed

/-! ## The stretches chained from the first layer kernel's result and the launch contents -/

section Chain

variable (m : (ℓ : Loc nD τ sig) → Buf (Elt Ideal) ℓ) (o : Outs (F := Ideal)) (c : Dev nD)

theorem V14_arg1 : V14 m o c main_arg1 = m ((c.tc : Thread nD τ).loc main_arg1) :=
  (V14_of m o c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem V14_arg2 : V14 m o c main_arg2 = m ((c.tc : Thread nD τ).loc main_arg2) :=
  (V14_of m o c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
theorem V14_arg4 : V14 m o c main_arg4 = m ((c.tc : Thread nD τ).loc main_arg4) :=
  (V14_of m o c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem V14_arg5 : V14 m o c main_arg5 = m ((c.tc : Thread nD τ).loc main_arg5) :=
  (V14_of m o c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
theorem V18_arg5 : V18 m o c main_arg5 = m ((c.tc : Thread nD τ).loc main_arg5) :=
  (V18_of m o c main_arg5 (by decide)).trans <| (V17_of m o c main_arg5 (by decide)).trans <| (V16_of m o c main_arg5 (by decide)).trans <| (V15_of m o c main_arg5 (by decide)).trans <| V14_arg5 m o c
theorem V22_arg5 : V22 m o c main_arg5 = m ((c.tc : Thread nD τ).loc main_arg5) :=
  (V22_of m o c main_arg5 (by decide)).trans <| (V21_of m o c main_arg5 (by decide)).trans <| (V20_of m o c main_arg5 (by decide)).trans <| (V19_of m o c main_arg5 (by decide)).trans <| V18_arg5 m o c
theorem V26_arg1 : V26 m o c main_arg1 = m ((c.tc : Thread nD τ).loc main_arg1) :=
  (V26_of m o c main_arg1 (by decide)).trans <| (V25_of m o c main_arg1 (by decide)).trans <| (V24_of m o c main_arg1 (by decide)).trans <| (V23_of m o c main_arg1 (by decide)).trans <| (V22_of m o c main_arg1 (by decide)).trans <| (V21_of m o c main_arg1 (by decide)).trans <| (V20_of m o c main_arg1 (by decide)).trans <| (V19_of m o c main_arg1 (by decide)).trans <| (V18_of m o c main_arg1 (by decide)).trans <| (V17_of m o c main_arg1 (by decide)).trans <| (V16_of m o c main_arg1 (by decide)).trans <| (V15_of m o c main_arg1 (by decide)).trans <| V14_arg1 m o c
theorem V26_arg2 : V26 m o c main_arg2 = m ((c.tc : Thread nD τ).loc main_arg2) :=
  (V26_of m o c main_arg2 (by decide)).trans <| (V25_of m o c main_arg2 (by decide)).trans <| (V24_of m o c main_arg2 (by decide)).trans <| (V23_of m o c main_arg2 (by decide)).trans <| (V22_of m o c main_arg2 (by decide)).trans <| (V21_of m o c main_arg2 (by decide)).trans <| (V20_of m o c main_arg2 (by decide)).trans <| (V19_of m o c main_arg2 (by decide)).trans <| (V18_of m o c main_arg2 (by decide)).trans <| (V17_of m o c main_arg2 (by decide)).trans <| (V16_of m o c main_arg2 (by decide)).trans <| (V15_of m o c main_arg2 (by decide)).trans <| V14_arg2 m o c
theorem V28_arg4 : V28 m o c main_arg4 = m ((c.tc : Thread nD τ).loc main_arg4) :=
  (V28_of m o c main_arg4 (by decide)).trans <| (V27_of m o c main_arg4 (by decide)).trans <| (V26_of m o c main_arg4 (by decide)).trans <| (V25_of m o c main_arg4 (by decide)).trans <| (V24_of m o c main_arg4 (by decide)).trans <| (V23_of m o c main_arg4 (by decide)).trans <| (V22_of m o c main_arg4 (by decide)).trans <| (V21_of m o c main_arg4 (by decide)).trans <| (V20_of m o c main_arg4 (by decide)).trans <| (V19_of m o c main_arg4 (by decide)).trans <| (V18_of m o c main_arg4 (by decide)).trans <| (V17_of m o c main_arg4 (by decide)).trans <| (V16_of m o c main_arg4 (by decide)).trans <| (V15_of m o c main_arg4 (by decide)).trans <| V14_arg4 m o c
theorem V18_v101 : V18 m o c main_v101 = V14 m o c main_v101 :=
  (V18_of m o c main_v101 (by decide)).trans <| (V17_of m o c main_v101 (by decide)).trans <| (V16_of m o c main_v101 (by decide)).trans <| (V15_of m o c main_v101 (by decide)).trans <| rfl
theorem V22_v101 : V22 m o c main_v101 = V14 m o c main_v101 :=
  (V22_of m o c main_v101 (by decide)).trans <| (V21_of m o c main_v101 (by decide)).trans <| (V20_of m o c main_v101 (by decide)).trans <| (V19_of m o c main_v101 (by decide)).trans <| V18_v101 m o c
theorem V26_v101 : V26 m o c main_v101 = V14 m o c main_v101 :=
  (V26_of m o c main_v101 (by decide)).trans <| (V25_of m o c main_v101 (by decide)).trans <| (V24_of m o c main_v101 (by decide)).trans <| (V23_of m o c main_v101 (by decide)).trans <| V22_v101 m o c

/-! ### Relation 0 -/

theorem c_v103 : (V15 m o c main_v103 : (⟨S250000, .i32⟩ : BufTy).Contents (Elt Ideal)) = nodesK ![1, 0, 0, 0] slices_S2x3x2x250000_S1x1x1x250000_1_0_0_0 (m ((c.tc : Thread nD τ).loc main_arg5)) :=
  (t14_v103 (V14 m o c)).trans (by rw [V14_arg5])
theorem c_v105 : (V15 m o c main_v105 : (⟨S250000, .i32⟩ : BufTy).Contents (Elt Ideal)) = nodesK ![1, 0, 1, 0] slices_S2x3x2x250000_S1x1x1x250000_1_0_1_0 (m ((c.tc : Thread nD τ).loc main_arg5)) :=
  (t14_v105 (V14 m o c)).trans (by rw [V14_arg5])
theorem c_v106 : (V15 m o c main_v106 : (⟨S250000, .f32⟩ : BufTy).Contents (Elt Ideal)) = onesK :=
  t14_v106 (V14 m o c)
theorem c_v109 : (V15 m o c main_v109 : (⟨S50000, .f32⟩ : BufTy).Contents (Elt Ideal)) = countK (nodesK ![1, 0, 0, 0] slices_S2x3x2x250000_S1x1x1x250000_1_0_0_0 (m ((c.tc : Thread nD τ).loc main_arg5))) onesK :=
  (t14_v109 (V14 m o c)).trans (by rw [V14_arg5])
theorem c_cst_24 : (V15 m o c main_cst_24 : (⟨S_, .f32⟩ : BufTy).Contents (Elt Ideal)) = oneK :=
  t14_cst_24 (V14 m o c)
theorem c_v110 : (V16 m o c main_v110 : (⟨S50000, .f32⟩ : BufTy).Contents (Elt Ideal)) = degK (nodesK ![1, 0, 0, 0] slices_S2x3x2x250000_S1x1x1x250000_1_0_0_0 (m ((c.tc : Thread nD τ).loc main_arg5))) :=
  (t15_v110 (V15 m o c)).trans (by rw [c_cst_24, c_v109]; rfl)
theorem c_v113 : (V17 m o c main_v113 : (⟨S50000, .f32⟩ : BufTy).Contents (Elt Ideal)) = countK (nodesK ![1, 0, 1, 0] slices_S2x3x2x250000_S1x1x1x250000_1_0_1_0 (m ((c.tc : Thread nD τ).loc main_arg5))) onesK :=
  (t16_v113 (V16 m o c)).trans (by rw [V16_of m o c main_v105 (by decide), V16_of m o c main_v106 (by decide), c_v105, c_v106])
theorem c_cst_26 : (V17 m o c main_cst_26 : (⟨S_, .f32⟩ : BufTy).Contents (Elt Ideal)) = oneK :=
  t16_cst_26 (V16 m o c)
theorem c_v114 : (V18 m o c main_v114 : (⟨S50000, .f32⟩ : BufTy).Contents (Elt Ideal)) = degK (nodesK ![1, 0, 1, 0] slices_S2x3x2x250000_S1x1x1x250000_1_0_1_0 (m ((c.tc : Thread nD τ).loc main_arg5))) :=
  (t17_v114 (V17 m o c)).trans (by rw [c_cst_26, c_v113]; rfl)
theorem c_v132 : (V19 m o c main_v132 : (⟨S50000x256, .f32⟩ : BufTy).Contents (Elt Ideal)) = relK (V14 m o c main_v101) (nodesK ![1, 0, 0, 0] slices_S2x3x2x250000_S1x1x1x250000_1_0_0_0 (m ((c.tc : Thread nD τ).loc main_arg5))) (nodesK ![1, 0, 1, 0] slices_S2x3x2x250000_S1x1x1x250000_1_0_1_0 (m ((c.tc : Thread nD τ).loc main_arg5))) :=
  (t18_v132 (V18 m o c)).trans (by
    rw [V18_v101,
      show V18 m o c main_v103 = _ from (V18_of m o c main_v103 (by decide)).trans <| (V17_of m o c main_v103 (by decide)).trans <| (V16_of m o c main_v103 (by decide)).trans <| c_v103 m o c,
      show V18 m o c main_v105 = _ from (V18_of m o c main_v105 (by decide)).trans <| (V17_of m o c main_v105 (by decide)).trans <| (V16_of m o c main_v105 (by decide)).trans <| c_v105 m o c,
      show V18 m o c main_v110 = _ from (V18_of m o c main_v110 (by decide)).trans <| (V17_of m o c main_v110 (by decide)).trans <| c_v110 m o c,
      c_v114]; rfl)

/-! ### Relation 1 -/

theorem c_v134 : (V19 m o c main_v134 : (⟨S250000, .i32⟩ : BufTy).Contents (Elt Ideal)) = nodesK ![1, 1, 0, 0] slices_S2x3x2x250000_S1x1x1x250000_1_1_0_0 (m ((c.tc : Thread nD τ).loc main_arg5)) :=
  (t18_v134 (V18 m o c)).trans (by rw [V18_arg5])
theorem c_v136 : (V19 m o c main_v136 : (⟨S250000, .i32⟩ : BufTy).Contents (Elt Ideal)) = nodesK ![1, 1, 1, 0] slices_S2x3x2x250000_S1x1x1x250000_1_1_1_0 (m ((c.tc : Thread nD τ).loc main_arg5)) :=
  (t18_v136 (V18 m o c)).trans (by rw [V18_arg5])
theorem c_v137 : (V19 m o c main_v137 : (⟨S250000, .f32⟩ : BufTy).Contents (Elt Ideal)) = onesK :=
  t18_v137 (V18 m o c)
theorem c_v140 : (V19 m o c main_v140 : (⟨S50000, .f32⟩ : BufTy).Contents (Elt Ideal)) = countK (nodesK ![1, 1, 0, 0] slices_S2x3x2x250000_S1x1x1x250000_1_1_0_0 (m ((c.tc : Thread nD τ).loc main_arg5))) onesK :=
  (t18_v140 (V18 m o c)).trans (by rw [V18_arg5])
theorem c_cst_32 : (V19 m o c main_cst_32 : (⟨S_, .f32⟩ : BufTy).Contents (Elt Ideal)) = oneK :=
  t18_cst_32 (V18 m o c)
theorem c_v141 : (V20 m o c main_v141 : (⟨S50000, .f32⟩ : BufTy).Contents (Elt Ideal)) = degK (nodesK ![1, 1, 0, 0] slices_S2x3x2x250000_S1x1x1x250000_1_1_0_0 (m ((c.tc : Thread nD τ).loc main_arg5))) :=
  (t19_v141 (V19 m o c)).trans (by rw [c_cst_32, c_v140]; rfl)
theorem c_v144 : (V21 m o c main_v144 : (⟨S50000, .f32⟩ : BufTy).Contents (Elt Ideal)) = countK (nodesK ![1, 1, 1, 0] slices_S2x3x2x250000_S1x1x1x250000_1_1_1_0 (m ((c.tc : Thread nD τ).loc main_arg5))) onesK :=
  (t20_v144 (V20 m o c)).trans (by rw [V20_of m o c main_v136 (by decide), V20_of m o c main_v137 (by decide), c_v136, c_v137])
theorem c_cst_34 : (V21 m o c main_cst_34 : (⟨S_, .f32⟩ : BufTy).Contents (Elt Ideal)) = oneK :=
  t20_cst_34 (V20 m o c)
theorem c_v145 : (V22 m o c main_v145 : (⟨S50000, .f32⟩ : BufTy).Contents (Elt Ideal)) = degK (nodesK ![1, 1, 1, 0] slices_S2x3x2x250000_S1x1x1x250000_1_1_1_0 (m ((c.tc : Thread nD τ).loc main_arg5))) :=
  (t21_v145 (V21 m o c)).trans (by rw [c_cst_34, c_v144]; rfl)
theorem c_v163 : (V23 m o c main_v163 : (⟨S50000x256, .f32⟩ : BufTy).Contents (Elt Ideal)) = relK (V14 m o c main_v101) (nodesK ![1, 1, 0, 0] slices_S2x3x2x250000_S1x1x1x250000_1_1_0_0 (m ((c.tc : Thread nD τ).loc main_arg5))) (nodesK ![1, 1, 1, 0] slices_S2x3x2x250000_S1x1x1x250000_1_1_1_0 (m ((c.tc : Thread nD τ).loc main_arg5))) :=
  (t22_v163 (V22 m o c)).trans (by
    rw [V22_v101,
      show V22 m o c main_v134 = _ from (V22_of m o c main_v134 (by decide)).trans <| (V21_of m o c main_v134 (by decide)).trans <| (V20_of m o c main_v134 (by decide)).trans <| c_v134 m o c,
      show V22 m o c main_v136 = _ from (V22_of m o c main_v136 (by decide)).trans <| (V21_of m o c main_v136 (by decide)).trans <| (V20_of m o c main_v136 (by decide)).trans <| c_v136 m o c,
      show V22 m o c main_v141 = _ from (V22_of m o c main_v141 (by decide)).trans <| (V21_of m o c main_v141 (by decide)).trans <| c_v141 m o c,
      c_v145]; rfl)

/-! ### Relation 2 -/

theorem c_v165 : (V23 m o c main_v165 : (⟨S250000, .i32⟩ : BufTy).Contents (Elt Ideal)) = nodesK ![1, 2, 0, 0] slices_S2x3x2x250000_S1x1x1x250000_1_2_0_0 (m ((c.tc : Thread nD τ).loc main_arg5)) :=
  (t22_v165 (V22 m o c)).trans (by rw [V22_arg5])
theorem c_v167 : (V23 m o c main_v167 : (⟨S250000, .i32⟩ : BufTy).Contents (Elt Ideal)) = nodesK ![1, 2, 1, 0] slices_S2x3x2x250000_S1x1x1x250000_1_2_1_0 (m ((c.tc : Thread nD τ).loc main_arg5)) :=
  (t22_v167 (V22 m o c)).trans (by rw [V22_arg5])
theorem c_v168 : (V23 m o c main_v168 : (⟨S250000, .f32⟩ : BufTy).Contents (Elt Ideal)) = onesK :=
  t22_v168 (V22 m o c)
theorem c_v171 : (V23 m o c main_v171 : (⟨S50000, .f32⟩ : BufTy).Contents (Elt Ideal)) = countK (nodesK ![1, 2, 0, 0] slices_S2x3x2x250000_S1x1x1x250000_1_2_0_0 (m ((c.tc : Thread nD τ).loc main_arg5))) onesK :=
  (t22_v171 (V22 m o c)).trans (by rw [V22_arg5])
theorem c_cst_40 : (V23 m o c main_cst_40 : (⟨S_, .f32⟩ : BufTy).Contents (Elt Ideal)) = oneK :=
  t22_cst_40 (V22 m o c)
theorem c_v172 : (V24 m o c main_v172 : (⟨S50000, .f32⟩ : BufTy).Contents (Elt Ideal)) = degK (nodesK ![1, 2, 0, 0] slices_S2x3x2x250000_S1x1x1x250000_1_2_0_0 (m ((c.tc : Thread nD τ).loc main_arg5))) :=
  (t23_v172 (V23 m o c)).trans (by rw [c_cst_40, c_v171]; rfl)
theorem c_v175 : (V25 m o c main_v175 : (⟨S50000, .f32⟩ : BufTy).Contents (Elt Ideal)) = countK (nodesK ![1, 2, 1, 0] slices_S2x3x2x250000_S1x1x1x250000_1_2_1_0 (m ((c.tc : Thread nD τ).loc main_arg5))) onesK :=
  (t24_v175 (V24 m o c)).trans (by rw [V24_of m o c main_v167 (by decide), V24_of m o c main_v168 (by decide), c_v167, c_v168])
theorem c_cst_42 : (V25 m o c main_cst_42 : (⟨S_, .f32⟩ : BufTy).Contents (Elt Ideal)) = oneK :=
  t24_cst_42 (V24 m o c)
theorem c_v176 : (V26 m o c main_v176 : (⟨S50000, .f32⟩ : BufTy).Contents (Elt Ideal)) = degK (nodesK ![1, 2, 1, 0] slices_S2x3x2x250000_S1x1x1x250000_1_2_1_0 (m ((c.tc : Thread nD τ).loc main_arg5))) :=
  (t25_v176 (V25 m o c)).trans (by rw [c_cst_42, c_v175]; rfl)

/-- The stacked operand of the second layer kernel: the three relations' aggregates of the first layer's result. -/
theorem c_v198 : (V27 m o c main_v198 : (⟨S3x50000x256, .f32⟩ : BufTy).Contents (Elt Ideal))
    = Stg.stackK (relK (V14 m o c main_v101) (nodesK ![1, 0, 0, 0] slices_S2x3x2x250000_S1x1x1x250000_1_0_0_0 (m ((c.tc : Thread nD τ).loc main_arg5))) (nodesK ![1, 0, 1, 0] slices_S2x3x2x250000_S1x1x1x250000_1_0_1_0 (m ((c.tc : Thread nD τ).loc main_arg5)))) (relK (V14 m o c main_v101) (nodesK ![1, 1, 0, 0] slices_S2x3x2x250000_S1x1x1x250000_1_1_0_0 (m ((c.tc : Thread nD τ).loc main_arg5))) (nodesK ![1, 1, 1, 0] slices_S2x3x2x250000_S1x1x1x250000_1_1_1_0 (m ((c.tc : Thread nD τ).loc main_arg5))))
        (relK (V14 m o c main_v101) (nodesK ![1, 2, 0, 0] slices_S2x3x2x250000_S1x1x1x250000_1_2_0_0 (m ((c.tc : Thread nD τ).loc main_arg5))) (nodesK ![1, 2, 1, 0] slices_S2x3x2x250000_S1x1x1x250000_1_2_1_0 (m ((c.tc : Thread nD τ).loc main_arg5)))) :=
  (t26_v198 (V26 m o c)).trans (by
    rw [show V26 m o c main_v132 = _ from (V26_of m o c main_v132 (by decide)).trans <| (V25_of m o c main_v132 (by decide)).trans <| (V24_of m o c main_v132 (by decide)).trans <| (V23_of m o c main_v132 (by decide)).trans <| (V22_of m o c main_v132 (by decide)).trans <| (V21_of m o c main_v132 (by decide)).trans <| (V20_of m o c main_v132 (by decide)).trans <| c_v132 m o c,
      show V26 m o c main_v163 = _ from (V26_of m o c main_v163 (by decide)).trans <| (V25_of m o c main_v163 (by decide)).trans <| (V24_of m o c main_v163 (by decide)).trans <| c_v163 m o c,
      V26_v101,
      show V26 m o c main_v165 = _ from (V26_of m o c main_v165 (by decide)).trans <| (V25_of m o c main_v165 (by decide)).trans <| (V24_of m o c main_v165 (by decide)).trans <| c_v165 m o c,
      show V26 m o c main_v167 = _ from (V26_of m o c main_v167 (by decide)).trans <| (V25_of m o c main_v167 (by decide)).trans <| (V24_of m o c main_v167 (by decide)).trans <| c_v167 m o c,
      show V26 m o c main_v172 = _ from (V26_of m o c main_v172 (by decide)).trans <| (V25_of m o c main_v172 (by decide)).trans <| c_v172 m o c,
      c_v176]; rfl)

end Chain

/-! ## The aggregates are the reference's -/

section Same

variable {F : FTy → Type} [FloatOps F] [Named F]
variable (x0 : (⟨Cert.ReferenceIdeal.S50000x256, .f32⟩ : BufTy).Contents (Elt F)) (x1 : (⟨Cert.ReferenceIdeal.S2x3x256x256, .f32⟩ : BufTy).Contents (Elt F))
  (x2 : (⟨Cert.ReferenceIdeal.S2x3x256, .f32⟩ : BufTy).Contents (Elt F)) (x5 : (⟨Cert.ReferenceIdeal.S2x3x2x250000, .i32⟩ : BufTy).Contents (Elt F))

/-- Relation 0's aggregate of the reference's first-layer result is the reference's: the same operations in the same order. -/
theorem rel0_eq : relK (Cert.ReferenceIdeal.ReadP.val_main_v123 (F := F) x0 x1 x2 x5) (nodesK ![1, 0, 0, 0] slices_S2x3x2x250000_S1x1x1x250000_1_0_0_0 x5) (nodesK ![1, 0, 1, 0] slices_S2x3x2x250000_S1x1x1x250000_1_0_1_0 x5)
    = Cert.ReferenceIdeal.ReadP.val_main_v158 (F := F) x0 x1 x2 x5 := rfl
/-- Relation 1's aggregate is the reference's. -/
theorem rel1_eq : relK (Cert.ReferenceIdeal.ReadP.val_main_v123 (F := F) x0 x1 x2 x5) (nodesK ![1, 1, 0, 0] slices_S2x3x2x250000_S1x1x1x250000_1_1_0_0 x5) (nodesK ![1, 1, 1, 0] slices_S2x3x2x250000_S1x1x1x250000_1_1_1_0 x5)
    = Cert.ReferenceIdeal.ReadP.val_main_v197 (F := F) x0 x1 x2 x5 := rfl
/-- Relation 2's aggregate is the reference's. -/
theorem rel2_eq : relK (Cert.ReferenceIdeal.ReadP.val_main_v123 (F := F) x0 x1 x2 x5) (nodesK ![1, 2, 0, 0] slices_S2x3x2x250000_S1x1x1x250000_1_2_0_0 x5) (nodesK ![1, 2, 1, 0] slices_S2x3x2x250000_S1x1x1x250000_1_2_1_0 x5)
    = Cert.ReferenceIdeal.ReadP.val_main_v236 (F := F) x0 x1 x2 x5 := rfl

end Same

end L1

/-! ## The operands of the second layer kernel and of the projection kernel -/

variable (m : (ℓ : Loc nD τ sig) → Buf (Elt Ideal) ℓ) (o : Outs (F := Ideal))

/-- The stacked operand of the second layer kernel: once the first layer kernel has left the reference's first-layer
    result, the reference's three layer-1 aggregates, one slab each. -/
theorem host1_stack (c : Dev nD)
    (x0 : (⟨Cert.ReferenceIdeal.S50000x256, .f32⟩ : BufTy).Contents (Elt Ideal)) (x1 : (⟨Cert.ReferenceIdeal.S2x3x256x256, .f32⟩ : BufTy).Contents (Elt Ideal))
    (x2 : (⟨Cert.ReferenceIdeal.S2x3x256, .f32⟩ : BufTy).Contents (Elt Ideal))
    (hh : (V14 m o c main_v101 : FVec Ideal S50000x256 .f32) = Cert.ReferenceIdeal.ReadP.val_main_v123 (F := Ideal) x0 x1 x2 (m ((c.tc : Thread nD τ).loc main_arg5))) :
    (V27 m o c main_v198 : FVec Ideal S3x50000x256 .f32) =
      Stg.stackK (F := Ideal)
        (Cert.ReferenceIdeal.ReadP.val_main_v158 (F := Ideal) x0 x1 x2 (m ((c.tc : Thread nD τ).loc main_arg5)))
        (Cert.ReferenceIdeal.ReadP.val_main_v197 (F := Ideal) x0 x1 x2 (m ((c.tc : Thread nD τ).loc main_arg5)))
        (Cert.ReferenceIdeal.ReadP.val_main_v236 (F := Ideal) x0 x1 x2 (m ((c.tc : Thread nD τ).loc main_arg5))) :=
  (L1.c_v198 m o c).trans (by rw [hh, L1.rel0_eq, L1.rel1_eq, L1.rel2_eq])

/-- The weight operand: layer 1's slab of the weight array. -/
theorem host1_ws (c : Dev nD) : (V27 m o c main_v200 : FVec Ideal S3x256x256 .f32) = Stg.wsK1 (F := Ideal) (m ((c.tc : Thread nD τ).loc main_arg1)) :=
  (L1.t26_v200 (V26 m o c)).trans (by rw [L1.V26_arg1])

/-- The bias operand: layer 1's slab of the bias array. -/
theorem host1_bs (c : Dev nD) : (V27 m o c main_v202 : FVec Ideal S3x256 .f32) = Stg.bsK1 (F := Ideal) (m ((c.tc : Thread nD τ).loc main_arg2)) :=
  (L1.t26_v202 (V26 m o c)).trans (by rw [L1.V26_arg2])

/-- The projection kernel's first operand is what the second layer kernel left. -/
theorem host2_h (c : Dev nD) : V29 m o c main_v203 = o 28 main_v203 c := by
  rw [V29_of m o c main_v203 (by decide)]
  simp only [V28, Function.update_self]

/-- The projection matrix is as launched. -/
theorem host2_w (c : Dev nD) : V29 m o c main_arg3 = m ((c.tc : Thread nD τ).loc main_arg3) :=
  (V30_of m o c main_arg3 (by decide)).symm.trans (V30_main_arg3 m o c)

/-- The output bias as a one-row matrix. -/
theorem host2_b (c : Dev nD) : (V29 m o c main_v204 : FVec Ideal S1x349 .f32) = Stg.boutK (F := Ideal) (m ((c.tc : Thread nD τ).loc main_arg4)) :=
  (L1.t28_v204 (V28 m o c)).trans (by rw [L1.V28_arg4])

end Cert.KernelIdeal.Val
end
-- ==== Proof.RefLayers.lean ====
/-
  The reference's result as its dense stages composed: the head of the second layer of the aggregates of the first
  layer. Each equation only regroups the reference's own operations: the stage functions of the reader are the
  operations one by one, and the dense stages are the same operations named as layers.
-/
import proofs.«159030_j5789615915676_1_alg».proof.Proof.RefRead
import proofs.«159030_j5789615915676_1_alg».proof.Proof.RefStages

noncomputable section

namespace Cert.ReferenceIdeal.Stg

open Cert.ReferenceIdeal Cert.ReferenceIdeal.Gen Cert.ReferenceIdeal.ReadP Idealize.ShloMosaic Idealize.ShloMosaic.TcCoe Idealize.SL.Sem

variable {F : FTy → Type} [FloatOps F]

/-- The first layer's result is the first layer on its three aggregates. -/
theorem ref_layer0 (x0 : FVec F S50000x256 .f32) (x1 : FVec F S2x3x256x256 .f32) (x2 : FVec F S2x3x256 .f32) (x5 : (⟨S2x3x2x250000, .i32⟩ : BufTy).Contents (Elt F)) :
    val_main_v123 (F := F) x0 x1 x2 x5
      = layerR0 (val_main_v34 (F := F) x0 x5) (val_main_v73 (F := F) x0 x5) (val_main_v112 (F := F) x0 x5) x1 x2 := rfl

/-- The second layer's result is the second layer on its three aggregates. -/
theorem ref_layer1 (x0 : FVec F S50000x256 .f32) (x1 : FVec F S2x3x256x256 .f32) (x2 : FVec F S2x3x256 .f32) (x5 : (⟨S2x3x2x250000, .i32⟩ : BufTy).Contents (Elt F)) :
    val_main_v246 (F := F) x0 x1 x2 x5
      = layerR1 (val_main_v158 (F := F) x0 x1 x2 x5) (val_main_v197 (F := F) x0 x1 x2 x5) (val_main_v236 (F := F) x0 x1 x2 x5) x1 x2 := rfl

/-- The result is the head on the second layer's result. -/
theorem ref_proj (x0 : FVec F S50000x256 .f32) (x1 : FVec F S2x3x256x256 .f32) (x2 : FVec F S2x3x256 .f32) (x3 : FVec F S256x349 .f32)
    (x4 : FVec F S349 .f32) (x5 : (⟨S2x3x2x250000, .i32⟩ : BufTy).Contents (Elt F)) :
    val_main_v250 (F := F) x0 x1 x2 x3 x4 x5 = projR (val_main_v246 (F := F) x0 x1 x2 x5) x3 x4 := rfl

end Cert.ReferenceIdeal.Stg

end
-- ==== Proof.KIValue.lean ====
/-
  What the kernel program's result array holds at the end, as the reference's result function of the arguments.

  The result is what the projection's region leaves; that region is entered with the second layer's output, which
  is what the second region leaves; the second region is entered with the stack of the three aggregates of the
  first region's output; and the first region with the stack of the three aggregates of the input features. Region
  by region the array left is the reference's dense stage on the same inputs, and the aggregates are the
  reference's own aggregates, so the chain composes to the reference's result.
-/
import proofs.«159030_j5789615915676_1_alg».proof.Proof.KIFrame
import proofs.«159030_j5789615915676_1_alg».proof.Proof.KILayer0
import proofs.«159030_j5789615915676_1_alg».proof.Proof.KILayer1
import proofs.«159030_j5789615915676_1_alg».proof.Proof.KIProj
import proofs.«159030_j5789615915676_1_alg».proof.Proof.KIHost0
import proofs.«159030_j5789615915676_1_alg».proof.Proof.KIHost1
import proofs.«159030_j5789615915676_1_alg».proof.Proof.RefLayers

noncomputable section

namespace Cert.KernelIdeal.Val

open Cert.KernelIdeal Cert.KernelIdeal.Gen Cert.KernelIdeal.Frm
open Idealize.ShloMosaic Idealize.ShloMosaic.TcCoe Idealize.SL.Sem

variable (m : (ℓ : Loc nD τ sig) → Buf (Elt Ideal) ℓ) (c : Dev nD)

/-- The six argument arrays as launched. -/
abbrev X0 := m ((c.tc : Thread nD τ).loc main_arg0)
abbrev X1 := m ((c.tc : Thread nD τ).loc main_arg1)
abbrev X2 := m ((c.tc : Thread nD τ).loc main_arg2)
abbrev X3 := m ((c.tc : Thread nD τ).loc main_arg3)
abbrev X4 := m ((c.tc : Thread nD τ).loc main_arg4)
abbrev X5 := m ((c.tc : Thread nD τ).loc main_arg5)

/-- Each region's output array after the region is what the region's pipeline leaves in it. -/
theorem X14_out : X14 m c main_v101 = (dat0 (F := Ideal) (rd (V13 m)) c).arrAt 3 cfg0.N := by
  unfold X14; exact Pipeline.withArrays_arr spec0 launch0.win.arr_inj c _ _ 3
theorem X28_out : X28 m c main_v203 = (dat1 (F := Ideal) (rd (V27 m (outsA m))) c).arrAt 3 cfg1.N := by
  unfold X28; exact Pipeline.withArrays_arr spec1 launch1.win.arr_inj c _ _ 3
theorem X30_out : X30 m c main_v205 = (dat2 (F := Ideal) (rd (V29 m (outsB m))) c).arrAt 3 cfg2.N := by
  unfold X30; exact Pipeline.withArrays_arr spec2 launch2.win.arr_inj c _ _ 3

/-- What the first region leaves is the reference's first layer. -/
theorem first_val : (dat0 (F := Ideal) (rd (V13 m)) c).arrAt 3 cfg0.N
    = Cert.ReferenceIdeal.ReadP.val_main_v123 (F := Ideal) (X0 m c) (X1 m c) (X2 m c) (X5 m c) :=
  (layer0_value (rd (V13 m)) c _ _ _ (X1 m c) (X2 m c) (host0_stack m c) (host0_ws m c) (host0_bs m c)).trans
    (Cert.ReferenceIdeal.Stg.ref_layer0 (F := Ideal) (X0 m c) (X1 m c) (X2 m c) (X5 m c)).symm

/-- The second region is entered with the first layer's result in the first region's output array. -/
theorem first_out : V14 m (outsA m) c main_v101
    = Cert.ReferenceIdeal.ReadP.val_main_v123 (F := Ideal) (X0 m c) (X1 m c) (X2 m c) (X5 m c) :=
  (V14_out m (outsA m) c).trans ((show outsA m 14 main_v101 c = X14 m c main_v101 from rfl).trans ((X14_out m c).trans (first_val m c)))

/-- What the second region leaves is the reference's second layer. -/
theorem second_val : (dat1 (F := Ideal) (rd (V27 m (outsA m))) c).arrAt 3 cfg1.N
    = Cert.ReferenceIdeal.ReadP.val_main_v246 (F := Ideal) (X0 m c) (X1 m c) (X2 m c) (X5 m c) :=
  (layer1_value (rd (V27 m (outsA m))) c _ _ _ (X1 m c) (X2 m c)
      (host1_stack m (outsA m) c (X0 m c) (X1 m c) (X2 m c) (first_out m c)) (host1_ws m (outsA m) c) (host1_bs m (outsA m) c)).trans
    (Cert.ReferenceIdeal.Stg.ref_layer1 (F := Ideal) (X0 m c) (X1 m c) (X2 m c) (X5 m c)).symm

/-- The third region is entered with the second layer's result in the second region's output array. -/
theorem second_out : V29 m (outsB m) c main_v203
    = Cert.ReferenceIdeal.ReadP.val_main_v246 (F := Ideal) (X0 m c) (X1 m c) (X2 m c) (X5 m c) :=
  (host2_h m (outsB m) c).trans ((outsB_28 m c _).trans ((X28_out m c).trans (second_val m c)))

/-- THE VALUE: the result array at the end of the kernel program's run is the reference's result function of the
    argument arrays. -/
theorem result_val : outs m 30 main_v205 c
    = Cert.ReferenceIdeal.ReadP.val_main_v250 (F := Ideal) (X0 m c) (X1 m c) (X2 m c) (X3 m c) (X4 m c) (X5 m c) :=
  (outs_30 m c _).trans ((X30_out m c).trans
    ((proj_value (rd (V29 m (outsB m))) c _ (X3 m c) (X4 m c) (second_out m c) (host2_w m (outsB m) c) (host2_b m (outsB m) c)).trans
      (Cert.ReferenceIdeal.Stg.ref_proj (F := Ideal) (X0 m c) (X1 m c) (X2 m c) (X3 m c) (X4 m c) (X5 m c)).symm))

end Cert.KernelIdeal.Val

end
-- ==== Proof.lean ====
/-
  The certificate: an RGCN forward pass whose dense layers run as three kernel regions, against its plain reference.

  Both programs compute their six neighbourhood aggregates with the same host operations. The kernel program stacks
  a layer's three aggregates and runs one region over blocks of 2000 rows that, per row n and column j, forms
      ((((((0 + Σₖ a₀(n,k)·W₀(k,j)) + b₀(j)) + Σₖ a₁(n,k)·W₁(k,j)) + b₁(j)) + Σₖ a₂(n,k)·W₂(k,j)) + b₂(j)) · ⅓
  (followed by the maximum with zero in the first layer), where the reference forms
      (((0 + (Σₖ a₀·W₀ + b₀)) + (Σₖ a₁·W₁ + b₁)) + (Σₖ a₂·W₂ + b₂)) / 3.
  Over the extended reals addition commutes and associates and division by three is multiplication by the exact
  third, so the two agree at every entry, infinite ones included; the constant the kernel multiplies by is named and
  read as exactly one third. The head, features times a matrix plus a bias row, is the same sum on both sides. Hence
  the two results agree, and each program runs to the end leaving its arguments as launched.
-/
import proofs.«159030_j5789615915676_1_alg».proof.Defs
import proofs.«159030_j5789615915676_1_alg».proof.Proof.KFrame
import proofs.«159030_j5789615915676_1_alg».proof.Proof.KIFrame
import proofs.«159030_j5789615915676_1_alg».proof.Proof.KIValue
import proofs.«159030_j5789615915676_1_alg».proof.Proof.RefRead
import proofs.«159030_j5789615915676_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Frm.frame m ρ
/-- So does its idealization. -/
theorem frame_ki : Cert.frame_KernelIdeal := fun m ρ _ => Cert.KernelIdeal.Frm.frame m ρ
/-- The reference is host operations only: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both regions that average three relations multiply by a constant named one third: at the ideal values the named
    constant is exactly 1/3. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

/-- From memories that agree on the arguments both programs end with the reference's result function of the
    arguments in their result arrays. -/
theorem algebraic : Cert.algebraic_KernelIdeal_ReferenceIdeal := by
  intro m ρ m' ρ' _ hagree
  refine ⟨fun c => Cert.KernelIdeal.Frm.outs m 30 Cert.KernelIdeal.main_v205 c, Cert.KernelIdeal.Frm.run_val m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v250_eq, (hagree c).1, (hagree c).2.1, (hagree c).2.2.1, (hagree c).2.2.2.1,
    (hagree c).2.2.2.2.1, (hagree c).2.2.2.2.2]
  exact (Cert.KernelIdeal.Val.result_val m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
